-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S10000x256 : Shape := ⟨2, ![10000, 256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S2x256x256 .f32) (main_arg7 : FVec F S2x256 .f32) (main_arg8 : FVec F S1x256 .f32) (main_arg9 : FVec F S1 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S2x256x256 .f32 := Host.absf main_arg6
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg7
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg9 main_v33

def fn {F : FTy → Type} [FloatOps F] (main_arg0 : IVec S8192 32) (main_arg1 : IVec S8192 32) (main_arg2 : FVec F S8192x8192 .f32) (main_arg3 : FVec F S10000x256 .f32) (main_arg4 : FVec F S3x256x256 .f32) (main_arg5 : FVec F S3x256 .f32) (main_arg6 : FVec F S2x256x256 .f32) (main_arg7 : FVec F S2x256 .f32) (main_arg8 : FVec F S1x256 .f32) (main_arg9 : FVec F S1 .f32) : IVec S_ 1 :=
  let main_v0 : FVec F S8192x8192 .f32 := Host.absf main_arg2
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S10000x256 .f32 := Host.absf main_arg3
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S3x256x256 .f32 := Host.absf main_arg4
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg5
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg6 main_arg7 main_arg8 main_arg9 main_v13 main_v16
-- ==== Kernel.lean ====
abbrev S8192 : Shape := ⟨1, ![8192]⟩
abbrev S8192x8192 : Shape := ⟨2, ![8192, 8192]⟩
abbrev S10000x256 : Shape := ⟨2, ![10000, 256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S_ : Shape := ⟨0, ![]⟩
abbrev S8192x1 : Shape := ⟨2, ![8192, 1]⟩
abbrev S8192x256 : Shape := ⟨2, ![8192, 256]⟩
abbrev S1x256x256 : Shape := ⟨3, ![1, 256, 256]⟩
abbrev S256x256 : Shape := ⟨2, ![256, 256]⟩
abbrev S256 : Shape := ⟨1, ![256]⟩
abbrev S2048x2048 : Shape := ⟨2, ![2048, 2048]⟩
abbrev S2048x256 : Shape := ⟨2, ![2048, 256]⟩
abbrev S256x1 : Shape := ⟨2, ![256, 1]⟩
abbrev S1x1 : Shape := ⟨2, ![1, 1]⟩

abbrev nBuf : Space → Nat
  | .hbm => 127
  | .vmem => 21
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192x8192, .f32⟩
  | .hbm, ⟨3, _⟩ => ⟨S10000x256, .f32⟩
  | .hbm, ⟨4, _⟩ => ⟨S3x256x256, .f32⟩
  | .hbm, ⟨5, _⟩ => ⟨S3x256, .f32⟩
  | .hbm, ⟨6, _⟩ => ⟨S2x256x256, .f32⟩
  | .hbm, ⟨7, _⟩ => ⟨S2x256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x256, .f32⟩
  | .hbm, ⟨19, _⟩ => ⟨S1x256x256, .f32⟩
  | .hbm, ⟨20, _⟩ => ⟨S256x256, .f32⟩
  | .hbm, ⟨21, _⟩ => ⟨S256x256, .f32⟩
  | .hbm, ⟨22, _⟩ => ⟨S8192x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x256, .bf16⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S1x256x256, .f32⟩
  | .hbm, ⟨45, _⟩ => ⟨S256x256, .f32⟩
  | .hbm, ⟨46, _⟩ => ⟨S256x256, .f32⟩
  | .hbm, ⟨47, _⟩ => ⟨S8192x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S8192x256, .f32⟩
  | .hbm, ⟨55, _⟩ => ⟨S8192x256, .f32⟩
  | .hbm, ⟨56, _⟩ => ⟨S8192x256, .bf16⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x256, .f32⟩
  | .hbm, ⟨68, _⟩ => ⟨S8192x256, .f32⟩
  | .hbm, ⟨69, _⟩ => ⟨S1x256x256, .f32⟩
  | .hbm, ⟨70, _⟩ => ⟨S256x256, .f32⟩
  | .hbm, ⟨71, _⟩ => ⟨S256x256, .f32⟩
  | .hbm, ⟨72, _⟩ => ⟨S8192x256, .f32⟩
  | .hbm, ⟨73, _⟩ => ⟨S1x256, .f32⟩
  | .hbm, ⟨74, _⟩ => ⟨S256, .f32⟩
  | .hbm, ⟨75, _⟩ => ⟨S1x256, .f32⟩
  | .hbm, ⟨76, _⟩ => ⟨S8192x256, .f32⟩
  | .hbm, ⟨77, _⟩ => ⟨S8192x256, .f32⟩
  | .hbm, ⟨78, _⟩ => ⟨S_, .f32⟩
  | .hbm, ⟨79, _⟩ => ⟨S8192x256, .f32⟩
  | .hbm, ⟨80, _⟩ => ⟨S8192x256, .f32⟩
  | .hbm, ⟨81, _⟩ => ⟨S8192x256, .bf16⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S8192x256, .f32⟩
  | .hbm, ⟨93, _⟩ => ⟨S8192x256, .f32⟩
  | .hbm, ⟨94, _⟩ => ⟨S_, .f32⟩
  | .hbm, ⟨95, _⟩ => ⟨S256x256, .f32⟩
  | .hbm, ⟨96, _⟩ => ⟨S8192x1, .i32⟩
  | .hbm, ⟨97, _⟩ => ⟨S256x256, .f32⟩
  | .hbm, ⟨98, _⟩ => ⟨S1x256x256, .f32⟩
  | .hbm, ⟨99, _⟩ => ⟨S256x256, .f32⟩
  | .hbm, ⟨100, _⟩ => ⟨S256x256, .f32⟩
  | .hbm, ⟨101, _⟩ => ⟨S256x256, .f32⟩
  | .hbm, ⟨102, _⟩ => ⟨S1x256, .f32⟩
  | .hbm, ⟨103, _⟩ => ⟨S256, .f32⟩
  | .hbm, ⟨104, _⟩ => ⟨S1x256, .f32⟩
  | .hbm, ⟨105, _⟩ => ⟨S256x256, .f32⟩
  | .hbm, ⟨106, _⟩ => ⟨S256x256, .f32⟩
  | .hbm, ⟨107, _⟩ => ⟨S_, .f32⟩
  | .hbm, ⟨108, _⟩ => ⟨S256x256, .f32⟩
  | .hbm, ⟨109, _⟩ => ⟨S256x256, .f32⟩
  | .hbm, ⟨110, _⟩ => ⟨S1x256x256, .f32⟩
  | .hbm, ⟨111, _⟩ => ⟨S256x256, .f32⟩
  | .hbm, ⟨112, _⟩ => ⟨S256x256, .f32⟩
  | .hbm, ⟨113, _⟩ => ⟨S256x256, .f32⟩
  | .hbm, ⟨114, _⟩ => ⟨S1x256, .f32⟩
  | .hbm, ⟨115, _⟩ => ⟨S256, .f32⟩
  | .hbm, ⟨116, _⟩ => ⟨S1x256, .f32⟩
  | .hbm, ⟨117, _⟩ => ⟨S256x256, .f32⟩
  | .hbm, ⟨118, _⟩ => ⟨S256x256, .f32⟩
  | .hbm, ⟨119, _⟩ => ⟨S_, .f32⟩
  | .hbm, ⟨120, _⟩ => ⟨S256x256, .f32⟩
  | .hbm, ⟨121, _⟩ => ⟨S256x256, .f32⟩
  | .hbm, ⟨122, _⟩ => ⟨S256x1, .f32⟩
  | .hbm, ⟨123, _⟩ => ⟨S256x1, .f32⟩
  | .hbm, ⟨124, _⟩ => ⟨S1x1, .f32⟩
  | .hbm, ⟨125, _⟩ => ⟨S256x1, .f32⟩
  | .hbm, ⟨126, _⟩ => ⟨S256x1, .f32⟩
  | .local _ .vmem, ⟨0, _⟩ => ⟨S2048x2048, .f32⟩
  | .local _ .vmem, ⟨1, _⟩ => ⟨S2048x2048, .f32⟩
  | .local _ .vmem, ⟨2, _⟩ => ⟨S2048x256, .bf16⟩
  | .local _ .vmem, ⟨3, _⟩ => ⟨S2048x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x2048, .f32⟩
  | .local _ .vmem, ⟨8, _⟩ => ⟨S2048x2048, .f32⟩
  | .local _ .vmem, ⟨9, _⟩ => ⟨S2048x256, .bf16⟩
  | .local _ .vmem, ⟨10, _⟩ => ⟨S2048x256, .bf16⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x2048, .f32⟩
  | .local _ .vmem, ⟨15, _⟩ => ⟨S2048x2048, .f32⟩
  | .local _ .vmem, ⟨16, _⟩ => ⟨S2048x256, .bf16⟩
  | .local _ .vmem, ⟨17, _⟩ => ⟨S2048x256, .bf16⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_call1_v2 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call2_cst : Ref sig .tc := ⟨.hbm, 53, rfl⟩
abbrev main_call2_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call3_v0 : Ref sig .tc := ⟨.hbm, 59, rfl⟩
abbrev main_call3_cst : Ref sig .tc := ⟨.hbm, 60, rfl⟩
abbrev main_call3_v1 : Ref sig .tc := ⟨.hbm, 61, rfl⟩
abbrev main_call3_v2 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call4_cst : Ref sig .tc := ⟨.hbm, 78, rfl⟩
abbrev main_call4_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call5_v0 : Ref sig .tc := ⟨.hbm, 84, rfl⟩
abbrev main_call5_cst : Ref sig .tc := ⟨.hbm, 85, rfl⟩
abbrev main_call5_v1 : Ref sig .tc := ⟨.hbm, 86, rfl⟩
abbrev main_call5_v2 : Ref sig .tc := ⟨.hbm, 87, rfl⟩
abbrev main_v56 : Ref sig .tc := ⟨.hbm, 88, rfl⟩
abbrev main_cst_2 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_3 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call6_cst : Ref sig .tc := ⟨.hbm, 107, rfl⟩
abbrev main_call6_v0 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call7_cst : Ref sig .tc := ⟨.hbm, 119, rfl⟩
abbrev main_call7_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  reducesTo_S8192x256_S8192_d1 : S8192x256.ReducesTo [1] S8192
  h_S_ : 0 < S_.numel
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  slices_S2x256x256_S1x256x256_0_0_0 : S2x256x256.Slices ![0, 0, 0] S1x256x256
  slices_S2x256_S1x256_0_0 : S2x256.Slices ![0, 0] S1x256
  bcast_S1x256_S256x256_0_1 : S1x256.BroadcastsInDim S256x256 (![0, 1] : Fin 2 → Fin S256x256.rank)
  slices_S2x256x256_S1x256x256_1_0_0 : S2x256x256.Slices ![1, 0, 0] S1x256x256
  slices_S2x256_S1x256_1_0 : S2x256.Slices ![1, 0] S1x256
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S10000x256_S8192x1_S8192x256_1_0_n_n_0_1_1256_wf : GatherDims.WF S10000x256 S8192x1 S8192x256 [1] [0] [] [0] [] 1 ![1, 256]
  dot_S8192x256_S256x256_S8192x256_1_0_0_1_n_n_wf : DotDims.WF S8192x256 S256x256 S8192x256 [1] [0] [0] [1] [] []
  dot_S2048x2048_S2048x256_S2048x256_1_0_0_1_n_n_wf : DotDims.WF S2048x2048 S2048x256 S2048x256 [1] [0] [0] [1] [] []
  scatter_S256x256_S8192x1_S8192x256_1_0_0_1_wf : ScatterDims.WF S256x256 S8192x1 S8192x256 [1] [0] [0] 1
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .f32 = 32 ∨ (Rect.block (s := S8192x8192) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .f32 = 32 ∨ (Rect.block (s := S8192x8192) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .bf16 = 32 ∨ (Rect.block (s := S8192x256) S2048x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S8192x256.size a
  hwx2_2 : ∀ i : grid2.Coords, EltTy.bits .f32 = 32 ∨ (Rect.block (s := S8192x256) S2048x256.size (cc2_transform_2 i) (hinb2_2 i)).WholeWords (EltTy.packing .f32)

variable [Facts₀]

def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def scatter_S256x256_S8192x1_S8192x256_1_0_0_1 : ScatterDims S256x256 S8192x1 S8192x256 where
  updateWindowDims := [1]
  insertedWindowDims := [0]
  scatterDimsToOperandDims := [0]
  indexVectorDim := 1
  wf := scatter_S256x256_S8192x1_S8192x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg2) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg2) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S8192x8192 : Shape := ⟨2, ![8192, 8192]⟩
abbrev S10000x256 : Shape := ⟨2, ![10000, 256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S_ : Shape := ⟨0, ![]⟩
abbrev S8192x1 : Shape := ⟨2, ![8192, 1]⟩
abbrev S8192x256 : Shape := ⟨2, ![8192, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192x8192, .f32⟩
  | .hbm, ⟨3, _⟩ => ⟨S10000x256, .f32⟩
  | .hbm, ⟨4, _⟩ => ⟨S3x256x256, .f32⟩
  | .hbm, ⟨5, _⟩ => ⟨S3x256, .f32⟩
  | .hbm, ⟨6, _⟩ => ⟨S2x256x256, .f32⟩
  | .hbm, ⟨7, _⟩ => ⟨S2x256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x256, .f32⟩
  | .hbm, ⟨19, _⟩ => ⟨S1x256x256, .f32⟩
  | .hbm, ⟨20, _⟩ => ⟨S256x256, .f32⟩
  | .hbm, ⟨21, _⟩ => ⟨S256x256, .f32⟩
  | .hbm, ⟨22, _⟩ => ⟨S8192x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S1x256x256, .f32⟩
  | .hbm, ⟨44, _⟩ => ⟨S256x256, .f32⟩
  | .hbm, ⟨45, _⟩ => ⟨S256x256, .f32⟩
  | .hbm, ⟨46, _⟩ => ⟨S8192x256, .f32⟩
  | .hbm, ⟨47, _⟩ => ⟨S1x256, .f32⟩
  | .hbm, ⟨48, _⟩ => ⟨S256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x256, .f32⟩
  | .hbm, ⟨66, _⟩ => ⟨S8192x256, .f32⟩
  | .hbm, ⟨67, _⟩ => ⟨S1x256x256, .f32⟩
  | .hbm, ⟨68, _⟩ => ⟨S256x256, .f32⟩
  | .hbm, ⟨69, _⟩ => ⟨S256x256, .f32⟩
  | .hbm, ⟨70, _⟩ => ⟨S8192x256, .f32⟩
  | .hbm, ⟨71, _⟩ => ⟨S1x256, .f32⟩
  | .hbm, ⟨72, _⟩ => ⟨S256, .f32⟩
  | .hbm, ⟨73, _⟩ => ⟨S1x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S8192x256, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x256, .f32⟩
  | .hbm, ⟨90, _⟩ => ⟨S8192x256, .f32⟩
  | .hbm, ⟨91, _⟩ => ⟨S_, .f32⟩
  | .hbm, ⟨92, _⟩ => ⟨S256x256, .f32⟩
  | .hbm, ⟨93, _⟩ => ⟨S8192x1, .i32⟩
  | .hbm, ⟨94, _⟩ => ⟨S256x256, .f32⟩
  | .hbm, ⟨95, _⟩ => ⟨S1x256x256, .f32⟩
  | .hbm, ⟨96, _⟩ => ⟨S256x256, .f32⟩
  | .hbm, ⟨97, _⟩ => ⟨S256x256, .f32⟩
  | .hbm, ⟨98, _⟩ => ⟨S256x256, .f32⟩
  | .hbm, ⟨99, _⟩ => ⟨S1x256, .f32⟩
  | .hbm, ⟨100, _⟩ => ⟨S256, .f32⟩
  | .hbm, ⟨101, _⟩ => ⟨S1x256, .f32⟩
  | .hbm, ⟨102, _⟩ => ⟨S256x256, .f32⟩
  | .hbm, ⟨103, _⟩ => ⟨S256x256, .f32⟩
  | .hbm, ⟨104, _⟩ => ⟨S_, .f32⟩
  | .hbm, ⟨105, _⟩ => ⟨S256x256, .f32⟩
  | .hbm, ⟨106, _⟩ => ⟨S256x256, .f32⟩
  | .hbm, ⟨107, _⟩ => ⟨S1x256x256, .f32⟩
  | .hbm, ⟨108, _⟩ => ⟨S256x256, .f32⟩
  | .hbm, ⟨109, _⟩ => ⟨S256x256, .f32⟩
  | .hbm, ⟨110, _⟩ => ⟨S256x256, .f32⟩
  | .hbm, ⟨111, _⟩ => ⟨S1x256, .f32⟩
  | .hbm, ⟨112, _⟩ => ⟨S256, .f32⟩
  | .hbm, ⟨113, _⟩ => ⟨S1x256, .f32⟩
  | .hbm, ⟨114, _⟩ => ⟨S256x256, .f32⟩
  | .hbm, ⟨115, _⟩ => ⟨S256x256, .f32⟩
  | .hbm, ⟨116, _⟩ => ⟨S_, .f32⟩
  | .hbm, ⟨117, _⟩ => ⟨S256x256, .f32⟩
  | .hbm, ⟨118, _⟩ => ⟨S256x256, .f32⟩
  | .hbm, ⟨119, _⟩ => ⟨S256x1, .f32⟩
  | .hbm, ⟨120, _⟩ => ⟨S256x1, .f32⟩
  | .hbm, ⟨121, _⟩ => ⟨S1x1, .f32⟩
  | .hbm, ⟨122, _⟩ => ⟨S256x1, .f32⟩
  | .hbm, ⟨123, _⟩ => ⟨S256x1, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_call3_v2 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call4_cst : Ref sig .tc := ⟨.hbm, 76, rfl⟩
abbrev main_call4_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call5_v0 : Ref sig .tc := ⟨.hbm, 81, rfl⟩
abbrev main_call5_cst : Ref sig .tc := ⟨.hbm, 82, rfl⟩
abbrev main_call5_v1 : Ref sig .tc := ⟨.hbm, 83, rfl⟩
abbrev main_call5_v2 : Ref sig .tc := ⟨.hbm, 84, rfl⟩
abbrev main_v53 : Ref sig .tc := ⟨.hbm, 85, rfl⟩
abbrev main_cst_2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_3 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call6_cst : Ref sig .tc := ⟨.hbm, 104, rfl⟩
abbrev main_call6_v0 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call7_cst : Ref sig .tc := ⟨.hbm, 116, rfl⟩
abbrev main_call7_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S8192_d1 : S8192x256.ReducesTo [1] S8192
  h_S_ : 0 < S_.numel
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  slices_S2x256x256_S1x256x256_0_0_0 : S2x256x256.Slices ![0, 0, 0] S1x256x256
  slices_S2x256_S1x256_0_0 : S2x256.Slices ![0, 0] S1x256
  bcast_S1x256_S256x256_0_1 : S1x256.BroadcastsInDim S256x256 (![0, 1] : Fin 2 → Fin S256x256.rank)
  slices_S2x256x256_S1x256x256_1_0_0 : S2x256x256.Slices ![1, 0, 0] S1x256x256
  slices_S2x256_S1x256_1_0 : S2x256.Slices ![1, 0] S1x256
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S10000x256_S8192x1_S8192x256_1_0_n_n_0_1_1256_wf : GatherDims.WF S10000x256 S8192x1 S8192x256 [1] [0] [] [0] [] 1 ![1, 256]
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []
  scatter_S256x256_S8192x1_S8192x256_1_0_0_1_wf : ScatterDims.WF S256x256 S8192x1 S8192x256 [1] [0] [0] 1
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []

variable [Facts₀]

def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def scatter_S256x256_S8192x1_S8192x256_1_0_0_1 : ScatterDims S256x256 S8192x1 S8192x256 where
  updateWindowDims := [1]
  insertedWindowDims := [0]
  scatterDimsToOperandDims := [0]
  indexVectorDim := 1
  wf := scatter_S256x256_S8192x1_S8192x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.K.RunCond.lean ====
/-
  The whole program's run with its result named. Between any two items of the program every buffer outside the
  kernels' own is held at a stated valuation: the launch contents, then each host stretch applied in turn, each
  kernel region's output array replaced by what the region leaves. Given one segment record per region that
  enters at the valuation before it and leaves at the one after it, every execution ends, the arguments are as
  launched, and the result buffer holds the last valuation's entry for it.
-/
import proofs.«130713_j75840532512927_1_alg».proof.Proof.Gen.Kernel.Regions

set_option maxRecDepth 1104

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c)) :
    θ_run defs (onTc (τ := τ) (main (F := F))) ⟨m, fun _ => 0, ρ⟩ (fun r => ∀ c : Dev nD,
      r.2.mem ((c.tc : Thread nD τ).loc main_v88) = V23 m outs c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, .rfl, .rfl, hpre0 c, hpost0 c, .rfl, .rfl, .rfl, .rfl, hpre1 c, hpost1 c, .rfl, .rfl, .rfl, .rfl, hpre2 c, hpost2 c, .rfl, .rfl, .rfl, .rfl, .rfl, .rfl, sep_mono .rfl (hE3 c)⟩)
    (hinit := ?_) (QY := fun c s => s.mem ((c.tc : Thread nD τ).loc main_v88) = V23 m outs c main_v88 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the buffers are held at the launch contents; what else the launch deals makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact ⟨h (Proc.devRef .tc main_v88) (Finset.mem_filter.mpr ⟨StableHlo.devRef_mem_tcRefs main_v88, by decide⟩),
        (h (Proc.devRef .tc main_arg0) (Finset.mem_filter.mpr ⟨StableHlo.devRef_mem_tcRefs main_arg0, by decide⟩)).trans (V23_main_arg0 m outs c),
        (h (Proc.devRef .tc main_arg1) (Finset.mem_filter.mpr ⟨StableHlo.devRef_mem_tcRefs main_arg1, by decide⟩)).trans (V23_main_arg1 m outs c),
        (h (Proc.devRef .tc main_arg2) (Finset.mem_filter.mpr ⟨StableHlo.devRef_mem_tcRefs main_arg2, by decide⟩)).trans (V23_main_arg2 m outs c),
        (h (Proc.devRef .tc main_arg3) (Finset.mem_filter.mpr ⟨StableHlo.devRef_mem_tcRefs main_arg3, by decide⟩)).trans (V23_main_arg3 m outs c),
        (h (Proc.devRef .tc main_arg4) (Finset.mem_filter.mpr ⟨StableHlo.devRef_mem_tcRefs main_arg4, by decide⟩)).trans (V23_main_arg4 m outs c),
        (h (Proc.devRef .tc main_arg5) (Finset.mem_filter.mpr ⟨StableHlo.devRef_mem_tcRefs main_arg5, by decide⟩)).trans (V23_main_arg5 m outs c),
        (h (Proc.devRef .tc main_arg6) (Finset.mem_filter.mpr ⟨StableHlo.devRef_mem_tcRefs main_arg6, by decide⟩)).trans (V23_main_arg6 m outs c),
        (h (Proc.devRef .tc main_arg7) (Finset.mem_filter.mpr ⟨StableHlo.devRef_mem_tcRefs main_arg7, by decide⟩)).trans (V23_main_arg7 m outs c),
        (h (Proc.devRef .tc main_arg8) (Finset.mem_filter.mpr ⟨StableHlo.devRef_mem_tcRefs main_arg8, by decide⟩)).trans (V23_main_arg8 m outs c),
        (h (Proc.devRef .tc main_arg9) (Finset.mem_filter.mpr ⟨StableHlo.devRef_mem_tcRefs main_arg9, by decide⟩)).trans (V23_main_arg9 m outs c)⟩
    · iexact HSI

end Cert.Kernel.Hand

end
-- ==== Proof.K.Block.lean ====
/-
  A whole-block access: the block read or written through the rectangle at zero offsets of the block's own size.
  One store of that kind covers the block, and so do two.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, however they are spelt. -/
theorem zero_off : (![0, 0] : Fin 2 → Nat) = fun _ => 0 := funext fun a => by fin_cases a <;> rfl

/-- A single store through the whole block covers the block. -/
theorem cover_one {e : EltTy} (w : S2048x256.Idx → Elt F e) (y : S2048x256.Idx) :
    ∃ p ∈ [(⟨Rect.unit (s := S2048x256) ![0, 0] S2048x256.size inb_S2048x256_S2048x256_0_0, w⟩ : View.Piece (Elt F) S2048x256 e)], y ∈ p.1.set :=
  View.cover_of_tiledL _ S2048x256.size (by sl_kernel_rfl) y

/-- Two stores through the whole block cover it too. -/
theorem cover_two {e : EltTy} (w w' : S2048x256.Idx → Elt F e) (y : S2048x256.Idx) :
    ∃ p ∈ [(⟨Rect.unit (s := S2048x256) ![0, 0] S2048x256.size inb_S2048x256_S2048x256_0_0, w⟩ : View.Piece (Elt F) S2048x256 e),
      ⟨Rect.unit (s := S2048x256) ![0, 0] S2048x256.size inb_S2048x256_S2048x256_0_0, w'⟩], y ∈ p.1.set :=
  by
    obtain ⟨p, hp, hy⟩ := cover_one (F := F) w y
    rw [List.mem_singleton.mp hp] at hy
    exact ⟨_, List.mem_cons.mpr (Or.inl rfl), hy⟩

end Cert.Kernel.Hand

end
-- ==== Proof.K.Step0.lean ====
/-
  One step of the blocked product, region 0. The kernel walks a 4 x 4 grid of (row block, column block): at the
  first column block of a row it clears the accumulator, at every step it adds the product of the adjacency
  block (read as bf16) with the matching 2048 rows of the features, and at the last column block it copies the
  accumulator to the output block. Here: what one call of the kernel function leaves in its four buffers, in
  each of the three situations a step can be in, with the contents written out.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import proofs.«130713_j75840532512927_1_alg».proof.Proof.K.Block
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step is the first of its row of blocks (column block 0): the accumulator is cleared. -/
abbrev first0 (i : grid0.Coords) : Prop := (Scalar.cmpi .ne (Scalar.extui (Scalar.cmpi .eq (BitVec.ofNat 32 (i 1).val) 0#32)) 0#32) = 1#1
/-- The step is the last of its row of blocks (column block 3): the accumulator is copied out. -/
abbrev last0 (i : grid0.Coords) : Prop := k0_cond2 i = 1#1

/-- The accumulator after a step that found it at `s`: `s` plus the product of the two blocks. -/
abbrev step0 (a : Vec F S2048x2048 .f32) (s : Vec F S2048x256 .f32) (h : Vec F S2048x256 .bf16) : Vec F S2048x256 .f32 := k0_pay2 a s h
/-- The cleared accumulator. -/
abbrev clear0 : Vec F S2048x256 .f32 := k0_pay1

set_option maxHeartbeats 2000000 in
/-- A middle step: the accumulator goes from `s` to `step0 a s h`; the output block is left alone. -/
theorem run0_mid (c : Dev nD) (i : grid0.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first0 i) (hl : ¬last0 i)
    (a : Vec F S2048x2048 .f32) (h : Vec F S2048x256 .bf16) (x4 : Vec F S2048x256 .f32) (s : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ owns (c : Thread nD τ) arg5 fullShare s
        ∗ (iprop(owns (c : Thread nD τ) arg2 fullShare a ∗ owns (c : Thread nD τ) arg3 fullShare h ∗ owns (c : Thread nD τ) arg4 fullShare x4 ∗ owns (c : Thread nD τ) arg5 fullShare (step0 a s h)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

set_option maxHeartbeats 2000000 in
/-- A first step: the accumulator, whatever it held, is cleared and then stepped; the output block is left alone. -/
theorem run0_first (c : Dev nD) (i : grid0.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : first0 i) (hl : ¬last0 i)
    (a : Vec F S2048x2048 .f32) (h : Vec F S2048x256 .bf16) (x4 : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ (∃ s, owns (c : Thread nD τ) arg5 fullShare s)
        ∗ (iprop(owns (c : Thread nD τ) arg2 fullShare a ∗ owns (c : Thread nD τ) arg3 fullShare h ∗ owns (c : Thread nD τ) arg4 fullShare x4 ∗ owns (c : Thread nD τ) arg5 fullShare (step0 a clear0 h)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (cover_two _ _), View.canon_cons_unit_zero (S := S2048x256) zero_off]
  simp only [View.readAt_eq_ld, harg2.read_unread, harg3.read_unread,
    View.ld_unit_zero (S := S2048x2048) zero_off, View.ld_unit_zero (S := S2048x256) zero_off,
    View.readCov_unit_zero (S := S2048x256) _ zero_off]

set_option maxHeartbeats 2000000 in
/-- A last step: the accumulator goes from `s` to `step0 a s h`, and the output block receives the same. -/
theorem run0_last (c : Dev nD) (i : grid0.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first0 i) (hl : last0 i)
    (a : Vec F S2048x2048 .f32) (h : Vec F S2048x256 .bf16) (s : Vec F S2048x256 .f32)
    (E : Set ℕ) (K : PUnit → sProp 𝕄) :
    iprop(owns (c : Thread nD τ) arg2 fullShare a ∗ owns (c : Thread nD τ) arg3 fullShare h ∗ (∃ d, owns (c : Thread nD τ) arg4 fullShare d) ∗ owns (c : Thread nD τ) arg5 fullShare s
        ∗ (iprop(owns (c : Thread nD τ) arg2 fullShare a ∗ owns (c : Thread nD τ) arg3 fullShare h ∗ owns (c : Thread nD τ) arg4 fullShare (step0 a s h) ∗ owns (c : Thread nD τ) arg5 fullShare (step0 a s h)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_one _), View.canon_unit_zero zero_off]
    simp only [View.readAt_eq_ld, harg2.read_unread, harg3.read_unread, harg5.read_unread,
      View.ld_unit_zero (S := S2048x2048) zero_off, View.ld_unit_zero (S := S2048x256) zero_off,
      View.readCov_unit_zero (S := S2048x256) _ zero_off]
  iexists _; isplitr
  swap; · iexact H5
  ipureintro
  sl_unfold_words
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

end Cert.Kernel.Hand

end
-- ==== Proof.K.Data0.lean ====
/-
  The blocked product of region 0, step by step. The sixteen steps run through the row blocks, four column blocks
  each. Stated here: each step's two input blocks as parts of the arrays the region is entered with; the
  accumulator after every step (cleared at the head of a row of blocks, then one product added per step); the
  invariant that carries it from step to step; and that one call of the kernel function takes the invariant, the
  two input blocks and the output block from one step to the next — the output block receiving the accumulator at
  the end of a row and being left alone elsewhere.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import proofs.«130713_j75840532512927_1_alg».proof.Proof.K.Step0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the TensorCore's buffers when the region is entered
variable (V : (c : Dev nD) → (b : Ref sig .tc) → Buf (Elt F) ((c : Thread nD τ).loc b))

/-! ## The blocks and the step's situation -/

/-- Window `w`'s block at step `t`, a part of its array as the region finds it. -/
def blkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block of step `t` -/
abbrev adjR0 (c : Dev nD) (t : Fin cfg0.N) : Vec F S2048x2048 .f32 := blkR0 V c 0 t
/-- and the feature rows it meets. -/
abbrev featR0 (c : Dev nD) (t : Fin cfg0.N) : Vec F S2048x256 .bf16 := blkR0 V c 1 t

/-- A step clears the accumulator exactly when it is the first of four, -/
theorem firstR0_iff : ∀ t : Fin cfg0.N, first0 (grid0.coords t) ↔ t.val % 4 = 0 :=
  (by decide +kernel : ∀ t : Fin grid0.N, first0 (grid0.coords t) ↔ t.val % 4 = 0)
/-- and copies it out exactly when it is the last of four. -/
theorem lastR0_iff : ∀ t : Fin cfg0.N, last0 (grid0.coords t) ↔ t.val % 4 = 3 :=
  (by decide +kernel : ∀ t : Fin grid0.N, last0 (grid0.coords t) ↔ t.val % 4 = 3)

/-- The input windows are in use at every step; -/
theorem liveR0_0 : ∀ t : Fin cfg0.N, cfg0.idle 0 (grid0.coords t) = false := by decide +kernel
theorem liveR0_1 : ∀ t : Fin cfg0.N, cfg0.idle 1 (grid0.coords t) = false := by decide +kernel
/-- the output window only at the last step of four, where it is also written back. -/
theorem idleR0_2 : ∀ t : Fin cfg0.N, ¬last0 (grid0.coords t) → cfg0.idle 2 (grid0.coords t) = true := by decide +kernel
theorem keepR0_2 : ∀ t : Fin cfg0.N, ¬last0 (grid0.coords t) → (cfg0.win 2).flush t = false := by decide +kernel
theorem liveR0_2 : ∀ t : Fin cfg0.N, last0 (grid0.coords t) → cfg0.idle 2 (grid0.coords t) = false := by decide +kernel

/-- The buffers a step is called with. -/
abbrev bufR0_0 (t : Fin cfg0.N) : Memref sig .tc .vmem S2048x2048 .f32 := win0_0.stage (cfg0.slots t 0)
abbrev wholeR0_0 (t : Fin cfg0.N) : (bufR0_0 t).IsWhole := hstage0_0 ((cfg0.slots t 0).cast nbuf0_0)
abbrev bufR0_1 (t : Fin cfg0.N) : Memref sig .tc .vmem S2048x256 .bf16 := win0_1.stage (cfg0.slots t 1)
abbrev wholeR0_1 (t : Fin cfg0.N) : (bufR0_1 t).IsWhole := hstage0_1 ((cfg0.slots t 1).cast nbuf0_1)
abbrev bufR0_2 (t : Fin cfg0.N) : Memref sig .tc .vmem S2048x256 .f32 := win0_2.stage (cfg0.slots t 2)
abbrev wholeR0_2 (t : Fin cfg0.N) : (bufR0_2 t).IsWhole := hstage0_2 ((cfg0.slots t 2).cast nbuf0_2)
/-- The accumulator's buffer. -/
abbrev scrR0 : Memref sig .tc .vmem S2048x256 .f32 := Memref.whole cc0_scratch0

/-! ## The accumulator after each step -/

/-- The accumulator after step `n`: at the head of a row of blocks the cleared block stepped once, otherwise the
    previous step's accumulator stepped once. -/
def accR0 (c : Dev nD) : (n : ℕ) → n < cfg0.N → Vec F S2048x256 .f32
  | 0, hn => step0 (adjR0 V c ⟨0, hn⟩) clear0 (featR0 V c ⟨0, hn⟩)
  | n + 1, hn =>
    if (n + 1) % 4 = 0 then step0 (adjR0 V c ⟨n + 1, hn⟩) clear0 (featR0 V c ⟨n + 1, hn⟩)
    else step0 (adjR0 V c ⟨n + 1, hn⟩) (accR0 c n (Nat.lt_of_succ_lt hn)) (featR0 V c ⟨n + 1, hn⟩)

theorem accR0_first (c : Dev nD) (t : Fin cfg0.N) (h0 : t.val % 4 = 0) :
    accR0 V c t.val t.isLt = step0 (adjR0 V c t) clear0 (featR0 V c t) := by
  obtain ⟨n, hn⟩ := t
  cases n with
  | zero => rfl
  | succ n => exact if_pos h0

theorem accR0_next (c : Dev nD) (t : Fin cfg0.N) (h0 : ¬t.val % 4 = 0) :
    accR0 V c t.val t.isLt = step0 (adjR0 V c t) (accR0 V c (t.val - 1) (Nat.lt_of_le_of_lt (Nat.sub_le _ _) t.isLt)) (featR0 V c t) := by
  obtain ⟨n, hn⟩ := t
  cases n with
  | zero => exact absurd (Nat.zero_mod _) h0
  | succ n => exact if_neg h0

/-! ## The invariant -/

/-- What is left of the region's invariant once the accumulator's buffer is taken out of it: put the buffer back, at
    any contents, and the invariant is whole again. -/
def holeR0 (c : Dev nD) : sProp 𝕄 :=
  iprop((∃ d, owns (c : Thread nD τ) scrR0 fullShare d) -∗ Pipeline.ΦA (U := UR sig nD τ) (Val := Elt F) spec0 c)

/-- The accumulator's buffer can be taken out of the region's invariant. -/
theorem takeR0 (c : Dev nD) :
    (Pipeline.ΦA (U := UR sig nD τ) (Val := Elt F) spec0 c : sProp 𝕄) ⊢ iprop((∃ d, owns (c : Thread nD τ) scrR0 fullShare d) ∗ holeR0 c) := by
  unfold holeR0 Pipeline.ΦA
  rw [show (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))
    from Pipeline.scopedRest_eq_of_list spec0 c [cc0_scratch0, cc1_stg0_0, cc1_stg0_1, cc1_stg1_0, cc1_stg1_1, cc1_stg2_0, cc1_stg2_1, cc1_scratch0, cc2_stg0_0, cc2_stg0_1, cc2_stg1_0, cc2_stg1_1, cc2_stg2_0, cc2_stg2_1, cc2_scratch0] (by decide) (by decide)]
  simp only [scrR0, owns_whole]
  iintro ⟨⟨HS, H1, H2, H3, H4, H5, H6, H7, H8, H9, H10, H11, H12, H13, H14⟩, Hg⟩
  isplitl [HS]; · iexact HS
  iintro HS
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The invariant before step `n`: at the start the region's own; afterwards the accumulator's buffer at what the
    step before left, beside the rest. -/
def PhiR0 (c : Dev nD) : (n : ℕ) → n ≤ cfg0.N → sProp 𝕄
  | 0, _ => Pipeline.ΦA (U := UR sig nD τ) (Val := Elt F) spec0 c
  | n + 1, hn => iprop(owns (c : Thread nD τ) scrR0 fullShare (accR0 V c n hn) ∗ holeR0 c)

theorem PhiR0_zero (c : Dev nD) (n : ℕ) (h : n ≤ cfg0.N) (hz : n = 0) : PhiR0 V c n h = Pipeline.ΦA (U := UR sig nD τ) (Val := Elt F) spec0 c := by
  subst hz; rfl

theorem PhiR0_succ (c : Dev nD) (n : ℕ) (hn : n < cfg0.N) :
    PhiR0 V c (n + 1) hn = iprop(owns (c : Thread nD τ) scrR0 fullShare (accR0 V c n hn) ∗ holeR0 c) := rfl

theorem PhiR0_pos (c : Dev nD) (n : ℕ) (h : n ≤ cfg0.N) (hz : n ≠ 0) :
    PhiR0 V c n h = iprop(owns (c : Thread nD τ) scrR0 fullShare (accR0 V c (n - 1) (by omega)) ∗ holeR0 c) := by
  cases n with
  | zero => exact absurd rfl hz
  | succ n => rfl

/-! ## The proof data -/

/-- The region's proof data on core `c`: the arrays as the region finds them; after a step each input's buffer at
    its block and the output's at the accumulator; the invariant above; nothing owed; full shares. -/
def datR0 (c : Dev nD) : Dat τ (Elt F) Unit ℕ (UR sig nD τ) ℕ cfg0 c where
  A w := V c (Pipeline.arrRef spec0 w)
  after w t := match w with
    | ⟨0, _⟩ => blkR0 V c 0 t
    | ⟨1, _⟩ => blkR0 V c 1 t
    | ⟨2, _⟩ => accR0 V c t.val t.isLt
  Φ t := PhiR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiR0_castSucc (c : Dev nD) (t : Fin cfg0.N) :
    (datR0 V c).Φ t.castSucc = PhiR0 V c t.val (Nat.le_of_lt t.isLt) := by
  dsimp only [datR0]; simp only [Fin.coe_castSucc]

theorem afterR0_0 (c : Dev nD) (t : Fin cfg0.N) : (datR0 V c).after 0 t = blkR0 V c 0 t := by dsimp only [datR0]
theorem afterR0_1 (c : Dev nD) (t : Fin cfg0.N) : (datR0 V c).after 1 t = blkR0 V c 1 t := by dsimp only [datR0]
theorem afterR0_2 (c : Dev nD) (t : Fin cfg0.N) : (datR0 V c).after 2 t = accR0 V c t.val t.isLt := by dsimp only [datR0]

/-- An input's buffer holds its block when the step begins: it is fetched at every step. -/
theorem beforeR0_0 (c : Dev nD) (t : Fin cfg0.N) (d) : (datR0 V c).before 0 t d = blkR0 V c 0 t := by
  unfold Dat.before; rw [if_pos (fetch0_0 t)]; unfold Dat.fetched Dat.blockOf blkR0; rw [A_eqR0]; try rfl
theorem beforeR0_1 (c : Dev nD) (t : Fin cfg0.N) (d) : (datR0 V c).before 1 t d = blkR0 V c 1 t := by
  unfold Dat.before; rw [if_pos (fetch0_1 t)]; unfold Dat.fetched Dat.blockOf blkR0; rw [A_eqR0]; try rfl

/-! ## One step -/

/-- What a step is called with, -/
def stepPreR0 (c : Dev nD) (t : Fin cfg0.N) : sProp 𝕄 :=
  iprop((datR0 V c).Φ t.castSucc ∗ (datR0 V c).owesAt () t.castSucc
    ∗ (∃ d, owns (c : Thread nD τ) (bufR0_0 t) fullShare ((datR0 V c).before 0 t d))
    ∗ (∃ d, owns (c : Thread nD τ) (bufR0_1 t) fullShare ((datR0 V c).before 1 t d))
    ∗ (∃ d, owns (c : Thread nD τ) (bufR0_2 t) fullShare ((datR0 V c).before 2 t d)))

/-- and what it returns. -/
def stepPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

set_option maxHeartbeats 4800000 in
/-- A step at any point of the grid: the inputs' buffers hold their blocks; by the step's place among its four the
    kernel function clears and steps, steps, or steps and copies out; the invariant hands over the accumulator's
    buffer at what the step before left (at anything at the head of a row) and takes it back at this step's. -/
theorem sound_stepR0 (c : Dev nD) (t : Fin cfg0.N) :
    stepPreR0 V c t ⊢ wp frame (wpE (defs₀ (F := F)) Variants.none c none) Set.univ (bodyAt0 t) (fun _ => stepPostR0 V c t) := by
  unfold stepPreR0 stepPostR0 bodyAt0
  simp only [beforeR0_0, beforeR0_1]
  rw [show (datR0 V c).owesAt () t.succ = (datR0 V c).owesAt () t.castSucc from rfl]
  rw [show (datR0 V c).Φ t.succ = PhiR0 V c (t.val + 1) t.isLt from rfl, PhiR0_succ]
  rw [show (datR0 V c).leavesExact 0 t = owns (c : Thread nD τ) (bufR0_0 t) fullShare ((datR0 V c).after 0 t) from by
    unfold Dat.leavesExact; rw [liveR0_0 t], afterR0_0]
  rw [show (datR0 V c).leavesExact 1 t = owns (c : Thread nD τ) (bufR0_1 t) fullShare ((datR0 V c).after 1 t) from by
    unfold Dat.leavesExact; rw [liveR0_1 t], afterR0_1]
  have hN : t.val < 16 := lt_of_lt_of_eq t.isLt (show cfg0.N = 16 from N_0)
  by_cases h0 : t.val % 4 = 0
  · have hl : ¬last0 (grid0.coords t) := fun h => by have := (lastR0_iff t).mp h; omega
    rw [Dat.leavesExact_idle (datR0 V c) 2 t (idleR0_2 t hl) (keepR0_2 t hl)]
    rw [accR0_first V c t h0]
    by_cases hz : t.val = 0
    · rw [PhiR0_castSucc V c t, PhiR0_zero V c _ _ hz]
      iintro ⟨HP, Ho, ⟨%d0, H0⟩, ⟨%d1, H1⟩, ⟨%d2, H2⟩⟩
      ihave HP' := (takeR0 (F := F) c) $$ HP
      icases HP' with ⟨HS, Hh⟩
      iapply (run0_first c (grid0.coords t) _ (wholeR0_0 t) _ (wholeR0_1 t) _ (wholeR0_2 t) _ (Memref.isWhole_whole _) ((firstR0_iff t).mpr h0) hl
        (adjR0 V c t) (featR0 V c t) ((datR0 V c).before 2 t d2) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
    · rw [PhiR0_castSucc V c t, PhiR0_pos V c _ _ hz]
      iintro ⟨⟨HS, Hh⟩, Ho, ⟨%d0, H0⟩, ⟨%d1, H1⟩, ⟨%d2, H2⟩⟩
      iapply (run0_first c (grid0.coords t) _ (wholeR0_0 t) _ (wholeR0_1 t) _ (wholeR0_2 t) _ (Memref.isWhole_whole _) ((firstR0_iff t).mpr h0) hl
        (adjR0 V c t) (featR0 V c t) ((datR0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
  · have hz : t.val ≠ 0 := fun h => h0 (by rw [h])
    have hf : ¬first0 (grid0.coords t) := fun h => h0 ((firstR0_iff t).mp h)
    rw [accR0_next V c t h0]
    rw [PhiR0_castSucc V c t, PhiR0_pos V c _ _ hz]
    by_cases h1 : t.val % 4 = 3
    · have hl : last0 (grid0.coords t) := (lastR0_iff t).mpr h1
      rw [show (datR0 V c).leavesExact 2 t = owns (c : Thread nD τ) (bufR0_2 t) fullShare ((datR0 V c).after 2 t) from by
        unfold Dat.leavesExact; rw [liveR0_2 t hl], afterR0_2, accR0_next V c t h0]
      iintro ⟨⟨HS, Hh⟩, Ho, ⟨%d0, H0⟩, ⟨%d1, H1⟩, ⟨%d2, H2⟩⟩
      iapply (run0_last c (grid0.coords t) _ (wholeR0_0 t) _ (wholeR0_1 t) _ (wholeR0_2 t) _ (Memref.isWhole_whole _) hf hl
        (adjR0 V c t) (featR0 V c t) (accR0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexact H2
    · have hl : ¬last0 (grid0.coords t) := fun h => h1 ((lastR0_iff t).mp h)
      rw [Dat.leavesExact_idle (datR0 V c) 2 t (idleR0_2 t hl) (keepR0_2 t hl)]
      iintro ⟨⟨HS, Hh⟩, Ho, ⟨%d0, H0⟩, ⟨%d1, H1⟩, ⟨%d2, H2⟩⟩
      iapply (run0_mid c (grid0.coords t) _ (wholeR0_0 t) _ (wholeR0_1 t) _ (wholeR0_2 t) _ (Memref.isWhole_whole _) hf hl
        (adjR0 V c t) (featR0 V c t) ((datR0 V c).before 2 t d2) (accR0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2

/-- The step obligation of the launch rule, at every step. -/
theorem obligationR0 (c : Dev nD) : BodyObligation (datR0 (F := F) V c) (defs₀ (F := F)) Variants.none () Set.univ := fun t => by
  rw [bigSep_W0, bigSep_W0]
  exact sound_stepR0 V c t

/-- The region's own invariant is the invariant before the first step, -/
theorem beginR0 (c : Dev nD) : Pipeline.ΦA (U := UR sig nD τ) (Val := Elt F) spec0 c ⊢ (datR0 V c).Φ 0 := by
  rw [show (datR0 V c).Φ 0 = PhiR0 V c 0 (Nat.zero_le _) from rfl, PhiR0_zero V c 0 _ rfl]
  try exact Idealize.SL.BI.Entails.refl _

/-- and after the last step the accumulator's buffer goes back into it, its contents forgotten. -/
theorem endR0 (c : Dev nD) : (datR0 V c).Φ (Fin.last cfg0.N) ⊢ Pipeline.ΦA (U := UR sig nD τ) (Val := Elt F) spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 16 := N_0; omega)]
  unfold holeR0
  iintro ⟨HS, Hh⟩
  iapply Hh
  iexists _; iexact HS

end Region0

end Cert.Kernel.Hand

end
-- ==== Proof.K.Step1.lean ====
/-
  One step of the blocked product, region 1. The kernel walks a 4 x 4 grid of (row block, column block): at the
  first column block of a row it clears the accumulator, at every step it adds the product of the adjacency
  block (read as bf16) with the matching 2048 rows of the features, and at the last column block it copies the
  accumulator to the output block. Here: what one call of the kernel function leaves in its four buffers, in
  each of the three situations a step can be in, with the contents written out.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import proofs.«130713_j75840532512927_1_alg».proof.Proof.K.Block
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step is the first of its row of blocks (column block 0): the accumulator is cleared. -/
abbrev first1 (i : grid1.Coords) : Prop := (Scalar.cmpi .ne (Scalar.extui (Scalar.cmpi .eq (BitVec.ofNat 32 (i 1).val) 0#32)) 0#32) = 1#1
/-- The step is the last of its row of blocks (column block 3): the accumulator is copied out. -/
abbrev last1 (i : grid1.Coords) : Prop := k1_cond2 i = 1#1

/-- The accumulator after a step that found it at `s`: `s` plus the product of the two blocks. -/
abbrev step1 (a : Vec F S2048x2048 .f32) (s : Vec F S2048x256 .f32) (h : Vec F S2048x256 .bf16) : Vec F S2048x256 .f32 := k1_pay2 a s h
/-- The cleared accumulator. -/
abbrev clear1 : Vec F S2048x256 .f32 := k1_pay1

set_option maxHeartbeats 2000000 in
/-- A middle step: the accumulator goes from `s` to `step1 a s h`; the output block is left alone. -/
theorem run1_mid (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first1 i) (hl : ¬last1 i)
    (a : Vec F S2048x2048 .f32) (h : Vec F S2048x256 .bf16) (x4 : Vec F S2048x256 .f32) (s : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ owns (c : Thread nD τ) arg5 fullShare s
        ∗ (iprop(owns (c : Thread nD τ) arg2 fullShare a ∗ owns (c : Thread nD τ) arg3 fullShare h ∗ owns (c : Thread nD τ) arg4 fullShare x4 ∗ owns (c : Thread nD τ) arg5 fullShare (step1 a s h)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

set_option maxHeartbeats 2000000 in
/-- A first step: the accumulator, whatever it held, is cleared and then stepped; the output block is left alone. -/
theorem run1_first (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : first1 i) (hl : ¬last1 i)
    (a : Vec F S2048x2048 .f32) (h : Vec F S2048x256 .bf16) (x4 : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ (∃ s, owns (c : Thread nD τ) arg5 fullShare s)
        ∗ (iprop(owns (c : Thread nD τ) arg2 fullShare a ∗ owns (c : Thread nD τ) arg3 fullShare h ∗ owns (c : Thread nD τ) arg4 fullShare x4 ∗ owns (c : Thread nD τ) arg5 fullShare (step1 a clear1 h)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (cover_two _ _), View.canon_cons_unit_zero (S := S2048x256) zero_off]
  simp only [View.readAt_eq_ld, harg2.read_unread, harg3.read_unread,
    View.ld_unit_zero (S := S2048x2048) zero_off, View.ld_unit_zero (S := S2048x256) zero_off,
    View.readCov_unit_zero (S := S2048x256) _ zero_off]

set_option maxHeartbeats 2000000 in
/-- A last step: the accumulator goes from `s` to `step1 a s h`, and the output block receives the same. -/
theorem run1_last (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first1 i) (hl : last1 i)
    (a : Vec F S2048x2048 .f32) (h : Vec F S2048x256 .bf16) (s : Vec F S2048x256 .f32)
    (E : Set ℕ) (K : PUnit → sProp 𝕄) :
    iprop(owns (c : Thread nD τ) arg2 fullShare a ∗ owns (c : Thread nD τ) arg3 fullShare h ∗ (∃ d, owns (c : Thread nD τ) arg4 fullShare d) ∗ owns (c : Thread nD τ) arg5 fullShare s
        ∗ (iprop(owns (c : Thread nD τ) arg2 fullShare a ∗ owns (c : Thread nD τ) arg3 fullShare h ∗ owns (c : Thread nD τ) arg4 fullShare (step1 a s h) ∗ owns (c : Thread nD τ) arg5 fullShare (step1 a s h)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_one _), View.canon_unit_zero zero_off]
    simp only [View.readAt_eq_ld, harg2.read_unread, harg3.read_unread, harg5.read_unread,
      View.ld_unit_zero (S := S2048x2048) zero_off, View.ld_unit_zero (S := S2048x256) zero_off,
      View.readCov_unit_zero (S := S2048x256) _ zero_off]
  iexists _; isplitr
  swap; · iexact H5
  ipureintro
  sl_unfold_words
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

end Cert.Kernel.Hand

end
-- ==== Proof.K.Data1.lean ====
/-
  The blocked product of region 1, step by step. The sixteen steps run through the row blocks, four column blocks
  each. Stated here: each step's two input blocks as parts of the arrays the region is entered with; the
  accumulator after every step (cleared at the head of a row of blocks, then one product added per step); the
  invariant that carries it from step to step; and that one call of the kernel function takes the invariant, the
  two input blocks and the output block from one step to the next — the output block receiving the accumulator at
  the end of a row and being left alone elsewhere.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import proofs.«130713_j75840532512927_1_alg».proof.Proof.K.Step1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the contents of the TensorCore's buffers when the region is entered
variable (V : (c : Dev nD) → (b : Ref sig .tc) → Buf (Elt F) ((c : Thread nD τ).loc b))

/-! ## The blocks and the step's situation -/

/-- Window `w`'s block at step `t`, a part of its array as the region finds it. -/
def blkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block of step `t` -/
abbrev adjR1 (c : Dev nD) (t : Fin cfg1.N) : Vec F S2048x2048 .f32 := blkR1 V c 0 t
/-- and the feature rows it meets. -/
abbrev featR1 (c : Dev nD) (t : Fin cfg1.N) : Vec F S2048x256 .bf16 := blkR1 V c 1 t

/-- A step clears the accumulator exactly when it is the first of four, -/
theorem firstR1_iff : ∀ t : Fin cfg1.N, first1 (grid1.coords t) ↔ t.val % 4 = 0 :=
  (by decide +kernel : ∀ t : Fin grid1.N, first1 (grid1.coords t) ↔ t.val % 4 = 0)
/-- and copies it out exactly when it is the last of four. -/
theorem lastR1_iff : ∀ t : Fin cfg1.N, last1 (grid1.coords t) ↔ t.val % 4 = 3 :=
  (by decide +kernel : ∀ t : Fin grid1.N, last1 (grid1.coords t) ↔ t.val % 4 = 3)

/-- The input windows are in use at every step; -/
theorem liveR1_0 : ∀ t : Fin cfg1.N, cfg1.idle 0 (grid1.coords t) = false := by decide +kernel
theorem liveR1_1 : ∀ t : Fin cfg1.N, cfg1.idle 1 (grid1.coords t) = false := by decide +kernel
/-- the output window only at the last step of four, where it is also written back. -/
theorem idleR1_2 : ∀ t : Fin cfg1.N, ¬last1 (grid1.coords t) → cfg1.idle 2 (grid1.coords t) = true := by decide +kernel
theorem keepR1_2 : ∀ t : Fin cfg1.N, ¬last1 (grid1.coords t) → (cfg1.win 2).flush t = false := by decide +kernel
theorem liveR1_2 : ∀ t : Fin cfg1.N, last1 (grid1.coords t) → cfg1.idle 2 (grid1.coords t) = false := by decide +kernel

/-- The buffers a step is called with. -/
abbrev bufR1_0 (t : Fin cfg1.N) : Memref sig .tc .vmem S2048x2048 .f32 := win1_0.stage (cfg1.slots t 0)
abbrev wholeR1_0 (t : Fin cfg1.N) : (bufR1_0 t).IsWhole := hstage1_0 ((cfg1.slots t 0).cast nbuf1_0)
abbrev bufR1_1 (t : Fin cfg1.N) : Memref sig .tc .vmem S2048x256 .bf16 := win1_1.stage (cfg1.slots t 1)
abbrev wholeR1_1 (t : Fin cfg1.N) : (bufR1_1 t).IsWhole := hstage1_1 ((cfg1.slots t 1).cast nbuf1_1)
abbrev bufR1_2 (t : Fin cfg1.N) : Memref sig .tc .vmem S2048x256 .f32 := win1_2.stage (cfg1.slots t 2)
abbrev wholeR1_2 (t : Fin cfg1.N) : (bufR1_2 t).IsWhole := hstage1_2 ((cfg1.slots t 2).cast nbuf1_2)
/-- The accumulator's buffer. -/
abbrev scrR1 : Memref sig .tc .vmem S2048x256 .f32 := Memref.whole cc1_scratch0

/-! ## The accumulator after each step -/

/-- The accumulator after step `n`: at the head of a row of blocks the cleared block stepped once, otherwise the
    previous step's accumulator stepped once. -/
def accR1 (c : Dev nD) : (n : ℕ) → n < cfg1.N → Vec F S2048x256 .f32
  | 0, hn => step1 (adjR1 V c ⟨0, hn⟩) clear1 (featR1 V c ⟨0, hn⟩)
  | n + 1, hn =>
    if (n + 1) % 4 = 0 then step1 (adjR1 V c ⟨n + 1, hn⟩) clear1 (featR1 V c ⟨n + 1, hn⟩)
    else step1 (adjR1 V c ⟨n + 1, hn⟩) (accR1 c n (Nat.lt_of_succ_lt hn)) (featR1 V c ⟨n + 1, hn⟩)

theorem accR1_first (c : Dev nD) (t : Fin cfg1.N) (h0 : t.val % 4 = 0) :
    accR1 V c t.val t.isLt = step1 (adjR1 V c t) clear1 (featR1 V c t) := by
  obtain ⟨n, hn⟩ := t
  cases n with
  | zero => rfl
  | succ n => exact if_pos h0

theorem accR1_next (c : Dev nD) (t : Fin cfg1.N) (h0 : ¬t.val % 4 = 0) :
    accR1 V c t.val t.isLt = step1 (adjR1 V c t) (accR1 V c (t.val - 1) (Nat.lt_of_le_of_lt (Nat.sub_le _ _) t.isLt)) (featR1 V c t) := by
  obtain ⟨n, hn⟩ := t
  cases n with
  | zero => exact absurd (Nat.zero_mod _) h0
  | succ n => exact if_neg h0

/-! ## The invariant -/

/-- What is left of the region's invariant once the accumulator's buffer is taken out of it: put the buffer back, at
    any contents, and the invariant is whole again. -/
def holeR1 (c : Dev nD) : sProp 𝕄 :=
  iprop((∃ d, owns (c : Thread nD τ) scrR1 fullShare d) -∗ Pipeline.ΦA (U := UR sig nD τ) (Val := Elt F) spec1 c)

/-- The accumulator's buffer can be taken out of the region's invariant. -/
theorem takeR1 (c : Dev nD) :
    (Pipeline.ΦA (U := UR sig nD τ) (Val := Elt F) spec1 c : sProp 𝕄) ⊢ iprop((∃ d, owns (c : Thread nD τ) scrR1 fullShare d) ∗ holeR1 c) := by
  unfold holeR1 Pipeline.ΦA
  rw [show (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))
    from Pipeline.scopedRest_eq_of_list spec1 c [cc1_scratch0, cc0_stg0_0, cc0_stg0_1, cc0_stg1_0, cc0_stg1_1, cc0_stg2_0, cc0_stg2_1, cc0_scratch0, cc2_stg0_0, cc2_stg0_1, cc2_stg1_0, cc2_stg1_1, cc2_stg2_0, cc2_stg2_1, cc2_scratch0] (by decide) (by decide)]
  simp only [scrR1, owns_whole]
  iintro ⟨⟨HS, H1, H2, H3, H4, H5, H6, H7, H8, H9, H10, H11, H12, H13, H14⟩, Hg⟩
  isplitl [HS]; · iexact HS
  iintro HS
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The invariant before step `n`: at the start the region's own; afterwards the accumulator's buffer at what the
    step before left, beside the rest. -/
def PhiR1 (c : Dev nD) : (n : ℕ) → n ≤ cfg1.N → sProp 𝕄
  | 0, _ => Pipeline.ΦA (U := UR sig nD τ) (Val := Elt F) spec1 c
  | n + 1, hn => iprop(owns (c : Thread nD τ) scrR1 fullShare (accR1 V c n hn) ∗ holeR1 c)

theorem PhiR1_zero (c : Dev nD) (n : ℕ) (h : n ≤ cfg1.N) (hz : n = 0) : PhiR1 V c n h = Pipeline.ΦA (U := UR sig nD τ) (Val := Elt F) spec1 c := by
  subst hz; rfl

theorem PhiR1_succ (c : Dev nD) (n : ℕ) (hn : n < cfg1.N) :
    PhiR1 V c (n + 1) hn = iprop(owns (c : Thread nD τ) scrR1 fullShare (accR1 V c n hn) ∗ holeR1 c) := rfl

theorem PhiR1_pos (c : Dev nD) (n : ℕ) (h : n ≤ cfg1.N) (hz : n ≠ 0) :
    PhiR1 V c n h = iprop(owns (c : Thread nD τ) scrR1 fullShare (accR1 V c (n - 1) (by omega)) ∗ holeR1 c) := by
  cases n with
  | zero => exact absurd rfl hz
  | succ n => rfl

/-! ## The proof data -/

/-- The region's proof data on core `c`: the arrays as the region finds them; after a step each input's buffer at
    its block and the output's at the accumulator; the invariant above; nothing owed; full shares. -/
def datR1 (c : Dev nD) : Dat τ (Elt F) Unit ℕ (UR sig nD τ) ℕ cfg1 c where
  A w := V c (Pipeline.arrRef spec1 w)
  after w t := match w with
    | ⟨0, _⟩ => blkR1 V c 0 t
    | ⟨1, _⟩ => blkR1 V c 1 t
    | ⟨2, _⟩ => accR1 V c t.val t.isLt
  Φ t := PhiR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiR1_castSucc (c : Dev nD) (t : Fin cfg1.N) :
    (datR1 V c).Φ t.castSucc = PhiR1 V c t.val (Nat.le_of_lt t.isLt) := by
  dsimp only [datR1]; simp only [Fin.coe_castSucc]

theorem afterR1_0 (c : Dev nD) (t : Fin cfg1.N) : (datR1 V c).after 0 t = blkR1 V c 0 t := by dsimp only [datR1]
theorem afterR1_1 (c : Dev nD) (t : Fin cfg1.N) : (datR1 V c).after 1 t = blkR1 V c 1 t := by dsimp only [datR1]
theorem afterR1_2 (c : Dev nD) (t : Fin cfg1.N) : (datR1 V c).after 2 t = accR1 V c t.val t.isLt := by dsimp only [datR1]

/-- An input's buffer holds its block when the step begins: it is fetched at every step. -/
theorem beforeR1_0 (c : Dev nD) (t : Fin cfg1.N) (d) : (datR1 V c).before 0 t d = blkR1 V c 0 t := by
  unfold Dat.before; rw [if_pos (fetch1_0 t)]; unfold Dat.fetched Dat.blockOf blkR1; rw [A_eqR1]; try rfl
theorem beforeR1_1 (c : Dev nD) (t : Fin cfg1.N) (d) : (datR1 V c).before 1 t d = blkR1 V c 1 t := by
  unfold Dat.before; rw [if_pos (fetch1_1 t)]; unfold Dat.fetched Dat.blockOf blkR1; rw [A_eqR1]; try rfl

/-! ## One step -/

/-- What a step is called with, -/
def stepPreR1 (c : Dev nD) (t : Fin cfg1.N) : sProp 𝕄 :=
  iprop((datR1 V c).Φ t.castSucc ∗ (datR1 V c).owesAt () t.castSucc
    ∗ (∃ d, owns (c : Thread nD τ) (bufR1_0 t) fullShare ((datR1 V c).before 0 t d))
    ∗ (∃ d, owns (c : Thread nD τ) (bufR1_1 t) fullShare ((datR1 V c).before 1 t d))
    ∗ (∃ d, owns (c : Thread nD τ) (bufR1_2 t) fullShare ((datR1 V c).before 2 t d)))

/-- and what it returns. -/
def stepPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

set_option maxHeartbeats 4800000 in
/-- A step at any point of the grid: the inputs' buffers hold their blocks; by the step's place among its four the
    kernel function clears and steps, steps, or steps and copies out; the invariant hands over the accumulator's
    buffer at what the step before left (at anything at the head of a row) and takes it back at this step's. -/
theorem sound_stepR1 (c : Dev nD) (t : Fin cfg1.N) :
    stepPreR1 V c t ⊢ wp frame (wpE (defs₀ (F := F)) Variants.none c none) Set.univ (bodyAt1 t) (fun _ => stepPostR1 V c t) := by
  unfold stepPreR1 stepPostR1 bodyAt1
  simp only [beforeR1_0, beforeR1_1]
  rw [show (datR1 V c).owesAt () t.succ = (datR1 V c).owesAt () t.castSucc from rfl]
  rw [show (datR1 V c).Φ t.succ = PhiR1 V c (t.val + 1) t.isLt from rfl, PhiR1_succ]
  rw [show (datR1 V c).leavesExact 0 t = owns (c : Thread nD τ) (bufR1_0 t) fullShare ((datR1 V c).after 0 t) from by
    unfold Dat.leavesExact; rw [liveR1_0 t], afterR1_0]
  rw [show (datR1 V c).leavesExact 1 t = owns (c : Thread nD τ) (bufR1_1 t) fullShare ((datR1 V c).after 1 t) from by
    unfold Dat.leavesExact; rw [liveR1_1 t], afterR1_1]
  have hN : t.val < 16 := lt_of_lt_of_eq t.isLt (show cfg1.N = 16 from N_1)
  by_cases h0 : t.val % 4 = 0
  · have hl : ¬last1 (grid1.coords t) := fun h => by have := (lastR1_iff t).mp h; omega
    rw [Dat.leavesExact_idle (datR1 V c) 2 t (idleR1_2 t hl) (keepR1_2 t hl)]
    rw [accR1_first V c t h0]
    by_cases hz : t.val = 0
    · rw [PhiR1_castSucc V c t, PhiR1_zero V c _ _ hz]
      iintro ⟨HP, Ho, ⟨%d0, H0⟩, ⟨%d1, H1⟩, ⟨%d2, H2⟩⟩
      ihave HP' := (takeR1 (F := F) c) $$ HP
      icases HP' with ⟨HS, Hh⟩
      iapply (run1_first c (grid1.coords t) _ (wholeR1_0 t) _ (wholeR1_1 t) _ (wholeR1_2 t) _ (Memref.isWhole_whole _) ((firstR1_iff t).mpr h0) hl
        (adjR1 V c t) (featR1 V c t) ((datR1 V c).before 2 t d2) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
    · rw [PhiR1_castSucc V c t, PhiR1_pos V c _ _ hz]
      iintro ⟨⟨HS, Hh⟩, Ho, ⟨%d0, H0⟩, ⟨%d1, H1⟩, ⟨%d2, H2⟩⟩
      iapply (run1_first c (grid1.coords t) _ (wholeR1_0 t) _ (wholeR1_1 t) _ (wholeR1_2 t) _ (Memref.isWhole_whole _) ((firstR1_iff t).mpr h0) hl
        (adjR1 V c t) (featR1 V c t) ((datR1 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
  · have hz : t.val ≠ 0 := fun h => h0 (by rw [h])
    have hf : ¬first1 (grid1.coords t) := fun h => h0 ((firstR1_iff t).mp h)
    rw [accR1_next V c t h0]
    rw [PhiR1_castSucc V c t, PhiR1_pos V c _ _ hz]
    by_cases h1 : t.val % 4 = 3
    · have hl : last1 (grid1.coords t) := (lastR1_iff t).mpr h1
      rw [show (datR1 V c).leavesExact 2 t = owns (c : Thread nD τ) (bufR1_2 t) fullShare ((datR1 V c).after 2 t) from by
        unfold Dat.leavesExact; rw [liveR1_2 t hl], afterR1_2, accR1_next V c t h0]
      iintro ⟨⟨HS, Hh⟩, Ho, ⟨%d0, H0⟩, ⟨%d1, H1⟩, ⟨%d2, H2⟩⟩
      iapply (run1_last c (grid1.coords t) _ (wholeR1_0 t) _ (wholeR1_1 t) _ (wholeR1_2 t) _ (Memref.isWhole_whole _) hf hl
        (adjR1 V c t) (featR1 V c t) (accR1 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexact H2
    · have hl : ¬last1 (grid1.coords t) := fun h => h1 ((lastR1_iff t).mp h)
      rw [Dat.leavesExact_idle (datR1 V c) 2 t (idleR1_2 t hl) (keepR1_2 t hl)]
      iintro ⟨⟨HS, Hh⟩, Ho, ⟨%d0, H0⟩, ⟨%d1, H1⟩, ⟨%d2, H2⟩⟩
      iapply (run1_mid c (grid1.coords t) _ (wholeR1_0 t) _ (wholeR1_1 t) _ (wholeR1_2 t) _ (Memref.isWhole_whole _) hf hl
        (adjR1 V c t) (featR1 V c t) ((datR1 V c).before 2 t d2) (accR1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2

/-- The step obligation of the launch rule, at every step. -/
theorem obligationR1 (c : Dev nD) : BodyObligation (datR1 (F := F) V c) (defs₀ (F := F)) Variants.none () Set.univ := fun t => by
  rw [bigSep_W1, bigSep_W1]
  exact sound_stepR1 V c t

/-- The region's own invariant is the invariant before the first step, -/
theorem beginR1 (c : Dev nD) : Pipeline.ΦA (U := UR sig nD τ) (Val := Elt F) spec1 c ⊢ (datR1 V c).Φ 0 := by
  rw [show (datR1 V c).Φ 0 = PhiR1 V c 0 (Nat.zero_le _) from rfl, PhiR1_zero V c 0 _ rfl]
  try exact Idealize.SL.BI.Entails.refl _

/-- and after the last step the accumulator's buffer goes back into it, its contents forgotten. -/
theorem endR1 (c : Dev nD) : (datR1 V c).Φ (Fin.last cfg1.N) ⊢ Pipeline.ΦA (U := UR sig nD τ) (Val := Elt F) spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 16 := N_1; omega)]
  unfold holeR1
  iintro ⟨HS, Hh⟩
  iapply Hh
  iexists _; iexact HS

end Region1

end Cert.Kernel.Hand

end
-- ==== Proof.K.Step2.lean ====
/-
  One step of the blocked product, region 2. The kernel walks a 4 x 4 grid of (row block, column block): at the
  first column block of a row it clears the accumulator, at every step it adds the product of the adjacency
  block (read as bf16) with the matching 2048 rows of the features, and at the last column block it copies the
  accumulator to the output block. Here: what one call of the kernel function leaves in its four buffers, in
  each of the three situations a step can be in, with the contents written out.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import proofs.«130713_j75840532512927_1_alg».proof.Proof.K.Block
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step is the first of its row of blocks (column block 0): the accumulator is cleared. -/
abbrev first2 (i : grid2.Coords) : Prop := (Scalar.cmpi .ne (Scalar.extui (Scalar.cmpi .eq (BitVec.ofNat 32 (i 1).val) 0#32)) 0#32) = 1#1
/-- The step is the last of its row of blocks (column block 3): the accumulator is copied out. -/
abbrev last2 (i : grid2.Coords) : Prop := k2_cond2 i = 1#1

/-- The accumulator after a step that found it at `s`: `s` plus the product of the two blocks. -/
abbrev step2 (a : Vec F S2048x2048 .f32) (s : Vec F S2048x256 .f32) (h : Vec F S2048x256 .bf16) : Vec F S2048x256 .f32 := k2_pay2 a s h
/-- The cleared accumulator. -/
abbrev clear2 : Vec F S2048x256 .f32 := k2_pay1

set_option maxHeartbeats 2000000 in
/-- A middle step: the accumulator goes from `s` to `step2 a s h`; the output block is left alone. -/
theorem run2_mid (c : Dev nD) (i : grid2.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first2 i) (hl : ¬last2 i)
    (a : Vec F S2048x2048 .f32) (h : Vec F S2048x256 .bf16) (x4 : Vec F S2048x256 .f32) (s : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ owns (c : Thread nD τ) arg5 fullShare s
        ∗ (iprop(owns (c : Thread nD τ) arg2 fullShare a ∗ owns (c : Thread nD τ) arg3 fullShare h ∗ owns (c : Thread nD τ) arg4 fullShare x4 ∗ owns (c : Thread nD τ) arg5 fullShare (step2 a s h)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

set_option maxHeartbeats 2000000 in
/-- A first step: the accumulator, whatever it held, is cleared and then stepped; the output block is left alone. -/
theorem run2_first (c : Dev nD) (i : grid2.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : first2 i) (hl : ¬last2 i)
    (a : Vec F S2048x2048 .f32) (h : Vec F S2048x256 .bf16) (x4 : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ (∃ s, owns (c : Thread nD τ) arg5 fullShare s)
        ∗ (iprop(owns (c : Thread nD τ) arg2 fullShare a ∗ owns (c : Thread nD τ) arg3 fullShare h ∗ owns (c : Thread nD τ) arg4 fullShare x4 ∗ owns (c : Thread nD τ) arg5 fullShare (step2 a clear2 h)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (cover_two _ _), View.canon_cons_unit_zero (S := S2048x256) zero_off]
  simp only [View.readAt_eq_ld, harg2.read_unread, harg3.read_unread,
    View.ld_unit_zero (S := S2048x2048) zero_off, View.ld_unit_zero (S := S2048x256) zero_off,
    View.readCov_unit_zero (S := S2048x256) _ zero_off]

set_option maxHeartbeats 2000000 in
/-- A last step: the accumulator goes from `s` to `step2 a s h`, and the output block receives the same. -/
theorem run2_last (c : Dev nD) (i : grid2.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first2 i) (hl : last2 i)
    (a : Vec F S2048x2048 .f32) (h : Vec F S2048x256 .bf16) (s : Vec F S2048x256 .f32)
    (E : Set ℕ) (K : PUnit → sProp 𝕄) :
    iprop(owns (c : Thread nD τ) arg2 fullShare a ∗ owns (c : Thread nD τ) arg3 fullShare h ∗ (∃ d, owns (c : Thread nD τ) arg4 fullShare d) ∗ owns (c : Thread nD τ) arg5 fullShare s
        ∗ (iprop(owns (c : Thread nD τ) arg2 fullShare a ∗ owns (c : Thread nD τ) arg3 fullShare h ∗ owns (c : Thread nD τ) arg4 fullShare (step2 a s h) ∗ owns (c : Thread nD τ) arg5 fullShare (step2 a s h)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_one _), View.canon_unit_zero zero_off]
    simp only [View.readAt_eq_ld, harg2.read_unread, harg3.read_unread, harg5.read_unread,
      View.ld_unit_zero (S := S2048x2048) zero_off, View.ld_unit_zero (S := S2048x256) zero_off,
      View.readCov_unit_zero (S := S2048x256) _ zero_off]
  iexists _; isplitr
  swap; · iexact H5
  ipureintro
  sl_unfold_words
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

end Cert.Kernel.Hand

end
-- ==== Proof.K.Data2.lean ====
/-
  The blocked product of region 2, step by step. The sixteen steps run through the row blocks, four column blocks
  each. Stated here: each step's two input blocks as parts of the arrays the region is entered with; the
  accumulator after every step (cleared at the head of a row of blocks, then one product added per step); the
  invariant that carries it from step to step; and that one call of the kernel function takes the invariant, the
  two input blocks and the output block from one step to the next — the output block receiving the accumulator at
  the end of a row and being left alone elsewhere.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import proofs.«130713_j75840532512927_1_alg».proof.Proof.K.Step2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the contents of the TensorCore's buffers when the region is entered
variable (V : (c : Dev nD) → (b : Ref sig .tc) → Buf (Elt F) ((c : Thread nD τ).loc b))

/-! ## The blocks and the step's situation -/

/-- Window `w`'s block at step `t`, a part of its array as the region finds it. -/
def blkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block of step `t` -/
abbrev adjR2 (c : Dev nD) (t : Fin cfg2.N) : Vec F S2048x2048 .f32 := blkR2 V c 0 t
/-- and the feature rows it meets. -/
abbrev featR2 (c : Dev nD) (t : Fin cfg2.N) : Vec F S2048x256 .bf16 := blkR2 V c 1 t

/-- A step clears the accumulator exactly when it is the first of four, -/
theorem firstR2_iff : ∀ t : Fin cfg2.N, first2 (grid2.coords t) ↔ t.val % 4 = 0 :=
  (by decide +kernel : ∀ t : Fin grid2.N, first2 (grid2.coords t) ↔ t.val % 4 = 0)
/-- and copies it out exactly when it is the last of four. -/
theorem lastR2_iff : ∀ t : Fin cfg2.N, last2 (grid2.coords t) ↔ t.val % 4 = 3 :=
  (by decide +kernel : ∀ t : Fin grid2.N, last2 (grid2.coords t) ↔ t.val % 4 = 3)

/-- The input windows are in use at every step; -/
theorem liveR2_0 : ∀ t : Fin cfg2.N, cfg2.idle 0 (grid2.coords t) = false := by decide +kernel
theorem liveR2_1 : ∀ t : Fin cfg2.N, cfg2.idle 1 (grid2.coords t) = false := by decide +kernel
/-- the output window only at the last step of four, where it is also written back. -/
theorem idleR2_2 : ∀ t : Fin cfg2.N, ¬last2 (grid2.coords t) → cfg2.idle 2 (grid2.coords t) = true := by decide +kernel
theorem keepR2_2 : ∀ t : Fin cfg2.N, ¬last2 (grid2.coords t) → (cfg2.win 2).flush t = false := by decide +kernel
theorem liveR2_2 : ∀ t : Fin cfg2.N, last2 (grid2.coords t) → cfg2.idle 2 (grid2.coords t) = false := by decide +kernel

/-- The buffers a step is called with. -/
abbrev bufR2_0 (t : Fin cfg2.N) : Memref sig .tc .vmem S2048x2048 .f32 := win2_0.stage (cfg2.slots t 0)
abbrev wholeR2_0 (t : Fin cfg2.N) : (bufR2_0 t).IsWhole := hstage2_0 ((cfg2.slots t 0).cast nbuf2_0)
abbrev bufR2_1 (t : Fin cfg2.N) : Memref sig .tc .vmem S2048x256 .bf16 := win2_1.stage (cfg2.slots t 1)
abbrev wholeR2_1 (t : Fin cfg2.N) : (bufR2_1 t).IsWhole := hstage2_1 ((cfg2.slots t 1).cast nbuf2_1)
abbrev bufR2_2 (t : Fin cfg2.N) : Memref sig .tc .vmem S2048x256 .f32 := win2_2.stage (cfg2.slots t 2)
abbrev wholeR2_2 (t : Fin cfg2.N) : (bufR2_2 t).IsWhole := hstage2_2 ((cfg2.slots t 2).cast nbuf2_2)
/-- The accumulator's buffer. -/
abbrev scrR2 : Memref sig .tc .vmem S2048x256 .f32 := Memref.whole cc2_scratch0

/-! ## The accumulator after each step -/

/-- The accumulator after step `n`: at the head of a row of blocks the cleared block stepped once, otherwise the
    previous step's accumulator stepped once. -/
def accR2 (c : Dev nD) : (n : ℕ) → n < cfg2.N → Vec F S2048x256 .f32
  | 0, hn => step2 (adjR2 V c ⟨0, hn⟩) clear2 (featR2 V c ⟨0, hn⟩)
  | n + 1, hn =>
    if (n + 1) % 4 = 0 then step2 (adjR2 V c ⟨n + 1, hn⟩) clear2 (featR2 V c ⟨n + 1, hn⟩)
    else step2 (adjR2 V c ⟨n + 1, hn⟩) (accR2 c n (Nat.lt_of_succ_lt hn)) (featR2 V c ⟨n + 1, hn⟩)

theorem accR2_first (c : Dev nD) (t : Fin cfg2.N) (h0 : t.val % 4 = 0) :
    accR2 V c t.val t.isLt = step2 (adjR2 V c t) clear2 (featR2 V c t) := by
  obtain ⟨n, hn⟩ := t
  cases n with
  | zero => rfl
  | succ n => exact if_pos h0

theorem accR2_next (c : Dev nD) (t : Fin cfg2.N) (h0 : ¬t.val % 4 = 0) :
    accR2 V c t.val t.isLt = step2 (adjR2 V c t) (accR2 V c (t.val - 1) (Nat.lt_of_le_of_lt (Nat.sub_le _ _) t.isLt)) (featR2 V c t) := by
  obtain ⟨n, hn⟩ := t
  cases n with
  | zero => exact absurd (Nat.zero_mod _) h0
  | succ n => exact if_neg h0

/-! ## The invariant -/

/-- What is left of the region's invariant once the accumulator's buffer is taken out of it: put the buffer back, at
    any contents, and the invariant is whole again. -/
def holeR2 (c : Dev nD) : sProp 𝕄 :=
  iprop((∃ d, owns (c : Thread nD τ) scrR2 fullShare d) -∗ Pipeline.ΦA (U := UR sig nD τ) (Val := Elt F) spec2 c)

/-- The accumulator's buffer can be taken out of the region's invariant. -/
theorem takeR2 (c : Dev nD) :
    (Pipeline.ΦA (U := UR sig nD τ) (Val := Elt F) spec2 c : sProp 𝕄) ⊢ iprop((∃ d, owns (c : Thread nD τ) scrR2 fullShare d) ∗ holeR2 c) := by
  unfold holeR2 Pipeline.ΦA
  rw [show (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))
    from Pipeline.scopedRest_eq_of_list spec2 c [cc2_scratch0, cc1_stg0_0, cc1_stg0_1, cc1_stg1_0, cc1_stg1_1, cc1_stg2_0, cc1_stg2_1, cc1_scratch0, cc0_stg0_0, cc0_stg0_1, cc0_stg1_0, cc0_stg1_1, cc0_stg2_0, cc0_stg2_1, cc0_scratch0] (by decide) (by decide)]
  simp only [scrR2, owns_whole]
  iintro ⟨⟨HS, H1, H2, H3, H4, H5, H6, H7, H8, H9, H10, H11, H12, H13, H14⟩, Hg⟩
  isplitl [HS]; · iexact HS
  iintro HS
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The invariant before step `n`: at the start the region's own; afterwards the accumulator's buffer at what the
    step before left, beside the rest. -/
def PhiR2 (c : Dev nD) : (n : ℕ) → n ≤ cfg2.N → sProp 𝕄
  | 0, _ => Pipeline.ΦA (U := UR sig nD τ) (Val := Elt F) spec2 c
  | n + 1, hn => iprop(owns (c : Thread nD τ) scrR2 fullShare (accR2 V c n hn) ∗ holeR2 c)

theorem PhiR2_zero (c : Dev nD) (n : ℕ) (h : n ≤ cfg2.N) (hz : n = 0) : PhiR2 V c n h = Pipeline.ΦA (U := UR sig nD τ) (Val := Elt F) spec2 c := by
  subst hz; rfl

theorem PhiR2_succ (c : Dev nD) (n : ℕ) (hn : n < cfg2.N) :
    PhiR2 V c (n + 1) hn = iprop(owns (c : Thread nD τ) scrR2 fullShare (accR2 V c n hn) ∗ holeR2 c) := rfl

theorem PhiR2_pos (c : Dev nD) (n : ℕ) (h : n ≤ cfg2.N) (hz : n ≠ 0) :
    PhiR2 V c n h = iprop(owns (c : Thread nD τ) scrR2 fullShare (accR2 V c (n - 1) (by omega)) ∗ holeR2 c) := by
  cases n with
  | zero => exact absurd rfl hz
  | succ n => rfl

/-! ## The proof data -/

/-- The region's proof data on core `c`: the arrays as the region finds them; after a step each input's buffer at
    its block and the output's at the accumulator; the invariant above; nothing owed; full shares. -/
def datR2 (c : Dev nD) : Dat τ (Elt F) Unit ℕ (UR sig nD τ) ℕ cfg2 c where
  A w := V c (Pipeline.arrRef spec2 w)
  after w t := match w with
    | ⟨0, _⟩ => blkR2 V c 0 t
    | ⟨1, _⟩ => blkR2 V c 1 t
    | ⟨2, _⟩ => accR2 V c t.val t.isLt
  Φ t := PhiR2 V c t.val (Nat.le_of_lt_succ t.isLt)
  q _ := fullShare
  owed _ := 0

theorem A_eqR2 (c : Dev nD) (w : Fin cfg2.W) : (datR2 V c).A w = V c (Pipeline.arrRef spec2 w) := by
  dsimp only [datR2]

theorem PhiR2_castSucc (c : Dev nD) (t : Fin cfg2.N) :
    (datR2 V c).Φ t.castSucc = PhiR2 V c t.val (Nat.le_of_lt t.isLt) := by
  dsimp only [datR2]; simp only [Fin.coe_castSucc]

theorem afterR2_0 (c : Dev nD) (t : Fin cfg2.N) : (datR2 V c).after 0 t = blkR2 V c 0 t := by dsimp only [datR2]
theorem afterR2_1 (c : Dev nD) (t : Fin cfg2.N) : (datR2 V c).after 1 t = blkR2 V c 1 t := by dsimp only [datR2]
theorem afterR2_2 (c : Dev nD) (t : Fin cfg2.N) : (datR2 V c).after 2 t = accR2 V c t.val t.isLt := by dsimp only [datR2]

/-- An input's buffer holds its block when the step begins: it is fetched at every step. -/
theorem beforeR2_0 (c : Dev nD) (t : Fin cfg2.N) (d) : (datR2 V c).before 0 t d = blkR2 V c 0 t := by
  unfold Dat.before; rw [if_pos (fetch2_0 t)]; unfold Dat.fetched Dat.blockOf blkR2; rw [A_eqR2]; try rfl
theorem beforeR2_1 (c : Dev nD) (t : Fin cfg2.N) (d) : (datR2 V c).before 1 t d = blkR2 V c 1 t := by
  unfold Dat.before; rw [if_pos (fetch2_1 t)]; unfold Dat.fetched Dat.blockOf blkR2; rw [A_eqR2]; try rfl

/-! ## One step -/

/-- What a step is called with, -/
def stepPreR2 (c : Dev nD) (t : Fin cfg2.N) : sProp 𝕄 :=
  iprop((datR2 V c).Φ t.castSucc ∗ (datR2 V c).owesAt () t.castSucc
    ∗ (∃ d, owns (c : Thread nD τ) (bufR2_0 t) fullShare ((datR2 V c).before 0 t d))
    ∗ (∃ d, owns (c : Thread nD τ) (bufR2_1 t) fullShare ((datR2 V c).before 1 t d))
    ∗ (∃ d, owns (c : Thread nD τ) (bufR2_2 t) fullShare ((datR2 V c).before 2 t d)))

/-- and what it returns. -/
def stepPostR2 (c : Dev nD) (t : Fin cfg2.N) : sProp 𝕄 :=
  iprop((datR2 V c).Φ t.succ ∗ (datR2 V c).owesAt () t.succ
    ∗ (datR2 V c).leavesExact 0 t
    ∗ (datR2 V c).leavesExact 1 t
    ∗ (datR2 V c).leavesExact 2 t)

set_option maxHeartbeats 4800000 in
/-- A step at any point of the grid: the inputs' buffers hold their blocks; by the step's place among its four the
    kernel function clears and steps, steps, or steps and copies out; the invariant hands over the accumulator's
    buffer at what the step before left (at anything at the head of a row) and takes it back at this step's. -/
theorem sound_stepR2 (c : Dev nD) (t : Fin cfg2.N) :
    stepPreR2 V c t ⊢ wp frame (wpE (defs₀ (F := F)) Variants.none c none) Set.univ (bodyAt2 t) (fun _ => stepPostR2 V c t) := by
  unfold stepPreR2 stepPostR2 bodyAt2
  simp only [beforeR2_0, beforeR2_1]
  rw [show (datR2 V c).owesAt () t.succ = (datR2 V c).owesAt () t.castSucc from rfl]
  rw [show (datR2 V c).Φ t.succ = PhiR2 V c (t.val + 1) t.isLt from rfl, PhiR2_succ]
  rw [show (datR2 V c).leavesExact 0 t = owns (c : Thread nD τ) (bufR2_0 t) fullShare ((datR2 V c).after 0 t) from by
    unfold Dat.leavesExact; rw [liveR2_0 t], afterR2_0]
  rw [show (datR2 V c).leavesExact 1 t = owns (c : Thread nD τ) (bufR2_1 t) fullShare ((datR2 V c).after 1 t) from by
    unfold Dat.leavesExact; rw [liveR2_1 t], afterR2_1]
  have hN : t.val < 16 := lt_of_lt_of_eq t.isLt (show cfg2.N = 16 from N_2)
  by_cases h0 : t.val % 4 = 0
  · have hl : ¬last2 (grid2.coords t) := fun h => by have := (lastR2_iff t).mp h; omega
    rw [Dat.leavesExact_idle (datR2 V c) 2 t (idleR2_2 t hl) (keepR2_2 t hl)]
    rw [accR2_first V c t h0]
    by_cases hz : t.val = 0
    · rw [PhiR2_castSucc V c t, PhiR2_zero V c _ _ hz]
      iintro ⟨HP, Ho, ⟨%d0, H0⟩, ⟨%d1, H1⟩, ⟨%d2, H2⟩⟩
      ihave HP' := (takeR2 (F := F) c) $$ HP
      icases HP' with ⟨HS, Hh⟩
      iapply (run2_first c (grid2.coords t) _ (wholeR2_0 t) _ (wholeR2_1 t) _ (wholeR2_2 t) _ (Memref.isWhole_whole _) ((firstR2_iff t).mpr h0) hl
        (adjR2 V c t) (featR2 V c t) ((datR2 V c).before 2 t d2) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
    · rw [PhiR2_castSucc V c t, PhiR2_pos V c _ _ hz]
      iintro ⟨⟨HS, Hh⟩, Ho, ⟨%d0, H0⟩, ⟨%d1, H1⟩, ⟨%d2, H2⟩⟩
      iapply (run2_first c (grid2.coords t) _ (wholeR2_0 t) _ (wholeR2_1 t) _ (wholeR2_2 t) _ (Memref.isWhole_whole _) ((firstR2_iff t).mpr h0) hl
        (adjR2 V c t) (featR2 V c t) ((datR2 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
  · have hz : t.val ≠ 0 := fun h => h0 (by rw [h])
    have hf : ¬first2 (grid2.coords t) := fun h => h0 ((firstR2_iff t).mp h)
    rw [accR2_next V c t h0]
    rw [PhiR2_castSucc V c t, PhiR2_pos V c _ _ hz]
    by_cases h1 : t.val % 4 = 3
    · have hl : last2 (grid2.coords t) := (lastR2_iff t).mpr h1
      rw [show (datR2 V c).leavesExact 2 t = owns (c : Thread nD τ) (bufR2_2 t) fullShare ((datR2 V c).after 2 t) from by
        unfold Dat.leavesExact; rw [liveR2_2 t hl], afterR2_2, accR2_next V c t h0]
      iintro ⟨⟨HS, Hh⟩, Ho, ⟨%d0, H0⟩, ⟨%d1, H1⟩, ⟨%d2, H2⟩⟩
      iapply (run2_last c (grid2.coords t) _ (wholeR2_0 t) _ (wholeR2_1 t) _ (wholeR2_2 t) _ (Memref.isWhole_whole _) hf hl
        (adjR2 V c t) (featR2 V c t) (accR2 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexact H2
    · have hl : ¬last2 (grid2.coords t) := fun h => h1 ((lastR2_iff t).mp h)
      rw [Dat.leavesExact_idle (datR2 V c) 2 t (idleR2_2 t hl) (keepR2_2 t hl)]
      iintro ⟨⟨HS, Hh⟩, Ho, ⟨%d0, H0⟩, ⟨%d1, H1⟩, ⟨%d2, H2⟩⟩
      iapply (run2_mid c (grid2.coords t) _ (wholeR2_0 t) _ (wholeR2_1 t) _ (wholeR2_2 t) _ (Memref.isWhole_whole _) hf hl
        (adjR2 V c t) (featR2 V c t) ((datR2 V c).before 2 t d2) (accR2 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2

/-- The step obligation of the launch rule, at every step. -/
theorem obligationR2 (c : Dev nD) : BodyObligation (datR2 (F := F) V c) (defs₀ (F := F)) Variants.none () Set.univ := fun t => by
  rw [bigSep_W2, bigSep_W2]
  exact sound_stepR2 V c t

/-- The region's own invariant is the invariant before the first step, -/
theorem beginR2 (c : Dev nD) : Pipeline.ΦA (U := UR sig nD τ) (Val := Elt F) spec2 c ⊢ (datR2 V c).Φ 0 := by
  rw [show (datR2 V c).Φ 0 = PhiR2 V c 0 (Nat.zero_le _) from rfl, PhiR2_zero V c 0 _ rfl]
  try exact Idealize.SL.BI.Entails.refl _

/-- and after the last step the accumulator's buffer goes back into it, its contents forgotten. -/
theorem endR2 (c : Dev nD) : (datR2 V c).Φ (Fin.last cfg2.N) ⊢ Pipeline.ΦA (U := UR sig nD τ) (Val := Elt F) spec2 c := by
  rw [show (datR2 V c).Φ (Fin.last cfg2.N) = PhiR2 V c (Fin.last cfg2.N).val (Nat.le_of_lt_succ (Fin.last cfg2.N).isLt) from rfl,
    PhiR2_pos V c _ _ (by rw [Fin.val_last]; have : cfg2.N = 16 := N_2; omega)]
  unfold holeR2
  iintro ⟨HS, Hh⟩
  iapply Hh
  iexists _; iexact HS

end Region2

end Cert.Kernel.Hand

end
-- ==== Proof.K.Glue.lean ====
/-
  The three regions put into the program's run. Each region is entered with the buffers at the valuation the
  host operations before it leave, and leaves its output array at the blocked product its steps accumulate;
  the next host stretch starts from there. With the three segment records the program's frame follows, and its
  run with the result named.
-/
import proofs.«130713_j75840532512927_1_alg».proof.Proof.Gen.Kernel.Launch
import proofs.«130713_j75840532512927_1_alg».proof.Proof.Gen.Kernel.Skeleton
import proofs.«130713_j75840532512927_1_alg».proof.Proof.Gen.Kernel.Points
import proofs.«130713_j75840532512927_1_alg».proof.Proof.Gen.Kernel.Regions
import proofs.«130713_j75840532512927_1_alg».proof.Proof.K.RunCond
import proofs.«130713_j75840532512927_1_alg».proof.Proof.K.Data0
import proofs.«130713_j75840532512927_1_alg».proof.Proof.K.Data1
import proofs.«130713_j75840532512927_1_alg».proof.Proof.K.Data2
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers at each region's two ends -/

/-- Region 0 is entered after the first three host stretches. -/
abbrev entR0 (c : Dev nD) (b : Ref sig .tc) : Buf (Elt F) ((c : Thread nD τ).loc b) := V3 m c b
/-- What region 0 leaves: its arrays at what its proof data computes, every other buffer as entered. -/
def leftR0 (c : Dev nD) : Valuation τ sig (Elt F) :=
  Pipeline.withArrays spec0 c (V3 m c) fun w => (datR0 (entR0 m) c).arrAt w cfg0.N
/-- The regions' outputs, first stage: region 0's. -/
def outsA : Outs (F := F) := fun _ r c => leftR0 m c (Proc.devRef .tc r)

/-- Region 1 is entered after the host stretches that follow region 0. -/
abbrev entR1 (c : Dev nD) (b : Ref sig .tc) : Buf (Elt F) ((c : Thread nD τ).loc b) := V9 m (outsA m) c b
def leftR1 (c : Dev nD) : Valuation τ sig (Elt F) :=
  Pipeline.withArrays spec1 c (V9 m (outsA m) c) fun w => (datR1 (entR1 m) c).arrAt w cfg1.N
/-- Second stage: region 1's output beside region 0's. -/
def outsB : Outs (F := F) := fun j r c => if j = 10 then leftR1 m c (Proc.devRef .tc r) else outsA m j r c

/-- Region 2 is entered after the host stretches that follow region 1. -/
abbrev entR2 (c : Dev nD) (b : Ref sig .tc) : Buf (Elt F) ((c : Thread nD τ).loc b) := V15 m (outsB m) c b
def leftR2 (c : Dev nD) : Valuation τ sig (Elt F) :=
  Pipeline.withArrays spec2 c (V15 m (outsB m) c) fun w => (datR2 (entR2 m) c).arrAt w cfg2.N
/-- All three outputs. -/
def outsC : Outs (F := F) := fun j r c => if j = 16 then leftR2 m c (Proc.devRef .tc r) else outsB m j r c

/-- A later stage does not change what an earlier region is entered with. -/
theorem V9_stage (c : Dev nD) : V9 m (outsC m) c = V9 m (outsA m) c := rfl
theorem V15_stage (c : Dev nD) : V15 m (outsC m) c = V15 m (outsB m) c := rfl

/-- The buffers after each region, as the run's valuations name them. -/
abbrev exitR0 (c : Dev nD) (b : Ref sig .tc) : Buf (Elt F) ((c : Thread nD τ).loc b) := V4 m (outsC m) c b
abbrev exitR1 (c : Dev nD) (b : Ref sig .tc) : Buf (Elt F) ((c : Thread nD τ).loc b) := V10 m (outsC m) c b
abbrev exitR2 (c : Dev nD) (b : Ref sig .tc) : Buf (Elt F) ((c : Thread nD τ).loc b) := V16 m (outsC m) c b

/-- The output array of region 0 after it, read off the run's valuation, is what the proof data computes. -/
theorem outR0 (c : Dev nD) : V4 m (outsC m) c main_v18 = (datR0 (entR0 m) c).arrAt 2 cfg0.N := by
  show Function.update (V3 m c) main_v18 (outsC m 4 main_v18 c) main_v18 = _
  rw [Function.update_self]
  show leftR0 m c (Proc.devRef .tc main_v18) = _
  unfold leftR0
  exact Pipeline.withArrays_arr spec0 launch0.win.arr_inj c _ _ 2
theorem outR1 (c : Dev nD) : V10 m (outsC m) c main_v36 = (datR1 (entR1 m) c).arrAt 2 cfg1.N := by
  show Function.update (V9 m (outsC m) c) main_v36 (outsC m 10 main_v36 c) main_v36 = _
  rw [Function.update_self]
  show leftR1 m c (Proc.devRef .tc main_v36) = _
  unfold leftR1
  exact Pipeline.withArrays_arr spec1 launch1.win.arr_inj c _ _ 2
theorem outR2 (c : Dev nD) : V16 m (outsC m) c main_v54 = (datR2 (entR2 m) c).arrAt 2 cfg2.N := by
  show Function.update (V15 m (outsC m) c) main_v54 (outsC m 16 main_v54 c) main_v54 = _
  rw [Function.update_self]
  show leftR2 m c (Proc.devRef .tc main_v54) = _
  unfold leftR2
  exact Pipeline.withArrays_arr spec2 launch2.win.arr_inj c _ _ 2

/-- At a region's exit each of its arrays holds what the pipeline leaves, -/
theorem hFR0 (c : Dev nD) (w : Fin cfg0.W) : (datR0 (entR0 m) c).arrAt w cfg0.N = exitR0 m c (Pipeline.arrRef spec0 w) := by
  match w with
  | ⟨0, _⟩ => exact ((datR0 (entR0 m) c).arrAt_in 0 rfl _).trans ((A_eqR0 (entR0 m) c 0).trans (V4_of m (outsC m) c main_arg2 (by decide)).symm)
  | ⟨1, _⟩ => exact ((datR0 (entR0 m) c).arrAt_in 1 rfl _).trans ((A_eqR0 (entR0 m) c 1).trans (V4_of m (outsC m) c main_v17 (by decide)).symm)
  | ⟨2, _⟩ => exact (outR0 m c).symm
theorem hFR1 (c : Dev nD) (w : Fin cfg1.W) : (datR1 (entR1 m) c).arrAt w cfg1.N = exitR1 m c (Pipeline.arrRef spec1 w) := by
  match w with
  | ⟨0, _⟩ => exact ((datR1 (entR1 m) c).arrAt_in 0 rfl _).trans ((A_eqR1 (entR1 m) c 0).trans (V10_of m (outsC m) c main_arg2 (by decide)).symm)
  | ⟨1, _⟩ => exact ((datR1 (entR1 m) c).arrAt_in 1 rfl _).trans ((A_eqR1 (entR1 m) c 1).trans (V10_of m (outsC m) c main_v35 (by decide)).symm)
  | ⟨2, _⟩ => exact (outR1 m c).symm
theorem hFR2 (c : Dev nD) (w : Fin cfg2.W) : (datR2 (entR2 m) c).arrAt w cfg2.N = exitR2 m c (Pipeline.arrRef spec2 w) := by
  match w with
  | ⟨0, _⟩ => exact ((datR2 (entR2 m) c).arrAt_in 0 rfl _).trans ((A_eqR2 (entR2 m) c 0).trans (V16_of m (outsC m) c main_arg2 (by decide)).symm)
  | ⟨1, _⟩ => exact ((datR2 (entR2 m) c).arrAt_in 1 rfl _).trans ((A_eqR2 (entR2 m) c 1).trans (V16_of m (outsC m) c main_v53 (by decide)).symm)
  | ⟨2, _⟩ => exact (outR2 m c).symm
/-- and every other buffer what it held at entry. -/
theorem hrestR0 (c : Dev nD) : ∀ b, b ∉ Finset.univ.image (Pipeline.arrRef spec0) → exitR0 m c b = entR0 m c b :=
  fun b hb => V4_of m (outsC m) c b (fun h => hb (Finset.mem_image.mpr ⟨2, Finset.mem_univ _, (List.mem_singleton.mp h).symm⟩))
theorem hrestR1 (c : Dev nD) : ∀ b, b ∉ Finset.univ.image (Pipeline.arrRef spec1) → exitR1 m c b = entR1 m c b :=
  fun b hb => V10_of m (outsC m) c b (fun h => hb (Finset.mem_image.mpr ⟨2, Finset.mem_univ _, (List.mem_singleton.mp h).symm⟩))
theorem hrestR2 (c : Dev nD) : ∀ b, b ∉ Finset.univ.image (Pipeline.arrRef spec2) → exitR2 m c b = entR2 m c b :=
  fun b hb => V16_of m (outsC m) c b (fun h => hb (Finset.mem_image.mpr ⟨2, Finset.mem_univ _, (List.mem_singleton.mp h).symm⟩))

/-! ## The proof data family and what rides beside the buffers -/

/-- Every region's proof data, each at its region's entry contents. -/
def pdatsH : (p : Fin 3) → (c : Dev nD) → Dat τ (Elt F) Unit ℕ (UR sig nD τ) ℕ (cfgs p) c
  | ⟨0, _⟩ => fun c => datR0 (entR0 m) c
  | ⟨1, _⟩ => fun c => datR1 (entR1 m) c
  | ⟨2, _⟩ => fun c => datR2 (entR2 m) c
/-- No core owes another anything: no level is assigned. -/
abbrev LvH : GSem nD τ sig → Finset Unit := fun _ => ∅
abbrev lvH : GSem nD τ sig → Unit → ℕ := fun _ _ => 0
/-- Beside the buffers through every item: the generator register at some state, and the core owing nothing. -/
abbrev restH (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered with every buffer outside the kernels' own at the valuation before it,
    left at the one after it. Its three arrays are split out of those buffers and put back, the output at what the
    proof data computes; the kernels' own buffers and the generator register pass through the step invariant; nothing
    is owed and the kernel has no semaphore of its own. -/
def regR0 : Pipeline.RegionSeg (pcfgs (F := F)) adm (pdatsH m) () defs₀ Variants.none LvH lvH 0 where
  win := launch0.win.to₀
  block_pos := launch0.block_pos
  stage_whole := launch0.stage_whole
  K := PEmpty
  osem k := k.elim
  ho := Pipeline.OwnSemFacts.none _
  hbody c := (obligationR0 (entR0 m) c).loose
  hwaits := Pipeline.hwaits_of_owed_zero _ _ _ _ LvH lvH 0 fun _ _ => rfl
  pre c := iprop(StableHlo.held (c : Thread nD τ) (Pipeline.ucRefs τ sig) (V3 m c) ∗ restH c)
  post c := iprop(StableHlo.held (c : Thread nD τ) (Pipeline.ucRefs τ sig) (V4 m (outsC m) c) ∗ restH c)
  X c := iprop(∃ r, prngReg c r)
  Y c := iprop(∃ r, prngReg c r)
  Z c := Pipeline.unscopedRest (Ix := Unit) (Name := ℕ) (U := UR sig nD τ) (Lvl := ℕ) spec0 c (entR0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (entR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = (datR0 (entR0 m) c).Φ 0 from rfl]
    iintro ⟨Hp, -, Hr⟩
    iapply (beginR0 (entR0 m) c)
    unfold Pipeline.ΦA
    isplitl [Hr]; · iexact Hr
    iexact Hp
  hout c := by
    rw [Pipeline.ownSems0_none, show (pdatsH m 0 c).Φ (Fin.last _) = (datR0 (entR0 m) c).Φ (Fin.last cfg0.N) from rfl]
    iintro H
    ihave H' := (endR0 (entR0 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (entR0 m c) (exitR0 m c) ((pdatsH m 0 c).arrAt · cfg0.N) (hFR0 m c) (hrestR0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every buffer outside the kernels' own at the valuation before it,
    left at the one after it. Its three arrays are split out of those buffers and put back, the output at what the
    proof data computes; the kernels' own buffers and the generator register pass through the step invariant; nothing
    is owed and the kernel has no semaphore of its own. -/
def regR1 : Pipeline.RegionSeg (pcfgs (F := F)) adm (pdatsH m) () defs₀ Variants.none LvH lvH 1 where
  win := launch1.win.to₀
  block_pos := launch1.block_pos
  stage_whole := launch1.stage_whole
  K := PEmpty
  osem k := k.elim
  ho := Pipeline.OwnSemFacts.none _
  hbody c := (obligationR1 (entR1 m) c).loose
  hwaits := Pipeline.hwaits_of_owed_zero _ _ _ _ LvH lvH 1 fun _ _ => rfl
  pre c := iprop(StableHlo.held (c : Thread nD τ) (Pipeline.ucRefs τ sig) (V9 m (outsA m) c) ∗ restH c)
  post c := iprop(StableHlo.held (c : Thread nD τ) (Pipeline.ucRefs τ sig) (V10 m (outsC m) c) ∗ restH c)
  X c := iprop(∃ r, prngReg c r)
  Y c := iprop(∃ r, prngReg c r)
  Z c := Pipeline.unscopedRest (Ix := Unit) (Name := ℕ) (U := UR sig nD τ) (Lvl := ℕ) spec1 c (entR1 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (entR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = (datR1 (entR1 m) c).Φ 0 from rfl]
    iintro ⟨Hp, -, Hr⟩
    iapply (beginR1 (entR1 m) c)
    unfold Pipeline.ΦA
    isplitl [Hr]; · iexact Hr
    iexact Hp
  hout c := by
    rw [Pipeline.ownSems0_none, show (pdatsH m 1 c).Φ (Fin.last _) = (datR1 (entR1 m) c).Φ (Fin.last cfg1.N) from rfl]
    iintro H
    ihave H' := (endR1 (entR1 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (entR1 m c) (exitR1 m c) ((pdatsH m 1 c).arrAt · cfg1.N) (hFR1 m c) (hrestR1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every buffer outside the kernels' own at the valuation before it,
    left at the one after it. Its three arrays are split out of those buffers and put back, the output at what the
    proof data computes; the kernels' own buffers and the generator register pass through the step invariant; nothing
    is owed and the kernel has no semaphore of its own. -/
def regR2 : Pipeline.RegionSeg (pcfgs (F := F)) adm (pdatsH m) () defs₀ Variants.none LvH lvH 2 where
  win := launch2.win.to₀
  block_pos := launch2.block_pos
  stage_whole := launch2.stage_whole
  K := PEmpty
  osem k := k.elim
  ho := Pipeline.OwnSemFacts.none _
  hbody c := (obligationR2 (entR2 m) c).loose
  hwaits := Pipeline.hwaits_of_owed_zero _ _ _ _ LvH lvH 2 fun _ _ => rfl
  pre c := iprop(StableHlo.held (c : Thread nD τ) (Pipeline.ucRefs τ sig) (V15 m (outsB m) c) ∗ restH c)
  post c := iprop(StableHlo.held (c : Thread nD τ) (Pipeline.ucRefs τ sig) (V16 m (outsC m) c) ∗ restH c)
  X c := iprop(∃ r, prngReg c r)
  Y c := iprop(∃ r, prngReg c r)
  Z c := Pipeline.unscopedRest (Ix := Unit) (Name := ℕ) (U := UR sig nD τ) (Lvl := ℕ) spec2 c (entR2 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (entR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = (datR2 (entR2 m) c).Φ 0 from rfl]
    iintro ⟨Hp, -, Hr⟩
    iapply (beginR2 (entR2 m) c)
    unfold Pipeline.ΦA
    isplitl [Hr]; · iexact Hr
    iexact Hp
  hout c := by
    rw [Pipeline.ownSems0_none, show (pdatsH m 2 c).Φ (Fin.last _) = (datR2 (entR2 m) c).Φ (Fin.last cfg2.N) from rfl]
    iintro H
    ihave H' := (endR2 (entR2 m) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (entR2 m c) (exitR2 m c) ((pdatsH m 2 c).arrAt · cfg2.N) (hFR2 m c) (hrestR2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side -/

/-- The launch element funds the rounds' ghost state and nothing else. -/
theorem fundH : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals one core makes the rest that rides beside its buffers, -/
theorem dealOneH (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (restH (F := F) c : sProp 𝕄) := by
  iintro ⟨-, HO, -, Hp, -⟩
  isplitl [Hp]; · iexists _; iexact Hp
  iexists ∅; iexact HO

/-- and so on every core at once. -/
theorem dealH : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts LvH lvH)
    ⊢ (|={Set.univ}=> bigSep Finset.univ (fun c : Dev nD => restH (F := F) c) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => restH (F := F) c) : sProp 𝕄) :=
    bigSep_mono fun c _ => dealOneH (F := F) ρ c
  iintro ⟨H, -⟩
  imodintro
  iapply hm
  iexact H

/-! ## The frame and the run -/

set_option backward.isDefEq.respectTransparency.types false in
/-- Every execution of the program ends with its arguments as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () Variants.none LvH lvH (fun _ _ => rfl) ρ (outsC m) (pdatsH m) 0 (fun _ => iprop(emp))
    (initOf (Pipeline.cells cfgs cellOf_inj) (Pipeline.launchToks cfgs cellOf_inj)) (fundH (F := F))
    (fun _ c => restH c) (dealH ρ) (fun c => by iintro ⟨-, HO⟩; iexact HO)
    (regR0 m) (fun _ => .rfl) (fun _ => .rfl)
    (regR1 m) (fun c => by rw [V9_stage m c]; exact .rfl) (fun _ => .rfl)
    (regR2 m) (fun c => by rw [V15_stage m c]; exact .rfl) (fun _ => .rfl)

set_option backward.isDefEq.respectTransparency.types false in
/-- The same run with the result named: the last valuation's entry for the result buffer. -/
theorem runH : θ_run defs (onTc (τ := τ) (main (F := F))) ⟨m, fun _ => 0, ρ⟩ (fun r => ∀ c : Dev nD,
      r.2.mem ((c.tc : Thread nD τ).loc main_v88) = V23 m (outsC m) c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond m emb₁ () Variants.none LvH lvH (fun _ _ => rfl) ρ (outsC m) (pdatsH m) 0 (fun _ => iprop(emp))
    (initOf (Pipeline.cells cfgs cellOf_inj) (Pipeline.launchToks cfgs cellOf_inj)) (fundH (F := F))
    (fun _ c => restH c) (dealH ρ) (fun c => by iintro ⟨-, HO⟩; iexact HO)
    (regR0 m) (fun _ => .rfl) (fun _ => .rfl)
    (regR1 m) (fun c => by rw [V9_stage m c]; exact .rfl) (fun _ => .rfl)
    (regR2 m) (fun c => by rw [V15_stage m c]; exact .rfl) (fun _ => .rfl)

end Cert.Kernel.Hand

end
-- ==== Proof.KI.RunCond.lean ====
/-
  The whole program's run with its result named. Between any two items of the program every buffer outside the
  kernels' own is held at a stated valuation: the launch contents, then each host stretch applied in turn, each
  kernel region's output array replaced by what the region leaves. Given one segment record per region that
  enters at the valuation before it and leaves at the one after it, every execution ends, the arguments are as
  launched, and the result buffer holds the last valuation's entry for it.
-/
import proofs.«130713_j75840532512927_1_alg».proof.Proof.Gen.KernelIdeal.Regions

set_option maxRecDepth 1104

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c)) :
    θ_run defs (onTc (τ := τ) (main (F := F))) ⟨m, fun _ => 0, ρ⟩ (fun r => ∀ c : Dev nD,
      r.2.mem ((c.tc : Thread nD τ).loc main_v88) = V23 m outs c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, .rfl, .rfl, hpre0 c, hpost0 c, .rfl, .rfl, .rfl, .rfl, hpre1 c, hpost1 c, .rfl, .rfl, .rfl, .rfl, hpre2 c, hpost2 c, .rfl, .rfl, .rfl, .rfl, .rfl, .rfl, sep_mono .rfl (hE3 c)⟩)
    (hinit := ?_) (QY := fun c s => s.mem ((c.tc : Thread nD τ).loc main_v88) = V23 m outs c main_v88 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the buffers are held at the launch contents; what else the launch deals makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact ⟨h (Proc.devRef .tc main_v88) (Finset.mem_filter.mpr ⟨StableHlo.devRef_mem_tcRefs main_v88, by decide⟩),
        (h (Proc.devRef .tc main_arg0) (Finset.mem_filter.mpr ⟨StableHlo.devRef_mem_tcRefs main_arg0, by decide⟩)).trans (V23_main_arg0 m outs c),
        (h (Proc.devRef .tc main_arg1) (Finset.mem_filter.mpr ⟨StableHlo.devRef_mem_tcRefs main_arg1, by decide⟩)).trans (V23_main_arg1 m outs c),
        (h (Proc.devRef .tc main_arg2) (Finset.mem_filter.mpr ⟨StableHlo.devRef_mem_tcRefs main_arg2, by decide⟩)).trans (V23_main_arg2 m outs c),
        (h (Proc.devRef .tc main_arg3) (Finset.mem_filter.mpr ⟨StableHlo.devRef_mem_tcRefs main_arg3, by decide⟩)).trans (V23_main_arg3 m outs c),
        (h (Proc.devRef .tc main_arg4) (Finset.mem_filter.mpr ⟨StableHlo.devRef_mem_tcRefs main_arg4, by decide⟩)).trans (V23_main_arg4 m outs c),
        (h (Proc.devRef .tc main_arg5) (Finset.mem_filter.mpr ⟨StableHlo.devRef_mem_tcRefs main_arg5, by decide⟩)).trans (V23_main_arg5 m outs c),
        (h (Proc.devRef .tc main_arg6) (Finset.mem_filter.mpr ⟨StableHlo.devRef_mem_tcRefs main_arg6, by decide⟩)).trans (V23_main_arg6 m outs c),
        (h (Proc.devRef .tc main_arg7) (Finset.mem_filter.mpr ⟨StableHlo.devRef_mem_tcRefs main_arg7, by decide⟩)).trans (V23_main_arg7 m outs c),
        (h (Proc.devRef .tc main_arg8) (Finset.mem_filter.mpr ⟨StableHlo.devRef_mem_tcRefs main_arg8, by decide⟩)).trans (V23_main_arg8 m outs c),
        (h (Proc.devRef .tc main_arg9) (Finset.mem_filter.mpr ⟨StableHlo.devRef_mem_tcRefs main_arg9, by decide⟩)).trans (V23_main_arg9 m outs c)⟩
    · iexact HSI

end Cert.KernelIdeal.Hand

end
-- ==== Proof.KI.Block.lean ====
/-
  A whole-block access: the block read or written through the rectangle at zero offsets of the block's own size.
  One store of that kind covers the block, and so do two.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, however they are spelt. -/
theorem zero_off : (![0, 0] : Fin 2 → Nat) = fun _ => 0 := funext fun a => by fin_cases a <;> rfl

/-- A single store through the whole block covers the block. -/
theorem cover_one {e : EltTy} (w : S2048x256.Idx → Elt F e) (y : S2048x256.Idx) :
    ∃ p ∈ [(⟨Rect.unit (s := S2048x256) ![0, 0] S2048x256.size inb_S2048x256_S2048x256_0_0, w⟩ : View.Piece (Elt F) S2048x256 e)], y ∈ p.1.set :=
  View.cover_of_tiledL _ S2048x256.size (by sl_kernel_rfl) y

/-- Two stores through the whole block cover it too. -/
theorem cover_two {e : EltTy} (w w' : S2048x256.Idx → Elt F e) (y : S2048x256.Idx) :
    ∃ p ∈ [(⟨Rect.unit (s := S2048x256) ![0, 0] S2048x256.size inb_S2048x256_S2048x256_0_0, w⟩ : View.Piece (Elt F) S2048x256 e),
      ⟨Rect.unit (s := S2048x256) ![0, 0] S2048x256.size inb_S2048x256_S2048x256_0_0, w'⟩], y ∈ p.1.set :=
  by
    obtain ⟨p, hp, hy⟩ := cover_one (F := F) w y
    rw [List.mem_singleton.mp hp] at hy
    exact ⟨_, List.mem_cons.mpr (Or.inl rfl), hy⟩

end Cert.KernelIdeal.Hand

end
-- ==== Proof.KI.Step0.lean ====
/-
  One step of the blocked product, region 0. The kernel walks a 4 x 4 grid of (row block, column block): at the
  first column block of a row it clears the accumulator, at every step it adds the product of the adjacency
  block (read as bf16) with the matching 2048 rows of the features, and at the last column block it copies the
  accumulator to the output block. Here: what one call of the kernel function leaves in its four buffers, in
  each of the three situations a step can be in, with the contents written out.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Block
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step is the first of its row of blocks (column block 0): the accumulator is cleared. -/
abbrev first0 (i : grid0.Coords) : Prop := (Scalar.cmpi .ne (Scalar.extui (Scalar.cmpi .eq (BitVec.ofNat 32 (i 1).val) 0#32)) 0#32) = 1#1
/-- The step is the last of its row of blocks (column block 3): the accumulator is copied out. -/
abbrev last0 (i : grid0.Coords) : Prop := k0_cond2 i = 1#1

/-- The accumulator after a step that found it at `s`: `s` plus the product of the two blocks. -/
abbrev step0 (a : Vec F S2048x2048 .f32) (s : Vec F S2048x256 .f32) (h : Vec F S2048x256 .bf16) : Vec F S2048x256 .f32 := k0_pay2 a s h
/-- The cleared accumulator. -/
abbrev clear0 : Vec F S2048x256 .f32 := k0_pay1

set_option maxHeartbeats 2000000 in
/-- A middle step: the accumulator goes from `s` to `step0 a s h`; the output block is left alone. -/
theorem run0_mid (c : Dev nD) (i : grid0.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first0 i) (hl : ¬last0 i)
    (a : Vec F S2048x2048 .f32) (h : Vec F S2048x256 .bf16) (x4 : Vec F S2048x256 .f32) (s : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ owns (c : Thread nD τ) arg5 fullShare s
        ∗ (iprop(owns (c : Thread nD τ) arg2 fullShare a ∗ owns (c : Thread nD τ) arg3 fullShare h ∗ owns (c : Thread nD τ) arg4 fullShare x4 ∗ owns (c : Thread nD τ) arg5 fullShare (step0 a s h)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

set_option maxHeartbeats 2000000 in
/-- A first step: the accumulator, whatever it held, is cleared and then stepped; the output block is left alone. -/
theorem run0_first (c : Dev nD) (i : grid0.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : first0 i) (hl : ¬last0 i)
    (a : Vec F S2048x2048 .f32) (h : Vec F S2048x256 .bf16) (x4 : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ (∃ s, owns (c : Thread nD τ) arg5 fullShare s)
        ∗ (iprop(owns (c : Thread nD τ) arg2 fullShare a ∗ owns (c : Thread nD τ) arg3 fullShare h ∗ owns (c : Thread nD τ) arg4 fullShare x4 ∗ owns (c : Thread nD τ) arg5 fullShare (step0 a clear0 h)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (cover_two _ _), View.canon_cons_unit_zero (S := S2048x256) zero_off]
  simp only [View.readAt_eq_ld, harg2.read_unread, harg3.read_unread,
    View.ld_unit_zero (S := S2048x2048) zero_off, View.ld_unit_zero (S := S2048x256) zero_off,
    View.readCov_unit_zero (S := S2048x256) _ zero_off]

set_option maxHeartbeats 2000000 in
/-- A last step: the accumulator goes from `s` to `step0 a s h`, and the output block receives the same. -/
theorem run0_last (c : Dev nD) (i : grid0.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first0 i) (hl : last0 i)
    (a : Vec F S2048x2048 .f32) (h : Vec F S2048x256 .bf16) (s : Vec F S2048x256 .f32)
    (E : Set ℕ) (K : PUnit → sProp 𝕄) :
    iprop(owns (c : Thread nD τ) arg2 fullShare a ∗ owns (c : Thread nD τ) arg3 fullShare h ∗ (∃ d, owns (c : Thread nD τ) arg4 fullShare d) ∗ owns (c : Thread nD τ) arg5 fullShare s
        ∗ (iprop(owns (c : Thread nD τ) arg2 fullShare a ∗ owns (c : Thread nD τ) arg3 fullShare h ∗ owns (c : Thread nD τ) arg4 fullShare (step0 a s h) ∗ owns (c : Thread nD τ) arg5 fullShare (step0 a s h)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_one _), View.canon_unit_zero zero_off]
    simp only [View.readAt_eq_ld, harg2.read_unread, harg3.read_unread, harg5.read_unread,
      View.ld_unit_zero (S := S2048x2048) zero_off, View.ld_unit_zero (S := S2048x256) zero_off,
      View.readCov_unit_zero (S := S2048x256) _ zero_off]
  iexists _; isplitr
  swap; · iexact H5
  ipureintro
  sl_unfold_words
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

end Cert.KernelIdeal.Hand

end
-- ==== Proof.KI.Data0.lean ====
/-
  The blocked product of region 0, step by step. The sixteen steps run through the row blocks, four column blocks
  each. Stated here: each step's two input blocks as parts of the arrays the region is entered with; the
  accumulator after every step (cleared at the head of a row of blocks, then one product added per step); the
  invariant that carries it from step to step; and that one call of the kernel function takes the invariant, the
  two input blocks and the output block from one step to the next — the output block receiving the accumulator at
  the end of a row and being left alone elsewhere.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Step0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the TensorCore's buffers when the region is entered
variable (V : (c : Dev nD) → (b : Ref sig .tc) → Buf (Elt F) ((c : Thread nD τ).loc b))

/-! ## The blocks and the step's situation -/

/-- Window `w`'s block at step `t`, a part of its array as the region finds it. -/
def blkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block of step `t` -/
abbrev adjR0 (c : Dev nD) (t : Fin cfg0.N) : Vec F S2048x2048 .f32 := blkR0 V c 0 t
/-- and the feature rows it meets. -/
abbrev featR0 (c : Dev nD) (t : Fin cfg0.N) : Vec F S2048x256 .bf16 := blkR0 V c 1 t

/-- A step clears the accumulator exactly when it is the first of four, -/
theorem firstR0_iff : ∀ t : Fin cfg0.N, first0 (grid0.coords t) ↔ t.val % 4 = 0 :=
  (by decide +kernel : ∀ t : Fin grid0.N, first0 (grid0.coords t) ↔ t.val % 4 = 0)
/-- and copies it out exactly when it is the last of four. -/
theorem lastR0_iff : ∀ t : Fin cfg0.N, last0 (grid0.coords t) ↔ t.val % 4 = 3 :=
  (by decide +kernel : ∀ t : Fin grid0.N, last0 (grid0.coords t) ↔ t.val % 4 = 3)

/-- The input windows are in use at every step; -/
theorem liveR0_0 : ∀ t : Fin cfg0.N, cfg0.idle 0 (grid0.coords t) = false := by decide +kernel
theorem liveR0_1 : ∀ t : Fin cfg0.N, cfg0.idle 1 (grid0.coords t) = false := by decide +kernel
/-- the output window only at the last step of four, where it is also written back. -/
theorem idleR0_2 : ∀ t : Fin cfg0.N, ¬last0 (grid0.coords t) → cfg0.idle 2 (grid0.coords t) = true := by decide +kernel
theorem keepR0_2 : ∀ t : Fin cfg0.N, ¬last0 (grid0.coords t) → (cfg0.win 2).flush t = false := by decide +kernel
theorem liveR0_2 : ∀ t : Fin cfg0.N, last0 (grid0.coords t) → cfg0.idle 2 (grid0.coords t) = false := by decide +kernel

/-- The buffers a step is called with. -/
abbrev bufR0_0 (t : Fin cfg0.N) : Memref sig .tc .vmem S2048x2048 .f32 := win0_0.stage (cfg0.slots t 0)
abbrev wholeR0_0 (t : Fin cfg0.N) : (bufR0_0 t).IsWhole := hstage0_0 ((cfg0.slots t 0).cast nbuf0_0)
abbrev bufR0_1 (t : Fin cfg0.N) : Memref sig .tc .vmem S2048x256 .bf16 := win0_1.stage (cfg0.slots t 1)
abbrev wholeR0_1 (t : Fin cfg0.N) : (bufR0_1 t).IsWhole := hstage0_1 ((cfg0.slots t 1).cast nbuf0_1)
abbrev bufR0_2 (t : Fin cfg0.N) : Memref sig .tc .vmem S2048x256 .f32 := win0_2.stage (cfg0.slots t 2)
abbrev wholeR0_2 (t : Fin cfg0.N) : (bufR0_2 t).IsWhole := hstage0_2 ((cfg0.slots t 2).cast nbuf0_2)
/-- The accumulator's buffer. -/
abbrev scrR0 : Memref sig .tc .vmem S2048x256 .f32 := Memref.whole cc0_scratch0

/-! ## The accumulator after each step -/

/-- The accumulator after step `n`: at the head of a row of blocks the cleared block stepped once, otherwise the
    previous step's accumulator stepped once. -/
def accR0 (c : Dev nD) : (n : ℕ) → n < cfg0.N → Vec F S2048x256 .f32
  | 0, hn => step0 (adjR0 V c ⟨0, hn⟩) clear0 (featR0 V c ⟨0, hn⟩)
  | n + 1, hn =>
    if (n + 1) % 4 = 0 then step0 (adjR0 V c ⟨n + 1, hn⟩) clear0 (featR0 V c ⟨n + 1, hn⟩)
    else step0 (adjR0 V c ⟨n + 1, hn⟩) (accR0 c n (Nat.lt_of_succ_lt hn)) (featR0 V c ⟨n + 1, hn⟩)

theorem accR0_first (c : Dev nD) (t : Fin cfg0.N) (h0 : t.val % 4 = 0) :
    accR0 V c t.val t.isLt = step0 (adjR0 V c t) clear0 (featR0 V c t) := by
  obtain ⟨n, hn⟩ := t
  cases n with
  | zero => rfl
  | succ n => exact if_pos h0

theorem accR0_next (c : Dev nD) (t : Fin cfg0.N) (h0 : ¬t.val % 4 = 0) :
    accR0 V c t.val t.isLt = step0 (adjR0 V c t) (accR0 V c (t.val - 1) (Nat.lt_of_le_of_lt (Nat.sub_le _ _) t.isLt)) (featR0 V c t) := by
  obtain ⟨n, hn⟩ := t
  cases n with
  | zero => exact absurd (Nat.zero_mod _) h0
  | succ n => exact if_neg h0

/-! ## The invariant -/

/-- What is left of the region's invariant once the accumulator's buffer is taken out of it: put the buffer back, at
    any contents, and the invariant is whole again. -/
def holeR0 (c : Dev nD) : sProp 𝕄 :=
  iprop((∃ d, owns (c : Thread nD τ) scrR0 fullShare d) -∗ Pipeline.ΦA (U := UR sig nD τ) (Val := Elt F) spec0 c)

/-- The accumulator's buffer can be taken out of the region's invariant. -/
theorem takeR0 (c : Dev nD) :
    (Pipeline.ΦA (U := UR sig nD τ) (Val := Elt F) spec0 c : sProp 𝕄) ⊢ iprop((∃ d, owns (c : Thread nD τ) scrR0 fullShare d) ∗ holeR0 c) := by
  unfold holeR0 Pipeline.ΦA
  rw [show (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))
    from Pipeline.scopedRest_eq_of_list spec0 c [cc0_scratch0, cc1_stg0_0, cc1_stg0_1, cc1_stg1_0, cc1_stg1_1, cc1_stg2_0, cc1_stg2_1, cc1_scratch0, cc2_stg0_0, cc2_stg0_1, cc2_stg1_0, cc2_stg1_1, cc2_stg2_0, cc2_stg2_1, cc2_scratch0] (by decide) (by decide)]
  simp only [scrR0, owns_whole]
  iintro ⟨⟨HS, H1, H2, H3, H4, H5, H6, H7, H8, H9, H10, H11, H12, H13, H14⟩, Hg⟩
  isplitl [HS]; · iexact HS
  iintro HS
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The invariant before step `n`: at the start the region's own; afterwards the accumulator's buffer at what the
    step before left, beside the rest. -/
def PhiR0 (c : Dev nD) : (n : ℕ) → n ≤ cfg0.N → sProp 𝕄
  | 0, _ => Pipeline.ΦA (U := UR sig nD τ) (Val := Elt F) spec0 c
  | n + 1, hn => iprop(owns (c : Thread nD τ) scrR0 fullShare (accR0 V c n hn) ∗ holeR0 c)

theorem PhiR0_zero (c : Dev nD) (n : ℕ) (h : n ≤ cfg0.N) (hz : n = 0) : PhiR0 V c n h = Pipeline.ΦA (U := UR sig nD τ) (Val := Elt F) spec0 c := by
  subst hz; rfl

theorem PhiR0_succ (c : Dev nD) (n : ℕ) (hn : n < cfg0.N) :
    PhiR0 V c (n + 1) hn = iprop(owns (c : Thread nD τ) scrR0 fullShare (accR0 V c n hn) ∗ holeR0 c) := rfl

theorem PhiR0_pos (c : Dev nD) (n : ℕ) (h : n ≤ cfg0.N) (hz : n ≠ 0) :
    PhiR0 V c n h = iprop(owns (c : Thread nD τ) scrR0 fullShare (accR0 V c (n - 1) (by omega)) ∗ holeR0 c) := by
  cases n with
  | zero => exact absurd rfl hz
  | succ n => rfl

/-! ## The proof data -/

/-- The region's proof data on core `c`: the arrays as the region finds them; after a step each input's buffer at
    its block and the output's at the accumulator; the invariant above; nothing owed; full shares. -/
def datR0 (c : Dev nD) : Dat τ (Elt F) Unit ℕ (UR sig nD τ) ℕ cfg0 c where
  A w := V c (Pipeline.arrRef spec0 w)
  after w t := match w with
    | ⟨0, _⟩ => blkR0 V c 0 t
    | ⟨1, _⟩ => blkR0 V c 1 t
    | ⟨2, _⟩ => accR0 V c t.val t.isLt
  Φ t := PhiR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiR0_castSucc (c : Dev nD) (t : Fin cfg0.N) :
    (datR0 V c).Φ t.castSucc = PhiR0 V c t.val (Nat.le_of_lt t.isLt) := by
  dsimp only [datR0]; simp only [Fin.coe_castSucc]

theorem afterR0_0 (c : Dev nD) (t : Fin cfg0.N) : (datR0 V c).after 0 t = blkR0 V c 0 t := by dsimp only [datR0]
theorem afterR0_1 (c : Dev nD) (t : Fin cfg0.N) : (datR0 V c).after 1 t = blkR0 V c 1 t := by dsimp only [datR0]
theorem afterR0_2 (c : Dev nD) (t : Fin cfg0.N) : (datR0 V c).after 2 t = accR0 V c t.val t.isLt := by dsimp only [datR0]

/-- An input's buffer holds its block when the step begins: it is fetched at every step. -/
theorem beforeR0_0 (c : Dev nD) (t : Fin cfg0.N) (d) : (datR0 V c).before 0 t d = blkR0 V c 0 t := by
  unfold Dat.before; rw [if_pos (fetch0_0 t)]; unfold Dat.fetched Dat.blockOf blkR0; rw [A_eqR0]; try rfl
theorem beforeR0_1 (c : Dev nD) (t : Fin cfg0.N) (d) : (datR0 V c).before 1 t d = blkR0 V c 1 t := by
  unfold Dat.before; rw [if_pos (fetch0_1 t)]; unfold Dat.fetched Dat.blockOf blkR0; rw [A_eqR0]; try rfl

/-! ## One step -/

/-- What a step is called with, -/
def stepPreR0 (c : Dev nD) (t : Fin cfg0.N) : sProp 𝕄 :=
  iprop((datR0 V c).Φ t.castSucc ∗ (datR0 V c).owesAt () t.castSucc
    ∗ (∃ d, owns (c : Thread nD τ) (bufR0_0 t) fullShare ((datR0 V c).before 0 t d))
    ∗ (∃ d, owns (c : Thread nD τ) (bufR0_1 t) fullShare ((datR0 V c).before 1 t d))
    ∗ (∃ d, owns (c : Thread nD τ) (bufR0_2 t) fullShare ((datR0 V c).before 2 t d)))

/-- and what it returns. -/
def stepPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

set_option maxHeartbeats 4800000 in
/-- A step at any point of the grid: the inputs' buffers hold their blocks; by the step's place among its four the
    kernel function clears and steps, steps, or steps and copies out; the invariant hands over the accumulator's
    buffer at what the step before left (at anything at the head of a row) and takes it back at this step's. -/
theorem sound_stepR0 (c : Dev nD) (t : Fin cfg0.N) :
    stepPreR0 V c t ⊢ wp frame (wpE (defs₀ (F := F)) Variants.none c none) Set.univ (bodyAt0 t) (fun _ => stepPostR0 V c t) := by
  unfold stepPreR0 stepPostR0 bodyAt0
  simp only [beforeR0_0, beforeR0_1]
  rw [show (datR0 V c).owesAt () t.succ = (datR0 V c).owesAt () t.castSucc from rfl]
  rw [show (datR0 V c).Φ t.succ = PhiR0 V c (t.val + 1) t.isLt from rfl, PhiR0_succ]
  rw [show (datR0 V c).leavesExact 0 t = owns (c : Thread nD τ) (bufR0_0 t) fullShare ((datR0 V c).after 0 t) from by
    unfold Dat.leavesExact; rw [liveR0_0 t], afterR0_0]
  rw [show (datR0 V c).leavesExact 1 t = owns (c : Thread nD τ) (bufR0_1 t) fullShare ((datR0 V c).after 1 t) from by
    unfold Dat.leavesExact; rw [liveR0_1 t], afterR0_1]
  have hN : t.val < 16 := lt_of_lt_of_eq t.isLt (show cfg0.N = 16 from N_0)
  by_cases h0 : t.val % 4 = 0
  · have hl : ¬last0 (grid0.coords t) := fun h => by have := (lastR0_iff t).mp h; omega
    rw [Dat.leavesExact_idle (datR0 V c) 2 t (idleR0_2 t hl) (keepR0_2 t hl)]
    rw [accR0_first V c t h0]
    by_cases hz : t.val = 0
    · rw [PhiR0_castSucc V c t, PhiR0_zero V c _ _ hz]
      iintro ⟨HP, Ho, ⟨%d0, H0⟩, ⟨%d1, H1⟩, ⟨%d2, H2⟩⟩
      ihave HP' := (takeR0 (F := F) c) $$ HP
      icases HP' with ⟨HS, Hh⟩
      iapply (run0_first c (grid0.coords t) _ (wholeR0_0 t) _ (wholeR0_1 t) _ (wholeR0_2 t) _ (Memref.isWhole_whole _) ((firstR0_iff t).mpr h0) hl
        (adjR0 V c t) (featR0 V c t) ((datR0 V c).before 2 t d2) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
    · rw [PhiR0_castSucc V c t, PhiR0_pos V c _ _ hz]
      iintro ⟨⟨HS, Hh⟩, Ho, ⟨%d0, H0⟩, ⟨%d1, H1⟩, ⟨%d2, H2⟩⟩
      iapply (run0_first c (grid0.coords t) _ (wholeR0_0 t) _ (wholeR0_1 t) _ (wholeR0_2 t) _ (Memref.isWhole_whole _) ((firstR0_iff t).mpr h0) hl
        (adjR0 V c t) (featR0 V c t) ((datR0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
  · have hz : t.val ≠ 0 := fun h => h0 (by rw [h])
    have hf : ¬first0 (grid0.coords t) := fun h => h0 ((firstR0_iff t).mp h)
    rw [accR0_next V c t h0]
    rw [PhiR0_castSucc V c t, PhiR0_pos V c _ _ hz]
    by_cases h1 : t.val % 4 = 3
    · have hl : last0 (grid0.coords t) := (lastR0_iff t).mpr h1
      rw [show (datR0 V c).leavesExact 2 t = owns (c : Thread nD τ) (bufR0_2 t) fullShare ((datR0 V c).after 2 t) from by
        unfold Dat.leavesExact; rw [liveR0_2 t hl], afterR0_2, accR0_next V c t h0]
      iintro ⟨⟨HS, Hh⟩, Ho, ⟨%d0, H0⟩, ⟨%d1, H1⟩, ⟨%d2, H2⟩⟩
      iapply (run0_last c (grid0.coords t) _ (wholeR0_0 t) _ (wholeR0_1 t) _ (wholeR0_2 t) _ (Memref.isWhole_whole _) hf hl
        (adjR0 V c t) (featR0 V c t) (accR0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexact H2
    · have hl : ¬last0 (grid0.coords t) := fun h => h1 ((lastR0_iff t).mp h)
      rw [Dat.leavesExact_idle (datR0 V c) 2 t (idleR0_2 t hl) (keepR0_2 t hl)]
      iintro ⟨⟨HS, Hh⟩, Ho, ⟨%d0, H0⟩, ⟨%d1, H1⟩, ⟨%d2, H2⟩⟩
      iapply (run0_mid c (grid0.coords t) _ (wholeR0_0 t) _ (wholeR0_1 t) _ (wholeR0_2 t) _ (Memref.isWhole_whole _) hf hl
        (adjR0 V c t) (featR0 V c t) ((datR0 V c).before 2 t d2) (accR0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2

/-- The step obligation of the launch rule, at every step. -/
theorem obligationR0 (c : Dev nD) : BodyObligation (datR0 (F := F) V c) (defs₀ (F := F)) Variants.none () Set.univ := fun t => by
  rw [bigSep_W0, bigSep_W0]
  exact sound_stepR0 V c t

/-- The region's own invariant is the invariant before the first step, -/
theorem beginR0 (c : Dev nD) : Pipeline.ΦA (U := UR sig nD τ) (Val := Elt F) spec0 c ⊢ (datR0 V c).Φ 0 := by
  rw [show (datR0 V c).Φ 0 = PhiR0 V c 0 (Nat.zero_le _) from rfl, PhiR0_zero V c 0 _ rfl]
  try exact Idealize.SL.BI.Entails.refl _

/-- and after the last step the accumulator's buffer goes back into it, its contents forgotten. -/
theorem endR0 (c : Dev nD) : (datR0 V c).Φ (Fin.last cfg0.N) ⊢ Pipeline.ΦA (U := UR sig nD τ) (Val := Elt F) spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 16 := N_0; omega)]
  unfold holeR0
  iintro ⟨HS, Hh⟩
  iapply Hh
  iexists _; iexact HS

end Region0

end Cert.KernelIdeal.Hand

end
-- ==== Proof.KI.Step1.lean ====
/-
  One step of the blocked product, region 1. The kernel walks a 4 x 4 grid of (row block, column block): at the
  first column block of a row it clears the accumulator, at every step it adds the product of the adjacency
  block (read as bf16) with the matching 2048 rows of the features, and at the last column block it copies the
  accumulator to the output block. Here: what one call of the kernel function leaves in its four buffers, in
  each of the three situations a step can be in, with the contents written out.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Block
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step is the first of its row of blocks (column block 0): the accumulator is cleared. -/
abbrev first1 (i : grid1.Coords) : Prop := (Scalar.cmpi .ne (Scalar.extui (Scalar.cmpi .eq (BitVec.ofNat 32 (i 1).val) 0#32)) 0#32) = 1#1
/-- The step is the last of its row of blocks (column block 3): the accumulator is copied out. -/
abbrev last1 (i : grid1.Coords) : Prop := k1_cond2 i = 1#1

/-- The accumulator after a step that found it at `s`: `s` plus the product of the two blocks. -/
abbrev step1 (a : Vec F S2048x2048 .f32) (s : Vec F S2048x256 .f32) (h : Vec F S2048x256 .bf16) : Vec F S2048x256 .f32 := k1_pay2 a s h
/-- The cleared accumulator. -/
abbrev clear1 : Vec F S2048x256 .f32 := k1_pay1

set_option maxHeartbeats 2000000 in
/-- A middle step: the accumulator goes from `s` to `step1 a s h`; the output block is left alone. -/
theorem run1_mid (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first1 i) (hl : ¬last1 i)
    (a : Vec F S2048x2048 .f32) (h : Vec F S2048x256 .bf16) (x4 : Vec F S2048x256 .f32) (s : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ owns (c : Thread nD τ) arg5 fullShare s
        ∗ (iprop(owns (c : Thread nD τ) arg2 fullShare a ∗ owns (c : Thread nD τ) arg3 fullShare h ∗ owns (c : Thread nD τ) arg4 fullShare x4 ∗ owns (c : Thread nD τ) arg5 fullShare (step1 a s h)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

set_option maxHeartbeats 2000000 in
/-- A first step: the accumulator, whatever it held, is cleared and then stepped; the output block is left alone. -/
theorem run1_first (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : first1 i) (hl : ¬last1 i)
    (a : Vec F S2048x2048 .f32) (h : Vec F S2048x256 .bf16) (x4 : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ (∃ s, owns (c : Thread nD τ) arg5 fullShare s)
        ∗ (iprop(owns (c : Thread nD τ) arg2 fullShare a ∗ owns (c : Thread nD τ) arg3 fullShare h ∗ owns (c : Thread nD τ) arg4 fullShare x4 ∗ owns (c : Thread nD τ) arg5 fullShare (step1 a clear1 h)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (cover_two _ _), View.canon_cons_unit_zero (S := S2048x256) zero_off]
  simp only [View.readAt_eq_ld, harg2.read_unread, harg3.read_unread,
    View.ld_unit_zero (S := S2048x2048) zero_off, View.ld_unit_zero (S := S2048x256) zero_off,
    View.readCov_unit_zero (S := S2048x256) _ zero_off]

set_option maxHeartbeats 2000000 in
/-- A last step: the accumulator goes from `s` to `step1 a s h`, and the output block receives the same. -/
theorem run1_last (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first1 i) (hl : last1 i)
    (a : Vec F S2048x2048 .f32) (h : Vec F S2048x256 .bf16) (s : Vec F S2048x256 .f32)
    (E : Set ℕ) (K : PUnit → sProp 𝕄) :
    iprop(owns (c : Thread nD τ) arg2 fullShare a ∗ owns (c : Thread nD τ) arg3 fullShare h ∗ (∃ d, owns (c : Thread nD τ) arg4 fullShare d) ∗ owns (c : Thread nD τ) arg5 fullShare s
        ∗ (iprop(owns (c : Thread nD τ) arg2 fullShare a ∗ owns (c : Thread nD τ) arg3 fullShare h ∗ owns (c : Thread nD τ) arg4 fullShare (step1 a s h) ∗ owns (c : Thread nD τ) arg5 fullShare (step1 a s h)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_one _), View.canon_unit_zero zero_off]
    simp only [View.readAt_eq_ld, harg2.read_unread, harg3.read_unread, harg5.read_unread,
      View.ld_unit_zero (S := S2048x2048) zero_off, View.ld_unit_zero (S := S2048x256) zero_off,
      View.readCov_unit_zero (S := S2048x256) _ zero_off]
  iexists _; isplitr
  swap; · iexact H5
  ipureintro
  sl_unfold_words
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

end Cert.KernelIdeal.Hand

end
-- ==== Proof.KI.Data1.lean ====
/-
  The blocked product of region 1, step by step. The sixteen steps run through the row blocks, four column blocks
  each. Stated here: each step's two input blocks as parts of the arrays the region is entered with; the
  accumulator after every step (cleared at the head of a row of blocks, then one product added per step); the
  invariant that carries it from step to step; and that one call of the kernel function takes the invariant, the
  two input blocks and the output block from one step to the next — the output block receiving the accumulator at
  the end of a row and being left alone elsewhere.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Step1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the contents of the TensorCore's buffers when the region is entered
variable (V : (c : Dev nD) → (b : Ref sig .tc) → Buf (Elt F) ((c : Thread nD τ).loc b))

/-! ## The blocks and the step's situation -/

/-- Window `w`'s block at step `t`, a part of its array as the region finds it. -/
def blkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block of step `t` -/
abbrev adjR1 (c : Dev nD) (t : Fin cfg1.N) : Vec F S2048x2048 .f32 := blkR1 V c 0 t
/-- and the feature rows it meets. -/
abbrev featR1 (c : Dev nD) (t : Fin cfg1.N) : Vec F S2048x256 .bf16 := blkR1 V c 1 t

/-- A step clears the accumulator exactly when it is the first of four, -/
theorem firstR1_iff : ∀ t : Fin cfg1.N, first1 (grid1.coords t) ↔ t.val % 4 = 0 :=
  (by decide +kernel : ∀ t : Fin grid1.N, first1 (grid1.coords t) ↔ t.val % 4 = 0)
/-- and copies it out exactly when it is the last of four. -/
theorem lastR1_iff : ∀ t : Fin cfg1.N, last1 (grid1.coords t) ↔ t.val % 4 = 3 :=
  (by decide +kernel : ∀ t : Fin grid1.N, last1 (grid1.coords t) ↔ t.val % 4 = 3)

/-- The input windows are in use at every step; -/
theorem liveR1_0 : ∀ t : Fin cfg1.N, cfg1.idle 0 (grid1.coords t) = false := by decide +kernel
theorem liveR1_1 : ∀ t : Fin cfg1.N, cfg1.idle 1 (grid1.coords t) = false := by decide +kernel
/-- the output window only at the last step of four, where it is also written back. -/
theorem idleR1_2 : ∀ t : Fin cfg1.N, ¬last1 (grid1.coords t) → cfg1.idle 2 (grid1.coords t) = true := by decide +kernel
theorem keepR1_2 : ∀ t : Fin cfg1.N, ¬last1 (grid1.coords t) → (cfg1.win 2).flush t = false := by decide +kernel
theorem liveR1_2 : ∀ t : Fin cfg1.N, last1 (grid1.coords t) → cfg1.idle 2 (grid1.coords t) = false := by decide +kernel

/-- The buffers a step is called with. -/
abbrev bufR1_0 (t : Fin cfg1.N) : Memref sig .tc .vmem S2048x2048 .f32 := win1_0.stage (cfg1.slots t 0)
abbrev wholeR1_0 (t : Fin cfg1.N) : (bufR1_0 t).IsWhole := hstage1_0 ((cfg1.slots t 0).cast nbuf1_0)
abbrev bufR1_1 (t : Fin cfg1.N) : Memref sig .tc .vmem S2048x256 .bf16 := win1_1.stage (cfg1.slots t 1)
abbrev wholeR1_1 (t : Fin cfg1.N) : (bufR1_1 t).IsWhole := hstage1_1 ((cfg1.slots t 1).cast nbuf1_1)
abbrev bufR1_2 (t : Fin cfg1.N) : Memref sig .tc .vmem S2048x256 .f32 := win1_2.stage (cfg1.slots t 2)
abbrev wholeR1_2 (t : Fin cfg1.N) : (bufR1_2 t).IsWhole := hstage1_2 ((cfg1.slots t 2).cast nbuf1_2)
/-- The accumulator's buffer. -/
abbrev scrR1 : Memref sig .tc .vmem S2048x256 .f32 := Memref.whole cc1_scratch0

/-! ## The accumulator after each step -/

/-- The accumulator after step `n`: at the head of a row of blocks the cleared block stepped once, otherwise the
    previous step's accumulator stepped once. -/
def accR1 (c : Dev nD) : (n : ℕ) → n < cfg1.N → Vec F S2048x256 .f32
  | 0, hn => step1 (adjR1 V c ⟨0, hn⟩) clear1 (featR1 V c ⟨0, hn⟩)
  | n + 1, hn =>
    if (n + 1) % 4 = 0 then step1 (adjR1 V c ⟨n + 1, hn⟩) clear1 (featR1 V c ⟨n + 1, hn⟩)
    else step1 (adjR1 V c ⟨n + 1, hn⟩) (accR1 c n (Nat.lt_of_succ_lt hn)) (featR1 V c ⟨n + 1, hn⟩)

theorem accR1_first (c : Dev nD) (t : Fin cfg1.N) (h0 : t.val % 4 = 0) :
    accR1 V c t.val t.isLt = step1 (adjR1 V c t) clear1 (featR1 V c t) := by
  obtain ⟨n, hn⟩ := t
  cases n with
  | zero => rfl
  | succ n => exact if_pos h0

theorem accR1_next (c : Dev nD) (t : Fin cfg1.N) (h0 : ¬t.val % 4 = 0) :
    accR1 V c t.val t.isLt = step1 (adjR1 V c t) (accR1 V c (t.val - 1) (Nat.lt_of_le_of_lt (Nat.sub_le _ _) t.isLt)) (featR1 V c t) := by
  obtain ⟨n, hn⟩ := t
  cases n with
  | zero => exact absurd (Nat.zero_mod _) h0
  | succ n => exact if_neg h0

/-! ## The invariant -/

/-- What is left of the region's invariant once the accumulator's buffer is taken out of it: put the buffer back, at
    any contents, and the invariant is whole again. -/
def holeR1 (c : Dev nD) : sProp 𝕄 :=
  iprop((∃ d, owns (c : Thread nD τ) scrR1 fullShare d) -∗ Pipeline.ΦA (U := UR sig nD τ) (Val := Elt F) spec1 c)

/-- The accumulator's buffer can be taken out of the region's invariant. -/
theorem takeR1 (c : Dev nD) :
    (Pipeline.ΦA (U := UR sig nD τ) (Val := Elt F) spec1 c : sProp 𝕄) ⊢ iprop((∃ d, owns (c : Thread nD τ) scrR1 fullShare d) ∗ holeR1 c) := by
  unfold holeR1 Pipeline.ΦA
  rw [show (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))
    from Pipeline.scopedRest_eq_of_list spec1 c [cc1_scratch0, cc0_stg0_0, cc0_stg0_1, cc0_stg1_0, cc0_stg1_1, cc0_stg2_0, cc0_stg2_1, cc0_scratch0, cc2_stg0_0, cc2_stg0_1, cc2_stg1_0, cc2_stg1_1, cc2_stg2_0, cc2_stg2_1, cc2_scratch0] (by decide) (by decide)]
  simp only [scrR1, owns_whole]
  iintro ⟨⟨HS, H1, H2, H3, H4, H5, H6, H7, H8, H9, H10, H11, H12, H13, H14⟩, Hg⟩
  isplitl [HS]; · iexact HS
  iintro HS
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The invariant before step `n`: at the start the region's own; afterwards the accumulator's buffer at what the
    step before left, beside the rest. -/
def PhiR1 (c : Dev nD) : (n : ℕ) → n ≤ cfg1.N → sProp 𝕄
  | 0, _ => Pipeline.ΦA (U := UR sig nD τ) (Val := Elt F) spec1 c
  | n + 1, hn => iprop(owns (c : Thread nD τ) scrR1 fullShare (accR1 V c n hn) ∗ holeR1 c)

theorem PhiR1_zero (c : Dev nD) (n : ℕ) (h : n ≤ cfg1.N) (hz : n = 0) : PhiR1 V c n h = Pipeline.ΦA (U := UR sig nD τ) (Val := Elt F) spec1 c := by
  subst hz; rfl

theorem PhiR1_succ (c : Dev nD) (n : ℕ) (hn : n < cfg1.N) :
    PhiR1 V c (n + 1) hn = iprop(owns (c : Thread nD τ) scrR1 fullShare (accR1 V c n hn) ∗ holeR1 c) := rfl

theorem PhiR1_pos (c : Dev nD) (n : ℕ) (h : n ≤ cfg1.N) (hz : n ≠ 0) :
    PhiR1 V c n h = iprop(owns (c : Thread nD τ) scrR1 fullShare (accR1 V c (n - 1) (by omega)) ∗ holeR1 c) := by
  cases n with
  | zero => exact absurd rfl hz
  | succ n => rfl

/-! ## The proof data -/

/-- The region's proof data on core `c`: the arrays as the region finds them; after a step each input's buffer at
    its block and the output's at the accumulator; the invariant above; nothing owed; full shares. -/
def datR1 (c : Dev nD) : Dat τ (Elt F) Unit ℕ (UR sig nD τ) ℕ cfg1 c where
  A w := V c (Pipeline.arrRef spec1 w)
  after w t := match w with
    | ⟨0, _⟩ => blkR1 V c 0 t
    | ⟨1, _⟩ => blkR1 V c 1 t
    | ⟨2, _⟩ => accR1 V c t.val t.isLt
  Φ t := PhiR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiR1_castSucc (c : Dev nD) (t : Fin cfg1.N) :
    (datR1 V c).Φ t.castSucc = PhiR1 V c t.val (Nat.le_of_lt t.isLt) := by
  dsimp only [datR1]; simp only [Fin.coe_castSucc]

theorem afterR1_0 (c : Dev nD) (t : Fin cfg1.N) : (datR1 V c).after 0 t = blkR1 V c 0 t := by dsimp only [datR1]
theorem afterR1_1 (c : Dev nD) (t : Fin cfg1.N) : (datR1 V c).after 1 t = blkR1 V c 1 t := by dsimp only [datR1]
theorem afterR1_2 (c : Dev nD) (t : Fin cfg1.N) : (datR1 V c).after 2 t = accR1 V c t.val t.isLt := by dsimp only [datR1]

/-- An input's buffer holds its block when the step begins: it is fetched at every step. -/
theorem beforeR1_0 (c : Dev nD) (t : Fin cfg1.N) (d) : (datR1 V c).before 0 t d = blkR1 V c 0 t := by
  unfold Dat.before; rw [if_pos (fetch1_0 t)]; unfold Dat.fetched Dat.blockOf blkR1; rw [A_eqR1]; try rfl
theorem beforeR1_1 (c : Dev nD) (t : Fin cfg1.N) (d) : (datR1 V c).before 1 t d = blkR1 V c 1 t := by
  unfold Dat.before; rw [if_pos (fetch1_1 t)]; unfold Dat.fetched Dat.blockOf blkR1; rw [A_eqR1]; try rfl

/-! ## One step -/

/-- What a step is called with, -/
def stepPreR1 (c : Dev nD) (t : Fin cfg1.N) : sProp 𝕄 :=
  iprop((datR1 V c).Φ t.castSucc ∗ (datR1 V c).owesAt () t.castSucc
    ∗ (∃ d, owns (c : Thread nD τ) (bufR1_0 t) fullShare ((datR1 V c).before 0 t d))
    ∗ (∃ d, owns (c : Thread nD τ) (bufR1_1 t) fullShare ((datR1 V c).before 1 t d))
    ∗ (∃ d, owns (c : Thread nD τ) (bufR1_2 t) fullShare ((datR1 V c).before 2 t d)))

/-- and what it returns. -/
def stepPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

set_option maxHeartbeats 4800000 in
/-- A step at any point of the grid: the inputs' buffers hold their blocks; by the step's place among its four the
    kernel function clears and steps, steps, or steps and copies out; the invariant hands over the accumulator's
    buffer at what the step before left (at anything at the head of a row) and takes it back at this step's. -/
theorem sound_stepR1 (c : Dev nD) (t : Fin cfg1.N) :
    stepPreR1 V c t ⊢ wp frame (wpE (defs₀ (F := F)) Variants.none c none) Set.univ (bodyAt1 t) (fun _ => stepPostR1 V c t) := by
  unfold stepPreR1 stepPostR1 bodyAt1
  simp only [beforeR1_0, beforeR1_1]
  rw [show (datR1 V c).owesAt () t.succ = (datR1 V c).owesAt () t.castSucc from rfl]
  rw [show (datR1 V c).Φ t.succ = PhiR1 V c (t.val + 1) t.isLt from rfl, PhiR1_succ]
  rw [show (datR1 V c).leavesExact 0 t = owns (c : Thread nD τ) (bufR1_0 t) fullShare ((datR1 V c).after 0 t) from by
    unfold Dat.leavesExact; rw [liveR1_0 t], afterR1_0]
  rw [show (datR1 V c).leavesExact 1 t = owns (c : Thread nD τ) (bufR1_1 t) fullShare ((datR1 V c).after 1 t) from by
    unfold Dat.leavesExact; rw [liveR1_1 t], afterR1_1]
  have hN : t.val < 16 := lt_of_lt_of_eq t.isLt (show cfg1.N = 16 from N_1)
  by_cases h0 : t.val % 4 = 0
  · have hl : ¬last1 (grid1.coords t) := fun h => by have := (lastR1_iff t).mp h; omega
    rw [Dat.leavesExact_idle (datR1 V c) 2 t (idleR1_2 t hl) (keepR1_2 t hl)]
    rw [accR1_first V c t h0]
    by_cases hz : t.val = 0
    · rw [PhiR1_castSucc V c t, PhiR1_zero V c _ _ hz]
      iintro ⟨HP, Ho, ⟨%d0, H0⟩, ⟨%d1, H1⟩, ⟨%d2, H2⟩⟩
      ihave HP' := (takeR1 (F := F) c) $$ HP
      icases HP' with ⟨HS, Hh⟩
      iapply (run1_first c (grid1.coords t) _ (wholeR1_0 t) _ (wholeR1_1 t) _ (wholeR1_2 t) _ (Memref.isWhole_whole _) ((firstR1_iff t).mpr h0) hl
        (adjR1 V c t) (featR1 V c t) ((datR1 V c).before 2 t d2) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
    · rw [PhiR1_castSucc V c t, PhiR1_pos V c _ _ hz]
      iintro ⟨⟨HS, Hh⟩, Ho, ⟨%d0, H0⟩, ⟨%d1, H1⟩, ⟨%d2, H2⟩⟩
      iapply (run1_first c (grid1.coords t) _ (wholeR1_0 t) _ (wholeR1_1 t) _ (wholeR1_2 t) _ (Memref.isWhole_whole _) ((firstR1_iff t).mpr h0) hl
        (adjR1 V c t) (featR1 V c t) ((datR1 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
  · have hz : t.val ≠ 0 := fun h => h0 (by rw [h])
    have hf : ¬first1 (grid1.coords t) := fun h => h0 ((firstR1_iff t).mp h)
    rw [accR1_next V c t h0]
    rw [PhiR1_castSucc V c t, PhiR1_pos V c _ _ hz]
    by_cases h1 : t.val % 4 = 3
    · have hl : last1 (grid1.coords t) := (lastR1_iff t).mpr h1
      rw [show (datR1 V c).leavesExact 2 t = owns (c : Thread nD τ) (bufR1_2 t) fullShare ((datR1 V c).after 2 t) from by
        unfold Dat.leavesExact; rw [liveR1_2 t hl], afterR1_2, accR1_next V c t h0]
      iintro ⟨⟨HS, Hh⟩, Ho, ⟨%d0, H0⟩, ⟨%d1, H1⟩, ⟨%d2, H2⟩⟩
      iapply (run1_last c (grid1.coords t) _ (wholeR1_0 t) _ (wholeR1_1 t) _ (wholeR1_2 t) _ (Memref.isWhole_whole _) hf hl
        (adjR1 V c t) (featR1 V c t) (accR1 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexact H2
    · have hl : ¬last1 (grid1.coords t) := fun h => h1 ((lastR1_iff t).mp h)
      rw [Dat.leavesExact_idle (datR1 V c) 2 t (idleR1_2 t hl) (keepR1_2 t hl)]
      iintro ⟨⟨HS, Hh⟩, Ho, ⟨%d0, H0⟩, ⟨%d1, H1⟩, ⟨%d2, H2⟩⟩
      iapply (run1_mid c (grid1.coords t) _ (wholeR1_0 t) _ (wholeR1_1 t) _ (wholeR1_2 t) _ (Memref.isWhole_whole _) hf hl
        (adjR1 V c t) (featR1 V c t) ((datR1 V c).before 2 t d2) (accR1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2

/-- The step obligation of the launch rule, at every step. -/
theorem obligationR1 (c : Dev nD) : BodyObligation (datR1 (F := F) V c) (defs₀ (F := F)) Variants.none () Set.univ := fun t => by
  rw [bigSep_W1, bigSep_W1]
  exact sound_stepR1 V c t

/-- The region's own invariant is the invariant before the first step, -/
theorem beginR1 (c : Dev nD) : Pipeline.ΦA (U := UR sig nD τ) (Val := Elt F) spec1 c ⊢ (datR1 V c).Φ 0 := by
  rw [show (datR1 V c).Φ 0 = PhiR1 V c 0 (Nat.zero_le _) from rfl, PhiR1_zero V c 0 _ rfl]
  try exact Idealize.SL.BI.Entails.refl _

/-- and after the last step the accumulator's buffer goes back into it, its contents forgotten. -/
theorem endR1 (c : Dev nD) : (datR1 V c).Φ (Fin.last cfg1.N) ⊢ Pipeline.ΦA (U := UR sig nD τ) (Val := Elt F) spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 16 := N_1; omega)]
  unfold holeR1
  iintro ⟨HS, Hh⟩
  iapply Hh
  iexists _; iexact HS

end Region1

end Cert.KernelIdeal.Hand

end
-- ==== Proof.KI.Step2.lean ====
/-
  One step of the blocked product, region 2. The kernel walks a 4 x 4 grid of (row block, column block): at the
  first column block of a row it clears the accumulator, at every step it adds the product of the adjacency
  block (read as bf16) with the matching 2048 rows of the features, and at the last column block it copies the
  accumulator to the output block. Here: what one call of the kernel function leaves in its four buffers, in
  each of the three situations a step can be in, with the contents written out.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Block
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step is the first of its row of blocks (column block 0): the accumulator is cleared. -/
abbrev first2 (i : grid2.Coords) : Prop := (Scalar.cmpi .ne (Scalar.extui (Scalar.cmpi .eq (BitVec.ofNat 32 (i 1).val) 0#32)) 0#32) = 1#1
/-- The step is the last of its row of blocks (column block 3): the accumulator is copied out. -/
abbrev last2 (i : grid2.Coords) : Prop := k2_cond2 i = 1#1

/-- The accumulator after a step that found it at `s`: `s` plus the product of the two blocks. -/
abbrev step2 (a : Vec F S2048x2048 .f32) (s : Vec F S2048x256 .f32) (h : Vec F S2048x256 .bf16) : Vec F S2048x256 .f32 := k2_pay2 a s h
/-- The cleared accumulator. -/
abbrev clear2 : Vec F S2048x256 .f32 := k2_pay1

set_option maxHeartbeats 2000000 in
/-- A middle step: the accumulator goes from `s` to `step2 a s h`; the output block is left alone. -/
theorem run2_mid (c : Dev nD) (i : grid2.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first2 i) (hl : ¬last2 i)
    (a : Vec F S2048x2048 .f32) (h : Vec F S2048x256 .bf16) (x4 : Vec F S2048x256 .f32) (s : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ owns (c : Thread nD τ) arg5 fullShare s
        ∗ (iprop(owns (c : Thread nD τ) arg2 fullShare a ∗ owns (c : Thread nD τ) arg3 fullShare h ∗ owns (c : Thread nD τ) arg4 fullShare x4 ∗ owns (c : Thread nD τ) arg5 fullShare (step2 a s h)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

set_option maxHeartbeats 2000000 in
/-- A first step: the accumulator, whatever it held, is cleared and then stepped; the output block is left alone. -/
theorem run2_first (c : Dev nD) (i : grid2.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : first2 i) (hl : ¬last2 i)
    (a : Vec F S2048x2048 .f32) (h : Vec F S2048x256 .bf16) (x4 : Vec F S2048x256 .f32)
    (E : Set ℕ) (K : PUnit → sProp 𝕄) :
    iprop(owns (c : Thread nD τ) arg2 fullShare a ∗ owns (c : Thread nD τ) arg3 fullShare h ∗ owns (c : Thread nD τ) arg4 fullShare x4 ∗ (∃ s, owns (c : Thread nD τ) arg5 fullShare s)
        ∗ (iprop(owns (c : Thread nD τ) arg2 fullShare a ∗ owns (c : Thread nD τ) arg3 fullShare h ∗ owns (c : Thread nD τ) arg4 fullShare x4 ∗ owns (c : Thread nD τ) arg5 fullShare (step2 a clear2 h)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (cover_two _ _), View.canon_cons_unit_zero (S := S2048x256) zero_off]
  simp only [View.readAt_eq_ld, harg2.read_unread, harg3.read_unread,
    View.ld_unit_zero (S := S2048x2048) zero_off, View.ld_unit_zero (S := S2048x256) zero_off,
    View.readCov_unit_zero (S := S2048x256) _ zero_off]

set_option maxHeartbeats 2000000 in
/-- A last step: the accumulator goes from `s` to `step2 a s h`, and the output block receives the same. -/
theorem run2_last (c : Dev nD) (i : grid2.Coords) (arg2 : Memref sig .tc .vmem S2048x2048 .f32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)
    (hf : ¬first2 i) (hl : last2 i)
    (a : Vec F S2048x2048 .f32) (h : Vec F S2048x256 .bf16) (s : Vec F S2048x256 .f32)
    (E : Set ℕ) (K : PUnit → sProp 𝕄) :
    iprop(owns (c : Thread nD τ) arg2 fullShare a ∗ owns (c : Thread nD τ) arg3 fullShare h ∗ (∃ d, owns (c : Thread nD τ) arg4 fullShare d) ∗ owns (c : Thread nD τ) arg5 fullShare s
        ∗ (iprop(owns (c : Thread nD τ) arg2 fullShare a ∗ owns (c : Thread nD τ) arg3 fullShare h ∗ owns (c : Thread nD τ) arg4 fullShare (step2 a s h) ∗ owns (c : Thread nD τ) arg5 fullShare (step2 a s h)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_one _), View.canon_unit_zero zero_off]
    simp only [View.readAt_eq_ld, harg2.read_unread, harg3.read_unread, harg5.read_unread,
      View.ld_unit_zero (S := S2048x2048) zero_off, View.ld_unit_zero (S := S2048x256) zero_off,
      View.readCov_unit_zero (S := S2048x256) _ zero_off]
  iexists _; isplitr
  swap; · iexact H5
  ipureintro
  sl_unfold_words
  rw [View.read_writes_eq_canon _ _ _ (cover_one _), View.canon_unit_zero zero_off]
  simp only [View.readAt_eq_ld, harg2.read_unread, harg3.read_unread, harg5.read_unread,
    View.ld_unit_zero (S := S2048x2048) zero_off, View.ld_unit_zero (S := S2048x256) zero_off]

end Cert.KernelIdeal.Hand

end
-- ==== Proof.KI.Data2.lean ====
/-
  The blocked product of region 2, step by step. The sixteen steps run through the row blocks, four column blocks
  each. Stated here: each step's two input blocks as parts of the arrays the region is entered with; the
  accumulator after every step (cleared at the head of a row of blocks, then one product added per step); the
  invariant that carries it from step to step; and that one call of the kernel function takes the invariant, the
  two input blocks and the output block from one step to the next — the output block receiving the accumulator at
  the end of a row and being left alone elsewhere.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Step2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the contents of the TensorCore's buffers when the region is entered
variable (V : (c : Dev nD) → (b : Ref sig .tc) → Buf (Elt F) ((c : Thread nD τ).loc b))

/-! ## The blocks and the step's situation -/

/-- Window `w`'s block at step `t`, a part of its array as the region finds it. -/
def blkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block of step `t` -/
abbrev adjR2 (c : Dev nD) (t : Fin cfg2.N) : Vec F S2048x2048 .f32 := blkR2 V c 0 t
/-- and the feature rows it meets. -/
abbrev featR2 (c : Dev nD) (t : Fin cfg2.N) : Vec F S2048x256 .bf16 := blkR2 V c 1 t

/-- A step clears the accumulator exactly when it is the first of four, -/
theorem firstR2_iff : ∀ t : Fin cfg2.N, first2 (grid2.coords t) ↔ t.val % 4 = 0 :=
  (by decide +kernel : ∀ t : Fin grid2.N, first2 (grid2.coords t) ↔ t.val % 4 = 0)
/-- and copies it out exactly when it is the last of four. -/
theorem lastR2_iff : ∀ t : Fin cfg2.N, last2 (grid2.coords t) ↔ t.val % 4 = 3 :=
  (by decide +kernel : ∀ t : Fin grid2.N, last2 (grid2.coords t) ↔ t.val % 4 = 3)

/-- The input windows are in use at every step; -/
theorem liveR2_0 : ∀ t : Fin cfg2.N, cfg2.idle 0 (grid2.coords t) = false := by decide +kernel
theorem liveR2_1 : ∀ t : Fin cfg2.N, cfg2.idle 1 (grid2.coords t) = false := by decide +kernel
/-- the output window only at the last step of four, where it is also written back. -/
theorem idleR2_2 : ∀ t : Fin cfg2.N, ¬last2 (grid2.coords t) → cfg2.idle 2 (grid2.coords t) = true := by decide +kernel
theorem keepR2_2 : ∀ t : Fin cfg2.N, ¬last2 (grid2.coords t) → (cfg2.win 2).flush t = false := by decide +kernel
theorem liveR2_2 : ∀ t : Fin cfg2.N, last2 (grid2.coords t) → cfg2.idle 2 (grid2.coords t) = false := by decide +kernel

/-- The buffers a step is called with. -/
abbrev bufR2_0 (t : Fin cfg2.N) : Memref sig .tc .vmem S2048x2048 .f32 := win2_0.stage (cfg2.slots t 0)
abbrev wholeR2_0 (t : Fin cfg2.N) : (bufR2_0 t).IsWhole := hstage2_0 ((cfg2.slots t 0).cast nbuf2_0)
abbrev bufR2_1 (t : Fin cfg2.N) : Memref sig .tc .vmem S2048x256 .bf16 := win2_1.stage (cfg2.slots t 1)
abbrev wholeR2_1 (t : Fin cfg2.N) : (bufR2_1 t).IsWhole := hstage2_1 ((cfg2.slots t 1).cast nbuf2_1)
abbrev bufR2_2 (t : Fin cfg2.N) : Memref sig .tc .vmem S2048x256 .f32 := win2_2.stage (cfg2.slots t 2)
abbrev wholeR2_2 (t : Fin cfg2.N) : (bufR2_2 t).IsWhole := hstage2_2 ((cfg2.slots t 2).cast nbuf2_2)
/-- The accumulator's buffer. -/
abbrev scrR2 : Memref sig .tc .vmem S2048x256 .f32 := Memref.whole cc2_scratch0

/-! ## The accumulator after each step -/

/-- The accumulator after step `n`: at the head of a row of blocks the cleared block stepped once, otherwise the
    previous step's accumulator stepped once. -/
def accR2 (c : Dev nD) : (n : ℕ) → n < cfg2.N → Vec F S2048x256 .f32
  | 0, hn => step2 (adjR2 V c ⟨0, hn⟩) clear2 (featR2 V c ⟨0, hn⟩)
  | n + 1, hn =>
    if (n + 1) % 4 = 0 then step2 (adjR2 V c ⟨n + 1, hn⟩) clear2 (featR2 V c ⟨n + 1, hn⟩)
    else step2 (adjR2 V c ⟨n + 1, hn⟩) (accR2 c n (Nat.lt_of_succ_lt hn)) (featR2 V c ⟨n + 1, hn⟩)

theorem accR2_first (c : Dev nD) (t : Fin cfg2.N) (h0 : t.val % 4 = 0) :
    accR2 V c t.val t.isLt = step2 (adjR2 V c t) clear2 (featR2 V c t) := by
  obtain ⟨n, hn⟩ := t
  cases n with
  | zero => rfl
  | succ n => exact if_pos h0

theorem accR2_next (c : Dev nD) (t : Fin cfg2.N) (h0 : ¬t.val % 4 = 0) :
    accR2 V c t.val t.isLt = step2 (adjR2 V c t) (accR2 V c (t.val - 1) (Nat.lt_of_le_of_lt (Nat.sub_le _ _) t.isLt)) (featR2 V c t) := by
  obtain ⟨n, hn⟩ := t
  cases n with
  | zero => exact absurd (Nat.zero_mod _) h0
  | succ n => exact if_neg h0

/-! ## The invariant -/

/-- What is left of the region's invariant once the accumulator's buffer is taken out of it: put the buffer back, at
    any contents, and the invariant is whole again. -/
def holeR2 (c : Dev nD) : sProp 𝕄 :=
  iprop((∃ d, owns (c : Thread nD τ) scrR2 fullShare d) -∗ Pipeline.ΦA (U := UR sig nD τ) (Val := Elt F) spec2 c)

/-- The accumulator's buffer can be taken out of the region's invariant. -/
theorem takeR2 (c : Dev nD) :
    (Pipeline.ΦA (U := UR sig nD τ) (Val := Elt F) spec2 c : sProp 𝕄) ⊢ iprop((∃ d, owns (c : Thread nD τ) scrR2 fullShare d) ∗ holeR2 c) := by
  unfold holeR2 Pipeline.ΦA
  rw [show (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))
    from Pipeline.scopedRest_eq_of_list spec2 c [cc2_scratch0, cc1_stg0_0, cc1_stg0_1, cc1_stg1_0, cc1_stg1_1, cc1_stg2_0, cc1_stg2_1, cc1_scratch0, cc0_stg0_0, cc0_stg0_1, cc0_stg1_0, cc0_stg1_1, cc0_stg2_0, cc0_stg2_1, cc0_scratch0] (by decide) (by decide)]
  simp only [scrR2, owns_whole]
  iintro ⟨⟨HS, H1, H2, H3, H4, H5, H6, H7, H8, H9, H10, H11, H12, H13, H14⟩, Hg⟩
  isplitl [HS]; · iexact HS
  iintro HS
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The invariant before step `n`: at the start the region's own; afterwards the accumulator's buffer at what the
    step before left, beside the rest. -/
def PhiR2 (c : Dev nD) : (n : ℕ) → n ≤ cfg2.N → sProp 𝕄
  | 0, _ => Pipeline.ΦA (U := UR sig nD τ) (Val := Elt F) spec2 c
  | n + 1, hn => iprop(owns (c : Thread nD τ) scrR2 fullShare (accR2 V c n hn) ∗ holeR2 c)

theorem PhiR2_zero (c : Dev nD) (n : ℕ) (h : n ≤ cfg2.N) (hz : n = 0) : PhiR2 V c n h = Pipeline.ΦA (U := UR sig nD τ) (Val := Elt F) spec2 c := by
  subst hz; rfl

theorem PhiR2_succ (c : Dev nD) (n : ℕ) (hn : n < cfg2.N) :
    PhiR2 V c (n + 1) hn = iprop(owns (c : Thread nD τ) scrR2 fullShare (accR2 V c n hn) ∗ holeR2 c) := rfl

theorem PhiR2_pos (c : Dev nD) (n : ℕ) (h : n ≤ cfg2.N) (hz : n ≠ 0) :
    PhiR2 V c n h = iprop(owns (c : Thread nD τ) scrR2 fullShare (accR2 V c (n - 1) (by omega)) ∗ holeR2 c) := by
  cases n with
  | zero => exact absurd rfl hz
  | succ n => rfl

/-! ## The proof data -/

/-- The region's proof data on core `c`: the arrays as the region finds them; after a step each input's buffer at
    its block and the output's at the accumulator; the invariant above; nothing owed; full shares. -/
def datR2 (c : Dev nD) : Dat τ (Elt F) Unit ℕ (UR sig nD τ) ℕ cfg2 c where
  A w := V c (Pipeline.arrRef spec2 w)
  after w t := match w with
    | ⟨0, _⟩ => blkR2 V c 0 t
    | ⟨1, _⟩ => blkR2 V c 1 t
    | ⟨2, _⟩ => accR2 V c t.val t.isLt
  Φ t := PhiR2 V c t.val (Nat.le_of_lt_succ t.isLt)
  q _ := fullShare
  owed _ := 0

theorem A_eqR2 (c : Dev nD) (w : Fin cfg2.W) : (datR2 V c).A w = V c (Pipeline.arrRef spec2 w) := by
  dsimp only [datR2]

theorem PhiR2_castSucc (c : Dev nD) (t : Fin cfg2.N) :
    (datR2 V c).Φ t.castSucc = PhiR2 V c t.val (Nat.le_of_lt t.isLt) := by
  dsimp only [datR2]; simp only [Fin.coe_castSucc]

theorem afterR2_0 (c : Dev nD) (t : Fin cfg2.N) : (datR2 V c).after 0 t = blkR2 V c 0 t := by dsimp only [datR2]
theorem afterR2_1 (c : Dev nD) (t : Fin cfg2.N) : (datR2 V c).after 1 t = blkR2 V c 1 t := by dsimp only [datR2]
theorem afterR2_2 (c : Dev nD) (t : Fin cfg2.N) : (datR2 V c).after 2 t = accR2 V c t.val t.isLt := by dsimp only [datR2]

/-- An input's buffer holds its block when the step begins: it is fetched at every step. -/
theorem beforeR2_0 (c : Dev nD) (t : Fin cfg2.N) (d) : (datR2 V c).before 0 t d = blkR2 V c 0 t := by
  unfold Dat.before; rw [if_pos (fetch2_0 t)]; unfold Dat.fetched Dat.blockOf blkR2; rw [A_eqR2]; try rfl
theorem beforeR2_1 (c : Dev nD) (t : Fin cfg2.N) (d) : (datR2 V c).before 1 t d = blkR2 V c 1 t := by
  unfold Dat.before; rw [if_pos (fetch2_1 t)]; unfold Dat.fetched Dat.blockOf blkR2; rw [A_eqR2]; try rfl

/-! ## One step -/

/-- What a step is called with, -/
def stepPreR2 (c : Dev nD) (t : Fin cfg2.N) : sProp 𝕄 :=
  iprop((datR2 V c).Φ t.castSucc ∗ (datR2 V c).owesAt () t.castSucc
    ∗ (∃ d, owns (c : Thread nD τ) (bufR2_0 t) fullShare ((datR2 V c).before 0 t d))
    ∗ (∃ d, owns (c : Thread nD τ) (bufR2_1 t) fullShare ((datR2 V c).before 1 t d))
    ∗ (∃ d, owns (c : Thread nD τ) (bufR2_2 t) fullShare ((datR2 V c).before 2 t d)))

/-- and what it returns. -/
def stepPostR2 (c : Dev nD) (t : Fin cfg2.N) : sProp 𝕄 :=
  iprop((datR2 V c).Φ t.succ ∗ (datR2 V c).owesAt () t.succ
    ∗ (datR2 V c).leavesExact 0 t
    ∗ (datR2 V c).leavesExact 1 t
    ∗ (datR2 V c).leavesExact 2 t)

set_option maxHeartbeats 4800000 in
/-- A step at any point of the grid: the inputs' buffers hold their blocks; by the step's place among its four the
    kernel function clears and steps, steps, or steps and copies out; the invariant hands over the accumulator's
    buffer at what the step before left (at anything at the head of a row) and takes it back at this step's. -/
theorem sound_stepR2 (c : Dev nD) (t : Fin cfg2.N) :
    stepPreR2 V c t ⊢ wp frame (wpE (defs₀ (F := F)) Variants.none c none) Set.univ (bodyAt2 t) (fun _ => stepPostR2 V c t) := by
  unfold stepPreR2 stepPostR2 bodyAt2
  simp only [beforeR2_0, beforeR2_1]
  rw [show (datR2 V c).owesAt () t.succ = (datR2 V c).owesAt () t.castSucc from rfl]
  rw [show (datR2 V c).Φ t.succ = PhiR2 V c (t.val + 1) t.isLt from rfl, PhiR2_succ]
  rw [show (datR2 V c).leavesExact 0 t = owns (c : Thread nD τ) (bufR2_0 t) fullShare ((datR2 V c).after 0 t) from by
    unfold Dat.leavesExact; rw [liveR2_0 t], afterR2_0]
  rw [show (datR2 V c).leavesExact 1 t = owns (c : Thread nD τ) (bufR2_1 t) fullShare ((datR2 V c).after 1 t) from by
    unfold Dat.leavesExact; rw [liveR2_1 t], afterR2_1]
  have hN : t.val < 16 := lt_of_lt_of_eq t.isLt (show cfg2.N = 16 from N_2)
  by_cases h0 : t.val % 4 = 0
  · have hl : ¬last2 (grid2.coords t) := fun h => by have := (lastR2_iff t).mp h; omega
    rw [Dat.leavesExact_idle (datR2 V c) 2 t (idleR2_2 t hl) (keepR2_2 t hl)]
    rw [accR2_first V c t h0]
    by_cases hz : t.val = 0
    · rw [PhiR2_castSucc V c t, PhiR2_zero V c _ _ hz]
      iintro ⟨HP, Ho, ⟨%d0, H0⟩, ⟨%d1, H1⟩, ⟨%d2, H2⟩⟩
      ihave HP' := (takeR2 (F := F) c) $$ HP
      icases HP' with ⟨HS, Hh⟩
      iapply (run2_first c (grid2.coords t) _ (wholeR2_0 t) _ (wholeR2_1 t) _ (wholeR2_2 t) _ (Memref.isWhole_whole _) ((firstR2_iff t).mpr h0) hl
        (adjR2 V c t) (featR2 V c t) ((datR2 V c).before 2 t d2) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
    · rw [PhiR2_castSucc V c t, PhiR2_pos V c _ _ hz]
      iintro ⟨⟨HS, Hh⟩, Ho, ⟨%d0, H0⟩, ⟨%d1, H1⟩, ⟨%d2, H2⟩⟩
      iapply (run2_first c (grid2.coords t) _ (wholeR2_0 t) _ (wholeR2_1 t) _ (wholeR2_2 t) _ (Memref.isWhole_whole _) ((firstR2_iff t).mpr h0) hl
        (adjR2 V c t) (featR2 V c t) ((datR2 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2
  · have hz : t.val ≠ 0 := fun h => h0 (by rw [h])
    have hf : ¬first2 (grid2.coords t) := fun h => h0 ((firstR2_iff t).mp h)
    rw [accR2_next V c t h0]
    rw [PhiR2_castSucc V c t, PhiR2_pos V c _ _ hz]
    by_cases h1 : t.val % 4 = 3
    · have hl : last2 (grid2.coords t) := (lastR2_iff t).mpr h1
      rw [show (datR2 V c).leavesExact 2 t = owns (c : Thread nD τ) (bufR2_2 t) fullShare ((datR2 V c).after 2 t) from by
        unfold Dat.leavesExact; rw [liveR2_2 t hl], afterR2_2, accR2_next V c t h0]
      iintro ⟨⟨HS, Hh⟩, Ho, ⟨%d0, H0⟩, ⟨%d1, H1⟩, ⟨%d2, H2⟩⟩
      iapply (run2_last c (grid2.coords t) _ (wholeR2_0 t) _ (wholeR2_1 t) _ (wholeR2_2 t) _ (Memref.isWhole_whole _) hf hl
        (adjR2 V c t) (featR2 V c t) (accR2 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexact H2
    · have hl : ¬last2 (grid2.coords t) := fun h => h1 ((lastR2_iff t).mp h)
      rw [Dat.leavesExact_idle (datR2 V c) 2 t (idleR2_2 t hl) (keepR2_2 t hl)]
      iintro ⟨⟨HS, Hh⟩, Ho, ⟨%d0, H0⟩, ⟨%d1, H1⟩, ⟨%d2, H2⟩⟩
      iapply (run2_mid c (grid2.coords t) _ (wholeR2_0 t) _ (wholeR2_1 t) _ (wholeR2_2 t) _ (Memref.isWhole_whole _) hf hl
        (adjR2 V c t) (featR2 V c t) ((datR2 V c).before 2 t d2) (accR2 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hh]
      · isplitl [HS]; · iexact HS
        iexact Hh
      isplitl [Ho]; · iexact Ho
      isplitl [H0]; · iexact H0
      isplitl [H1]; · iexact H1
      iexists _; iexact H2

/-- The step obligation of the launch rule, at every step. -/
theorem obligationR2 (c : Dev nD) : BodyObligation (datR2 (F := F) V c) (defs₀ (F := F)) Variants.none () Set.univ := fun t => by
  rw [bigSep_W2, bigSep_W2]
  exact sound_stepR2 V c t

/-- The region's own invariant is the invariant before the first step, -/
theorem beginR2 (c : Dev nD) : Pipeline.ΦA (U := UR sig nD τ) (Val := Elt F) spec2 c ⊢ (datR2 V c).Φ 0 := by
  rw [show (datR2 V c).Φ 0 = PhiR2 V c 0 (Nat.zero_le _) from rfl, PhiR2_zero V c 0 _ rfl]
  try exact Idealize.SL.BI.Entails.refl _

/-- and after the last step the accumulator's buffer goes back into it, its contents forgotten. -/
theorem endR2 (c : Dev nD) : (datR2 V c).Φ (Fin.last cfg2.N) ⊢ Pipeline.ΦA (U := UR sig nD τ) (Val := Elt F) spec2 c := by
  rw [show (datR2 V c).Φ (Fin.last cfg2.N) = PhiR2 V c (Fin.last cfg2.N).val (Nat.le_of_lt_succ (Fin.last cfg2.N).isLt) from rfl,
    PhiR2_pos V c _ _ (by rw [Fin.val_last]; have : cfg2.N = 16 := N_2; omega)]
  unfold holeR2
  iintro ⟨HS, Hh⟩
  iapply Hh
  iexists _; iexact HS

end Region2

end Cert.KernelIdeal.Hand

end
-- ==== Proof.KI.Glue.lean ====
/-
  The three regions put into the program's run. Each region is entered with the buffers at the valuation the
  host operations before it leave, and leaves its output array at the blocked product its steps accumulate;
  the next host stretch starts from there. With the three segment records the program's frame follows, and its
  run with the result named.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.Gen.KernelIdeal.Regions
import proofs.«130713_j75840532512927_1_alg».proof.Proof.KI.RunCond
import proofs.«130713_j75840532512927_1_alg».proof.Proof.KI.Data0
import proofs.«130713_j75840532512927_1_alg».proof.Proof.KI.Data1
import proofs.«130713_j75840532512927_1_alg».proof.Proof.KI.Data2
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers at each region's two ends -/

/-- Region 0 is entered after the first three host stretches. -/
abbrev entR0 (c : Dev nD) (b : Ref sig .tc) : Buf (Elt F) ((c : Thread nD τ).loc b) := V3 m c b
/-- What region 0 leaves: its arrays at what its proof data computes, every other buffer as entered. -/
def leftR0 (c : Dev nD) : Valuation τ sig (Elt F) :=
  Pipeline.withArrays spec0 c (V3 m c) fun w => (datR0 (entR0 m) c).arrAt w cfg0.N
/-- The regions' outputs, first stage: region 0's. -/
def outsA : Outs (F := F) := fun _ r c => leftR0 m c (Proc.devRef .tc r)

/-- Region 1 is entered after the host stretches that follow region 0. -/
abbrev entR1 (c : Dev nD) (b : Ref sig .tc) : Buf (Elt F) ((c : Thread nD τ).loc b) := V9 m (outsA m) c b
def leftR1 (c : Dev nD) : Valuation τ sig (Elt F) :=
  Pipeline.withArrays spec1 c (V9 m (outsA m) c) fun w => (datR1 (entR1 m) c).arrAt w cfg1.N
/-- Second stage: region 1's output beside region 0's. -/
def outsB : Outs (F := F) := fun j r c => if j = 10 then leftR1 m c (Proc.devRef .tc r) else outsA m j r c

/-- Region 2 is entered after the host stretches that follow region 1. -/
abbrev entR2 (c : Dev nD) (b : Ref sig .tc) : Buf (Elt F) ((c : Thread nD τ).loc b) := V15 m (outsB m) c b
def leftR2 (c : Dev nD) : Valuation τ sig (Elt F) :=
  Pipeline.withArrays spec2 c (V15 m (outsB m) c) fun w => (datR2 (entR2 m) c).arrAt w cfg2.N
/-- All three outputs. -/
def outsC : Outs (F := F) := fun j r c => if j = 16 then leftR2 m c (Proc.devRef .tc r) else outsB m j r c

/-- A later stage does not change what an earlier region is entered with. -/
theorem V9_stage (c : Dev nD) : V9 m (outsC m) c = V9 m (outsA m) c := rfl
theorem V15_stage (c : Dev nD) : V15 m (outsC m) c = V15 m (outsB m) c := rfl

/-- The buffers after each region, as the run's valuations name them. -/
abbrev exitR0 (c : Dev nD) (b : Ref sig .tc) : Buf (Elt F) ((c : Thread nD τ).loc b) := V4 m (outsC m) c b
abbrev exitR1 (c : Dev nD) (b : Ref sig .tc) : Buf (Elt F) ((c : Thread nD τ).loc b) := V10 m (outsC m) c b
abbrev exitR2 (c : Dev nD) (b : Ref sig .tc) : Buf (Elt F) ((c : Thread nD τ).loc b) := V16 m (outsC m) c b

/-- The output array of region 0 after it, read off the run's valuation, is what the proof data computes. -/
theorem outR0 (c : Dev nD) : V4 m (outsC m) c main_v18 = (datR0 (entR0 m) c).arrAt 2 cfg0.N := by
  show Function.update (V3 m c) main_v18 (outsC m 4 main_v18 c) main_v18 = _
  rw [Function.update_self]
  show leftR0 m c (Proc.devRef .tc main_v18) = _
  unfold leftR0
  exact Pipeline.withArrays_arr spec0 launch0.win.arr_inj c _ _ 2
theorem outR1 (c : Dev nD) : V10 m (outsC m) c main_v36 = (datR1 (entR1 m) c).arrAt 2 cfg1.N := by
  show Function.update (V9 m (outsC m) c) main_v36 (outsC m 10 main_v36 c) main_v36 = _
  rw [Function.update_self]
  show leftR1 m c (Proc.devRef .tc main_v36) = _
  unfold leftR1
  exact Pipeline.withArrays_arr spec1 launch1.win.arr_inj c _ _ 2
theorem outR2 (c : Dev nD) : V16 m (outsC m) c main_v54 = (datR2 (entR2 m) c).arrAt 2 cfg2.N := by
  show Function.update (V15 m (outsC m) c) main_v54 (outsC m 16 main_v54 c) main_v54 = _
  rw [Function.update_self]
  show leftR2 m c (Proc.devRef .tc main_v54) = _
  unfold leftR2
  exact Pipeline.withArrays_arr spec2 launch2.win.arr_inj c _ _ 2

/-- At a region's exit each of its arrays holds what the pipeline leaves, -/
theorem hFR0 (c : Dev nD) (w : Fin cfg0.W) : (datR0 (entR0 m) c).arrAt w cfg0.N = exitR0 m c (Pipeline.arrRef spec0 w) := by
  match w with
  | ⟨0, _⟩ => exact ((datR0 (entR0 m) c).arrAt_in 0 rfl _).trans ((A_eqR0 (entR0 m) c 0).trans (V4_of m (outsC m) c main_arg2 (by decide)).symm)
  | ⟨1, _⟩ => exact ((datR0 (entR0 m) c).arrAt_in 1 rfl _).trans ((A_eqR0 (entR0 m) c 1).trans (V4_of m (outsC m) c main_v17 (by decide)).symm)
  | ⟨2, _⟩ => exact (outR0 m c).symm
theorem hFR1 (c : Dev nD) (w : Fin cfg1.W) : (datR1 (entR1 m) c).arrAt w cfg1.N = exitR1 m c (Pipeline.arrRef spec1 w) := by
  match w with
  | ⟨0, _⟩ => exact ((datR1 (entR1 m) c).arrAt_in 0 rfl _).trans ((A_eqR1 (entR1 m) c 0).trans (V10_of m (outsC m) c main_arg2 (by decide)).symm)
  | ⟨1, _⟩ => exact ((datR1 (entR1 m) c).arrAt_in 1 rfl _).trans ((A_eqR1 (entR1 m) c 1).trans (V10_of m (outsC m) c main_v35 (by decide)).symm)
  | ⟨2, _⟩ => exact (outR1 m c).symm
theorem hFR2 (c : Dev nD) (w : Fin cfg2.W) : (datR2 (entR2 m) c).arrAt w cfg2.N = exitR2 m c (Pipeline.arrRef spec2 w) := by
  match w with
  | ⟨0, _⟩ => exact ((datR2 (entR2 m) c).arrAt_in 0 rfl _).trans ((A_eqR2 (entR2 m) c 0).trans (V16_of m (outsC m) c main_arg2 (by decide)).symm)
  | ⟨1, _⟩ => exact ((datR2 (entR2 m) c).arrAt_in 1 rfl _).trans ((A_eqR2 (entR2 m) c 1).trans (V16_of m (outsC m) c main_v53 (by decide)).symm)
  | ⟨2, _⟩ => exact (outR2 m c).symm
/-- and every other buffer what it held at entry. -/
theorem hrestR0 (c : Dev nD) : ∀ b, b ∉ Finset.univ.image (Pipeline.arrRef spec0) → exitR0 m c b = entR0 m c b :=
  fun b hb => V4_of m (outsC m) c b (fun h => hb (Finset.mem_image.mpr ⟨2, Finset.mem_univ _, (List.mem_singleton.mp h).symm⟩))
theorem hrestR1 (c : Dev nD) : ∀ b, b ∉ Finset.univ.image (Pipeline.arrRef spec1) → exitR1 m c b = entR1 m c b :=
  fun b hb => V10_of m (outsC m) c b (fun h => hb (Finset.mem_image.mpr ⟨2, Finset.mem_univ _, (List.mem_singleton.mp h).symm⟩))
theorem hrestR2 (c : Dev nD) : ∀ b, b ∉ Finset.univ.image (Pipeline.arrRef spec2) → exitR2 m c b = entR2 m c b :=
  fun b hb => V16_of m (outsC m) c b (fun h => hb (Finset.mem_image.mpr ⟨2, Finset.mem_univ _, (List.mem_singleton.mp h).symm⟩))

/-! ## The proof data family and what rides beside the buffers -/

/-- Every region's proof data, each at its region's entry contents. -/
def pdatsH : (p : Fin 3) → (c : Dev nD) → Dat τ (Elt F) Unit ℕ (UR sig nD τ) ℕ (cfgs p) c
  | ⟨0, _⟩ => fun c => datR0 (entR0 m) c
  | ⟨1, _⟩ => fun c => datR1 (entR1 m) c
  | ⟨2, _⟩ => fun c => datR2 (entR2 m) c
/-- No core owes another anything: no level is assigned. -/
abbrev LvH : GSem nD τ sig → Finset Unit := fun _ => ∅
abbrev lvH : GSem nD τ sig → Unit → ℕ := fun _ _ => 0
/-- Beside the buffers through every item: the generator register at some state, and the core owing nothing. -/
abbrev restH (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered with every buffer outside the kernels' own at the valuation before it,
    left at the one after it. Its three arrays are split out of those buffers and put back, the output at what the
    proof data computes; the kernels' own buffers and the generator register pass through the step invariant; nothing
    is owed and the kernel has no semaphore of its own. -/
def regR0 : Pipeline.RegionSeg (pcfgs (F := F)) adm (pdatsH m) () defs₀ Variants.none LvH lvH 0 where
  win := launch0.win.to₀
  block_pos := launch0.block_pos
  stage_whole := launch0.stage_whole
  K := PEmpty
  osem k := k.elim
  ho := Pipeline.OwnSemFacts.none _
  hbody c := (obligationR0 (entR0 m) c).loose
  hwaits := Pipeline.hwaits_of_owed_zero _ _ _ _ LvH lvH 0 fun _ _ => rfl
  pre c := iprop(StableHlo.held (c : Thread nD τ) (Pipeline.ucRefs τ sig) (V3 m c) ∗ restH c)
  post c := iprop(StableHlo.held (c : Thread nD τ) (Pipeline.ucRefs τ sig) (V4 m (outsC m) c) ∗ restH c)
  X c := iprop(∃ r, prngReg c r)
  Y c := iprop(∃ r, prngReg c r)
  Z c := Pipeline.unscopedRest (Ix := Unit) (Name := ℕ) (U := UR sig nD τ) (Lvl := ℕ) spec0 c (entR0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (entR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = (datR0 (entR0 m) c).Φ 0 from rfl]
    iintro ⟨Hp, -, Hr⟩
    iapply (beginR0 (entR0 m) c)
    unfold Pipeline.ΦA
    isplitl [Hr]; · iexact Hr
    iexact Hp
  hout c := by
    rw [Pipeline.ownSems0_none, show (pdatsH m 0 c).Φ (Fin.last _) = (datR0 (entR0 m) c).Φ (Fin.last cfg0.N) from rfl]
    iintro H
    ihave H' := (endR0 (entR0 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (entR0 m c) (exitR0 m c) ((pdatsH m 0 c).arrAt · cfg0.N) (hFR0 m c) (hrestR0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every buffer outside the kernels' own at the valuation before it,
    left at the one after it. Its three arrays are split out of those buffers and put back, the output at what the
    proof data computes; the kernels' own buffers and the generator register pass through the step invariant; nothing
    is owed and the kernel has no semaphore of its own. -/
def regR1 : Pipeline.RegionSeg (pcfgs (F := F)) adm (pdatsH m) () defs₀ Variants.none LvH lvH 1 where
  win := launch1.win.to₀
  block_pos := launch1.block_pos
  stage_whole := launch1.stage_whole
  K := PEmpty
  osem k := k.elim
  ho := Pipeline.OwnSemFacts.none _
  hbody c := (obligationR1 (entR1 m) c).loose
  hwaits := Pipeline.hwaits_of_owed_zero _ _ _ _ LvH lvH 1 fun _ _ => rfl
  pre c := iprop(StableHlo.held (c : Thread nD τ) (Pipeline.ucRefs τ sig) (V9 m (outsA m) c) ∗ restH c)
  post c := iprop(StableHlo.held (c : Thread nD τ) (Pipeline.ucRefs τ sig) (V10 m (outsC m) c) ∗ restH c)
  X c := iprop(∃ r, prngReg c r)
  Y c := iprop(∃ r, prngReg c r)
  Z c := Pipeline.unscopedRest (Ix := Unit) (Name := ℕ) (U := UR sig nD τ) (Lvl := ℕ) spec1 c (entR1 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (entR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = (datR1 (entR1 m) c).Φ 0 from rfl]
    iintro ⟨Hp, -, Hr⟩
    iapply (beginR1 (entR1 m) c)
    unfold Pipeline.ΦA
    isplitl [Hr]; · iexact Hr
    iexact Hp
  hout c := by
    rw [Pipeline.ownSems0_none, show (pdatsH m 1 c).Φ (Fin.last _) = (datR1 (entR1 m) c).Φ (Fin.last cfg1.N) from rfl]
    iintro H
    ihave H' := (endR1 (entR1 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (entR1 m c) (exitR1 m c) ((pdatsH m 1 c).arrAt · cfg1.N) (hFR1 m c) (hrestR1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every buffer outside the kernels' own at the valuation before it,
    left at the one after it. Its three arrays are split out of those buffers and put back, the output at what the
    proof data computes; the kernels' own buffers and the generator register pass through the step invariant; nothing
    is owed and the kernel has no semaphore of its own. -/
def regR2 : Pipeline.RegionSeg (pcfgs (F := F)) adm (pdatsH m) () defs₀ Variants.none LvH lvH 2 where
  win := launch2.win.to₀
  block_pos := launch2.block_pos
  stage_whole := launch2.stage_whole
  K := PEmpty
  osem k := k.elim
  ho := Pipeline.OwnSemFacts.none _
  hbody c := (obligationR2 (entR2 m) c).loose
  hwaits := Pipeline.hwaits_of_owed_zero _ _ _ _ LvH lvH 2 fun _ _ => rfl
  pre c := iprop(StableHlo.held (c : Thread nD τ) (Pipeline.ucRefs τ sig) (V15 m (outsB m) c) ∗ restH c)
  post c := iprop(StableHlo.held (c : Thread nD τ) (Pipeline.ucRefs τ sig) (V16 m (outsC m) c) ∗ restH c)
  X c := iprop(∃ r, prngReg c r)
  Y c := iprop(∃ r, prngReg c r)
  Z c := Pipeline.unscopedRest (Ix := Unit) (Name := ℕ) (U := UR sig nD τ) (Lvl := ℕ) spec2 c (entR2 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (entR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = (datR2 (entR2 m) c).Φ 0 from rfl]
    iintro ⟨Hp, -, Hr⟩
    iapply (beginR2 (entR2 m) c)
    unfold Pipeline.ΦA
    isplitl [Hr]; · iexact Hr
    iexact Hp
  hout c := by
    rw [Pipeline.ownSems0_none, show (pdatsH m 2 c).Φ (Fin.last _) = (datR2 (entR2 m) c).Φ (Fin.last cfg2.N) from rfl]
    iintro H
    ihave H' := (endR2 (entR2 m) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (entR2 m c) (exitR2 m c) ((pdatsH m 2 c).arrAt · cfg2.N) (hFR2 m c) (hrestR2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side -/

/-- The launch element funds the rounds' ghost state and nothing else. -/
theorem fundH : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals one core makes the rest that rides beside its buffers, -/
theorem dealOneH (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (restH (F := F) c : sProp 𝕄) := by
  iintro ⟨-, HO, -, Hp, -⟩
  isplitl [Hp]; · iexists _; iexact Hp
  iexists ∅; iexact HO

/-- and so on every core at once. -/
theorem dealH : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts LvH lvH)
    ⊢ (|={Set.univ}=> bigSep Finset.univ (fun c : Dev nD => restH (F := F) c) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => restH (F := F) c) : sProp 𝕄) :=
    bigSep_mono fun c _ => dealOneH (F := F) ρ c
  iintro ⟨H, -⟩
  imodintro
  iapply hm
  iexact H

/-! ## The frame and the run -/

set_option backward.isDefEq.respectTransparency.types false in
/-- Every execution of the program ends with its arguments as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () Variants.none LvH lvH (fun _ _ => rfl) ρ (outsC m) (pdatsH m) 0 (fun _ => iprop(emp))
    (initOf (Pipeline.cells cfgs cellOf_inj) (Pipeline.launchToks cfgs cellOf_inj)) (fundH (F := F))
    (fun _ c => restH c) (dealH ρ) (fun c => by iintro ⟨-, HO⟩; iexact HO)
    (regR0 m) (fun _ => .rfl) (fun _ => .rfl)
    (regR1 m) (fun c => by rw [V9_stage m c]; exact .rfl) (fun _ => .rfl)
    (regR2 m) (fun c => by rw [V15_stage m c]; exact .rfl) (fun _ => .rfl)

set_option backward.isDefEq.respectTransparency.types false in
/-- The same run with the result named: the last valuation's entry for the result buffer. -/
theorem runH : θ_run defs (onTc (τ := τ) (main (F := F))) ⟨m, fun _ => 0, ρ⟩ (fun r => ∀ c : Dev nD,
      r.2.mem ((c.tc : Thread nD τ).loc main_v88) = V23 m (outsC m) c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond m emb₁ () Variants.none LvH lvH (fun _ _ => rfl) ρ (outsC m) (pdatsH m) 0 (fun _ => iprop(emp))
    (initOf (Pipeline.cells cfgs cellOf_inj) (Pipeline.launchToks cfgs cellOf_inj)) (fundH (F := F))
    (fun _ c => restH c) (dealH ρ) (fun c => by iintro ⟨-, HO⟩; iexact HO)
    (regR0 m) (fun _ => .rfl) (fun _ => .rfl)
    (regR1 m) (fun c => by rw [V9_stage m c]; exact .rfl) (fun _ => .rfl)
    (regR2 m) (fun c => by rw [V15_stage m c]; exact .rfl) (fun _ => .rfl)

end Cert.KernelIdeal.Hand

end
-- ==== Proof.Ref.Cut.lean ====
/-
  The reference's operations in seven runs: the twenty-one up to the first layer's activations, the first product,
  the twenty-three from its residual to the second layer's activations, the second product, twenty-three more, the
  third product, and the forty-four from the last residual to the result. The program's fold of results is the
  fold of the runs in turn.
-/
import proofs.«130713_j75840532512927_1_alg».proof.Proof.RefRunP
import Idealize.ShloMosaic.Lib.Pipeline.Frame

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- From the arguments to the first layer's activations: the embedding rows gathered, the dense layer, the rectifier. -/
abbrev headOps : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg0 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 10000#32),
    unary main_c_0 main_v2 (broadcastInDim S8192 ![] bcast_S_S8192 : (⟨S_, .i32⟩ : BufTy).Contents (Elt F) → (⟨S8192, .i32⟩ : BufTy).Contents (Elt F)),
    binary main_arg0 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg0 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg3 main_v5 main_v6 ((fun x i => Host.gather gather_S10000x256_S8192x1_S8192x256_1_0_n_n_0_1_1256 x i) : (⟨S10000x256, .f32⟩ : BufTy).Contents (Elt F) → (⟨S8192x1, .i32⟩ : BufTy).Contents (Elt F) → (⟨S8192x256, .f32⟩ : BufTy).Contents (Elt F)),
    unary main_arg4 main_v7 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v7 main_v8 rfl shapeCasts_S1x256x256_S256x256,
    unary main_v8 main_v9 ((transpose S256x256 [1, 0] · transposes_S256x256_S256x256_1_0) : (⟨S256x256, .f32⟩ : BufTy).Contents (Elt F) → (⟨S256x256, .f32⟩ : BufTy).Contents (Elt F)),
    binary main_v6 main_v9 main_v10 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg5 main_v11 ((extractStridedSlice S1x256 ![0, 0] · slices_S3x256_S1x256_0_0) : (⟨S3x256, .f32⟩ : BufTy).Contents (Elt F) → (⟨S1x256, .f32⟩ : BufTy).Contents (Elt F)),
    reshape main_v11 main_v12 rfl shapeCasts_S1x256_S256,
    unary main_v12 main_v13 (broadcastInDim S1x256 ![1] bcast_S256_S1x256_1 : (⟨S256, .f32⟩ : BufTy).Contents (Elt F) → (⟨S1x256, .f32⟩ : BufTy).Contents (Elt F)),
    unary main_v13 main_v14 (broadcastInDim S8192x256 ![0, 1] bcast_S1x256_S8192x256_0_1 : (⟨S1x256, .f32⟩ : BufTy).Contents (Elt F) → (⟨S8192x256, .f32⟩ : BufTy).Contents (Elt F)),
    binary main_v10 main_v14 main_v15 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x256, .f32⟩) main_call0_v0) (broadcastInDim S8192x256 ![] bcast_S_S8192x256),
    TRef.binary (TRef.of (T := ⟨S8192x256, .f32⟩) main_v15) (TRef.of (T := ⟨S8192x256, .f32⟩) main_call0_v0) (TRef.of (T := ⟨S8192x256, .f32⟩) main_v16) maximumf ]
/-- The first product of the adjacency matrix with the activations. -/
abbrev prodOps1 : List (HloOp τ sig (Elt F)) :=
  [ binary main_arg2 main_v16 main_v17 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) ]
/-- The residual, the rows normalised, the second dense layer and rectifier. -/
abbrev midOps1 : List (HloOp τ sig (Elt F)) :=
  [ binary main_v16 main_v17 main_v18 (addf : (⟨S8192x256, .f32⟩ : BufTy).Contents (Elt F) → (⟨S8192x256, .f32⟩ : BufTy).Contents (Elt F) → (⟨S8192x256, .f32⟩ : BufTy).Contents (Elt F)),
    TRef.binary (TRef.of (T := ⟨S8192x256, .f32⟩) main_v18) (TRef.of (T := ⟨S8192x256, .f32⟩) main_v18) (TRef.of (T := ⟨S8192x256, .f32⟩) main_call1_v0) mulf,
    TRef.nullary (TRef.of (T := ⟨S_, .f32⟩) main_call1_cst) (constant S_ .f32 0x00000000#32),
    TRef.binary (TRef.of (T := ⟨S8192x256, .f32⟩) main_call1_v0) (TRef.of (T := ⟨S_, .f32⟩) main_call1_cst) (TRef.of (T := ⟨S8192, .f32⟩) main_call1_v1) (fun x v => Host.reduceAdd x v reducesTo_S8192x256_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v19) Host.sqrt,
    nullary main_cst (constant S_ .f32 0x2B8CBCCC#32),
    unary main_cst main_v20 (broadcastInDim S8192x1 ![] bcast_S_S8192x1 : (⟨S_, .f32⟩ : BufTy).Contents (Elt F) → (⟨S8192x1, .f32⟩ : BufTy).Contents (Elt F)),
    binary main_v19 main_v20 main_v21 (maximumf : (⟨S8192x1, .f32⟩ : BufTy).Contents (Elt F) → (⟨S8192x1, .f32⟩ : BufTy).Contents (Elt F) → (⟨S8192x1, .f32⟩ : BufTy).Contents (Elt F)),
    unary main_v21 main_v22 (broadcastInDim S8192x256 ![0, 1] bcast_S8192x1_S8192x256_0_1 : (⟨S8192x1, .f32⟩ : BufTy).Contents (Elt F) → (⟨S8192x256, .f32⟩ : BufTy).Contents (Elt F)),
    binary main_v18 main_v22 main_v23 (Host.divf : (⟨S8192x256, .f32⟩ : BufTy).Contents (Elt F) → (⟨S8192x256, .f32⟩ : BufTy).Contents (Elt F) → (⟨S8192x256, .f32⟩ : BufTy).Contents (Elt F)),
    unary main_arg4 main_v24 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v24 main_v25 rfl shapeCasts_S1x256x256_S256x256,
    unary main_v25 main_v26 ((transpose S256x256 [1, 0] · transposes_S256x256_S256x256_1_0) : (⟨S256x256, .f32⟩ : BufTy).Contents (Elt F) → (⟨S256x256, .f32⟩ : BufTy).Contents (Elt F)),
    binary main_v23 main_v26 main_v27 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg5 main_v28 ((extractStridedSlice S1x256 ![1, 0] · slices_S3x256_S1x256_1_0) : (⟨S3x256, .f32⟩ : BufTy).Contents (Elt F) → (⟨S1x256, .f32⟩ : BufTy).Contents (Elt F)),
    reshape main_v28 main_v29 rfl shapeCasts_S1x256_S256,
    unary main_v29 main_v30 (broadcastInDim S1x256 ![1] bcast_S256_S1x256_1 : (⟨S256, .f32⟩ : BufTy).Contents (Elt F) → (⟨S1x256, .f32⟩ : BufTy).Contents (Elt F)),
    unary main_v30 main_v31 (broadcastInDim S8192x256 ![0, 1] bcast_S1x256_S8192x256_0_1 : (⟨S1x256, .f32⟩ : BufTy).Contents (Elt F) → (⟨S8192x256, .f32⟩ : BufTy).Contents (Elt F)),
    binary main_v27 main_v31 main_v32 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x256, .f32⟩) main_call2_v0) (broadcastInDim S8192x256 ![] bcast_S_S8192x256),
    TRef.binary (TRef.of (T := ⟨S8192x256, .f32⟩) main_v32) (TRef.of (T := ⟨S8192x256, .f32⟩) main_call2_v0) (TRef.of (T := ⟨S8192x256, .f32⟩) main_v33) maximumf ]
/-- The second product. -/
abbrev prodOps2 : List (HloOp τ sig (Elt F)) :=
  [ binary main_arg2 main_v33 main_v34 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) ]
/-- The residual, the rows normalised, the third dense layer and rectifier. -/
abbrev midOps2 : List (HloOp τ sig (Elt F)) :=
  [ binary main_v33 main_v34 main_v35 (addf : (⟨S8192x256, .f32⟩ : BufTy).Contents (Elt F) → (⟨S8192x256, .f32⟩ : BufTy).Contents (Elt F) → (⟨S8192x256, .f32⟩ : BufTy).Contents (Elt F)),
    TRef.binary (TRef.of (T := ⟨S8192x256, .f32⟩) main_v35) (TRef.of (T := ⟨S8192x256, .f32⟩) main_v35) (TRef.of (T := ⟨S8192x256, .f32⟩) main_call3_v0) mulf,
    TRef.nullary (TRef.of (T := ⟨S_, .f32⟩) main_call3_cst) (constant S_ .f32 0x00000000#32),
    TRef.binary (TRef.of (T := ⟨S8192x256, .f32⟩) main_call3_v0) (TRef.of (T := ⟨S_, .f32⟩) main_call3_cst) (TRef.of (T := ⟨S8192, .f32⟩) main_call3_v1) (fun x v => Host.reduceAdd x v reducesTo_S8192x256_S8192_d1 h_S_),
    TRef.unary (TRef.of (T := ⟨S8192, .f32⟩) main_call3_v1) (TRef.of (T := ⟨S8192x1, .f32⟩) main_call3_v2) (broadcastInDim S8192x1 ![0] bcast_S8192_S8192x1_0),
    TRef.unary (TRef.of (T := ⟨S8192x1, .f32⟩) main_call3_v2) (TRef.of (T := ⟨S8192x1, .f32⟩) main_v36) Host.sqrt,
    nullary main_cst_1 (constant S_ .f32 0x2B8CBCCC#32),
    unary main_cst_1 main_v37 (broadcastInDim S8192x1 ![] bcast_S_S8192x1 : (⟨S_, .f32⟩ : BufTy).Contents (Elt F) → (⟨S8192x1, .f32⟩ : BufTy).Contents (Elt F)),
    binary main_v36 main_v37 main_v38 (maximumf : (⟨S8192x1, .f32⟩ : BufTy).Contents (Elt F) → (⟨S8192x1, .f32⟩ : BufTy).Contents (Elt F) → (⟨S8192x1, .f32⟩ : BufTy).Contents (Elt F)),
    unary main_v38 main_v39 (broadcastInDim S8192x256 ![0, 1] bcast_S8192x1_S8192x256_0_1 : (⟨S8192x1, .f32⟩ : BufTy).Contents (Elt F) → (⟨S8192x256, .f32⟩ : BufTy).Contents (Elt F)),
    binary main_v35 main_v39 main_v40 (Host.divf : (⟨S8192x256, .f32⟩ : BufTy).Contents (Elt F) → (⟨S8192x256, .f32⟩ : BufTy).Contents (Elt F) → (⟨S8192x256, .f32⟩ : BufTy).Contents (Elt F)),
    unary main_arg4 main_v41 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v41 main_v42 rfl shapeCasts_S1x256x256_S256x256,
    unary main_v42 main_v43 ((transpose S256x256 [1, 0] · transposes_S256x256_S256x256_1_0) : (⟨S256x256, .f32⟩ : BufTy).Contents (Elt F) → (⟨S256x256, .f32⟩ : BufTy).Contents (Elt F)),
    binary main_v40 main_v43 main_v44 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg5 main_v45 ((extractStridedSlice S1x256 ![2, 0] · slices_S3x256_S1x256_2_0) : (⟨S3x256, .f32⟩ : BufTy).Contents (Elt F) → (⟨S1x256, .f32⟩ : BufTy).Contents (Elt F)),
    reshape main_v45 main_v46 rfl shapeCasts_S1x256_S256,
    unary main_v46 main_v47 (broadcastInDim S1x256 ![1] bcast_S256_S1x256_1 : (⟨S256, .f32⟩ : BufTy).Contents (Elt F) → (⟨S1x256, .f32⟩ : BufTy).Contents (Elt F)),
    unary main_v47 main_v48 (broadcastInDim S8192x256 ![0, 1] bcast_S1x256_S8192x256_0_1 : (⟨S1x256, .f32⟩ : BufTy).Contents (Elt F) → (⟨S8192x256, .f32⟩ : BufTy).Contents (Elt F)),
    binary main_v44 main_v48 main_v49 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x256, .f32⟩) main_call4_v0) (broadcastInDim S8192x256 ![] bcast_S_S8192x256),
    TRef.binary (TRef.of (T := ⟨S8192x256, .f32⟩) main_v49) (TRef.of (T := ⟨S8192x256, .f32⟩) main_call4_v0) (TRef.of (T := ⟨S8192x256, .f32⟩) main_v50) maximumf ]
/-- The third product. -/
abbrev prodOps3 : List (HloOp τ sig (Elt F)) :=
  [ binary main_arg2 main_v50 main_v51 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) ]
/-- The last residual and normalisation, the sum per molecule, the two output layers and the property. -/
abbrev tailOps : List (HloOp τ sig (Elt F)) :=
  [ binary main_v50 main_v51 main_v52 (addf : (⟨S8192x256, .f32⟩ : BufTy).Contents (Elt F) → (⟨S8192x256, .f32⟩ : BufTy).Contents (Elt F) → (⟨S8192x256, .f32⟩ : BufTy).Contents (Elt F)),
    TRef.binary (TRef.of (T := ⟨S8192x256, .f32⟩) main_v52) (TRef.of (T := ⟨S8192x256, .f32⟩) main_v52) (TRef.of (T := ⟨S8192x256, .f32⟩) main_call5_v0) mulf,
    TRef.nullary (TRef.of (T := ⟨S_, .f32⟩) main_call5_cst) (constant S_ .f32 0x00000000#32),
    TRef.binary (TRef.of (T := ⟨S8192x256, .f32⟩) main_call5_v0) (TRef.of (T := ⟨S_, .f32⟩) main_call5_cst) (TRef.of (T := ⟨S8192, .f32⟩) main_call5_v1) (fun x v => Host.reduceAdd x v reducesTo_S8192x256_S8192_d1 h_S_),
    TRef.unary (TRef.of (T := ⟨S8192, .f32⟩) main_call5_v1) (TRef.of (T := ⟨S8192x1, .f32⟩) main_call5_v2) (broadcastInDim S8192x1 ![0] bcast_S8192_S8192x1_0),
    TRef.unary (TRef.of (T := ⟨S8192x1, .f32⟩) main_call5_v2) (TRef.of (T := ⟨S8192x1, .f32⟩) main_v53) Host.sqrt,
    nullary main_cst_2 (constant S_ .f32 0x2B8CBCCC#32),
    unary main_cst_2 main_v54 (broadcastInDim S8192x1 ![] bcast_S_S8192x1 : (⟨S_, .f32⟩ : BufTy).Contents (Elt F) → (⟨S8192x1, .f32⟩ : BufTy).Contents (Elt F)),
    binary main_v53 main_v54 main_v55 (maximumf : (⟨S8192x1, .f32⟩ : BufTy).Contents (Elt F) → (⟨S8192x1, .f32⟩ : BufTy).Contents (Elt F) → (⟨S8192x1, .f32⟩ : BufTy).Contents (Elt F)),
    unary main_v55 main_v56 (broadcastInDim S8192x256 ![0, 1] bcast_S8192x1_S8192x256_0_1 : (⟨S8192x1, .f32⟩ : BufTy).Contents (Elt F) → (⟨S8192x256, .f32⟩ : BufTy).Contents (Elt F)),
    binary main_v52 main_v56 main_v57 (Host.divf : (⟨S8192x256, .f32⟩ : BufTy).Contents (Elt F) → (⟨S8192x256, .f32⟩ : BufTy).Contents (Elt F) → (⟨S8192x256, .f32⟩ : BufTy).Contents (Elt F)),
    nullary main_cst_3 (constant S_ .f32 0x00000000#32),
    unary main_cst_3 main_v58 (broadcastInDim S256x256 ![] bcast_S_S256x256 : (⟨S_, .f32⟩ : BufTy).Contents (Elt F) → (⟨S256x256, .f32⟩ : BufTy).Contents (Elt F)),
    unary main_arg1 main_v59 (broadcastInDim S8192x1 ![0] bcast_S8192_S8192x1_0 : (⟨S8192, .i32⟩ : BufTy).Contents (Elt F) → (⟨S8192x1, .i32⟩ : BufTy).Contents (Elt F)),
    ternary main_v58 main_v59 main_v57 main_v60 ((fun x i u => Host.scatterAdd scatter_S256x256_S8192x1_S8192x256_1_0_0_1 x i u) : (⟨S256x256, .f32⟩ : BufTy).Contents (Elt F) → (⟨S8192x1, .i32⟩ : BufTy).Contents (Elt F) → (⟨S8192x256, .f32⟩ : BufTy).Contents (Elt F) → (⟨S256x256, .f32⟩ : BufTy).Contents (Elt F)),
    unary main_arg6 main_v61 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v61 main_v62 rfl shapeCasts_S1x256x256_S256x256,
    unary main_v62 main_v63 ((transpose S256x256 [1, 0] · transposes_S256x256_S256x256_1_0) : (⟨S256x256, .f32⟩ : BufTy).Contents (Elt F) → (⟨S256x256, .f32⟩ : BufTy).Contents (Elt F)),
    binary main_v60 main_v63 main_v64 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg7 main_v65 ((extractStridedSlice S1x256 ![0, 0] · slices_S2x256_S1x256_0_0) : (⟨S2x256, .f32⟩ : BufTy).Contents (Elt F) → (⟨S1x256, .f32⟩ : BufTy).Contents (Elt F)),
    reshape main_v65 main_v66 rfl shapeCasts_S1x256_S256,
    unary main_v66 main_v67 (broadcastInDim S1x256 ![1] bcast_S256_S1x256_1 : (⟨S256, .f32⟩ : BufTy).Contents (Elt F) → (⟨S1x256, .f32⟩ : BufTy).Contents (Elt F)),
    unary main_v67 main_v68 (broadcastInDim S256x256 ![0, 1] bcast_S1x256_S256x256_0_1 : (⟨S1x256, .f32⟩ : BufTy).Contents (Elt F) → (⟨S256x256, .f32⟩ : BufTy).Contents (Elt F)),
    binary main_v64 main_v68 main_v69 (addf : (⟨S256x256, .f32⟩ : BufTy).Contents (Elt F) → (⟨S256x256, .f32⟩ : BufTy).Contents (Elt F) → (⟨S256x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S256x256, .f32⟩) main_call6_v0) (broadcastInDim S256x256 ![] bcast_S_S256x256),
    TRef.binary (TRef.of (T := ⟨S256x256, .f32⟩) main_v69) (TRef.of (T := ⟨S256x256, .f32⟩) main_call6_v0) (TRef.of (T := ⟨S256x256, .f32⟩) main_v70) maximumf,
    unary main_arg6 main_v71 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v71 main_v72 rfl shapeCasts_S1x256x256_S256x256,
    unary main_v72 main_v73 ((transpose S256x256 [1, 0] · transposes_S256x256_S256x256_1_0) : (⟨S256x256, .f32⟩ : BufTy).Contents (Elt F) → (⟨S256x256, .f32⟩ : BufTy).Contents (Elt F)),
    binary main_v70 main_v73 main_v74 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg7 main_v75 ((extractStridedSlice S1x256 ![1, 0] · slices_S2x256_S1x256_1_0) : (⟨S2x256, .f32⟩ : BufTy).Contents (Elt F) → (⟨S1x256, .f32⟩ : BufTy).Contents (Elt F)),
    reshape main_v75 main_v76 rfl shapeCasts_S1x256_S256,
    unary main_v76 main_v77 (broadcastInDim S1x256 ![1] bcast_S256_S1x256_1 : (⟨S256, .f32⟩ : BufTy).Contents (Elt F) → (⟨S1x256, .f32⟩ : BufTy).Contents (Elt F)),
    unary main_v77 main_v78 (broadcastInDim S256x256 ![0, 1] bcast_S1x256_S256x256_0_1 : (⟨S1x256, .f32⟩ : BufTy).Contents (Elt F) → (⟨S256x256, .f32⟩ : BufTy).Contents (Elt F)),
    binary main_v74 main_v78 main_v79 (addf : (⟨S256x256, .f32⟩ : BufTy).Contents (Elt F) → (⟨S256x256, .f32⟩ : BufTy).Contents (Elt F) → (⟨S256x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S256x256, .f32⟩) main_call7_v0) (broadcastInDim S256x256 ![] bcast_S_S256x256),
    TRef.binary (TRef.of (T := ⟨S256x256, .f32⟩) main_v79) (TRef.of (T := ⟨S256x256, .f32⟩) main_call7_v0) (TRef.of (T := ⟨S256x256, .f32⟩) main_v80) maximumf,
    unary main_arg8 main_v81 ((transpose S256x1 [1, 0] · transposes_S1x256_S256x1_1_0) : (⟨S1x256, .f32⟩ : BufTy).Contents (Elt F) → (⟨S256x1, .f32⟩ : BufTy).Contents (Elt F)),
    binary main_v80 main_v81 main_v82 ((fun l r => Host.dotGeneral dot_S256x256_S256x1_S256x1_1_0_0_1_n_n none l r) : (⟨S256x256, .f32⟩ : BufTy).Contents (Elt F) → (⟨S256x1, .f32⟩ : BufTy).Contents (Elt F) → (⟨S256x1, .f32⟩ : BufTy).Contents (Elt F)),
    unary main_arg9 main_v83 (broadcastInDim S1x1 ![1] bcast_S1_S1x1_1 : (⟨S1, .f32⟩ : BufTy).Contents (Elt F) → (⟨S1x1, .f32⟩ : BufTy).Contents (Elt F)),
    unary main_v83 main_v84 (broadcastInDim S256x1 ![0, 1] bcast_S1x1_S256x1_0_1 : (⟨S1x1, .f32⟩ : BufTy).Contents (Elt F) → (⟨S256x1, .f32⟩ : BufTy).Contents (Elt F)),
    binary main_v82 main_v84 main_v85 (addf : (⟨S256x1, .f32⟩ : BufTy).Contents (Elt F) → (⟨S256x1, .f32⟩ : BufTy).Contents (Elt F) → (⟨S256x1, .f32⟩ : BufTy).Contents (Elt F)) ]

set_option maxRecDepth 8192 in
/-- The program's operations are the seven runs in turn. -/
theorem ops_cut : (ops : List (HloOp τ sig (Elt F))) = headOps ++ (prodOps1 ++ (midOps1 ++ (prodOps2 ++ (midOps2 ++ (prodOps3 ++ tailOps))))) := rfl

/-- So the fold of the program's results is the fold of the runs' in turn. -/
theorem after_ops (V : Valuation τ sig (Elt F)) :
    after ops V = after tailOps (after prodOps3 (after midOps2 (after prodOps2 (after midOps1 (after prodOps1 (after headOps V)))))) := by
  rw [ops_cut]; simp only [StableHlo.after_append]

end Cert.ReferenceIdeal.Hand

end
-- ==== Proof.Ref.Keep.lean ====
/-
  What the reference's operations leave alone. No operation writes an argument, and the products write only their
  own result: so after any run of the operations an argument's buffer holds the launch contents, and a layer's
  activations are still there after the product that reads them.
-/
import proofs.«130713_j75840532512927_1_alg».proof.Proof.Ref.Cut
import Idealize.ShloMosaic.Lib.StableHlo.Run

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]
variable (m' : (ℓ : Loc nD τ sig) → Buf (Elt F) ℓ)

/-- The reference's buffers after each run of its operations, from the launch contents. -/
abbrev Rv0 (c : Dev nD) : Valuation Cert.ReferenceIdeal.τ sig (Elt F) := StableHlo.launchContents m' c
abbrev Rv1 (c : Dev nD) : Valuation Cert.ReferenceIdeal.τ sig (Elt F) := StableHlo.after headOps (Rv0 m' c)
abbrev Rv2 (c : Dev nD) : Valuation Cert.ReferenceIdeal.τ sig (Elt F) := StableHlo.after prodOps1 (Rv1 m' c)
abbrev Rv3 (c : Dev nD) : Valuation Cert.ReferenceIdeal.τ sig (Elt F) := StableHlo.after midOps1 (Rv2 m' c)
abbrev Rv4 (c : Dev nD) : Valuation Cert.ReferenceIdeal.τ sig (Elt F) := StableHlo.after prodOps2 (Rv3 m' c)
abbrev Rv5 (c : Dev nD) : Valuation Cert.ReferenceIdeal.τ sig (Elt F) := StableHlo.after midOps2 (Rv4 m' c)
abbrev Rv6 (c : Dev nD) : Valuation Cert.ReferenceIdeal.τ sig (Elt F) := StableHlo.after prodOps3 (Rv5 m' c)
abbrev Rv7 (c : Dev nD) : Valuation Cert.ReferenceIdeal.τ sig (Elt F) := StableHlo.after tailOps (Rv6 m' c)

/-- The program's fold is the last of them. -/
theorem after_ops_eq (c : Dev nD) : StableHlo.after ops (StableHlo.launchContents m' c) = Rv7 m' c := after_ops _

set_option maxHeartbeats 4000000 in
theorem keep1_arg2 (c : Dev nD) :
    (Rv1 m' c (Proc.devRef .tc Cert.ReferenceIdeal.main_arg2) : (⟨⟨2, ![8192, 8192]⟩, .f32⟩ : BufTy).Contents (Elt F)) = Rv0 m' c (Proc.devRef .tc Cert.ReferenceIdeal.main_arg2) := by
  simp only [Rv7, Rv6, Rv5, Rv4, Rv3, Rv2, Rv1, Rv0, StableHlo.launchContents, headOps]
  after_results_simp

set_option maxHeartbeats 4000000 in
theorem keep2_v16 (c : Dev nD) :
    (Rv2 m' c (Proc.devRef .tc Cert.ReferenceIdeal.main_v16) : (⟨⟨2, ![8192, 256]⟩, .f32⟩ : BufTy).Contents (Elt F)) = Rv1 m' c (Proc.devRef .tc Cert.ReferenceIdeal.main_v16) := by
  simp only [Rv7, Rv6, Rv5, Rv4, Rv3, Rv2, Rv1, Rv0, StableHlo.launchContents, prodOps1]
  after_results_simp

set_option maxHeartbeats 4000000 in
theorem keep2_arg4 (c : Dev nD) :
    (Rv2 m' c (Proc.devRef .tc Cert.ReferenceIdeal.main_arg4) : (⟨⟨3, ![3, 256, 256]⟩, .f32⟩ : BufTy).Contents (Elt F)) = Rv0 m' c (Proc.devRef .tc Cert.ReferenceIdeal.main_arg4) := by
  simp only [Rv7, Rv6, Rv5, Rv4, Rv3, Rv2, Rv1, Rv0, StableHlo.launchContents, headOps, prodOps1]
  after_results_simp

set_option maxHeartbeats 4000000 in
theorem keep2_arg5 (c : Dev nD) :
    (Rv2 m' c (Proc.devRef .tc Cert.ReferenceIdeal.main_arg5) : (⟨⟨2, ![3, 256]⟩, .f32⟩ : BufTy).Contents (Elt F)) = Rv0 m' c (Proc.devRef .tc Cert.ReferenceIdeal.main_arg5) := by
  simp only [Rv7, Rv6, Rv5, Rv4, Rv3, Rv2, Rv1, Rv0, StableHlo.launchContents, headOps, prodOps1]
  after_results_simp

set_option maxHeartbeats 4000000 in
theorem keep3_arg2 (c : Dev nD) :
    (Rv3 m' c (Proc.devRef .tc Cert.ReferenceIdeal.main_arg2) : (⟨⟨2, ![8192, 8192]⟩, .f32⟩ : BufTy).Contents (Elt F)) = Rv0 m' c (Proc.devRef .tc Cert.ReferenceIdeal.main_arg2) := by
  simp only [Rv7, Rv6, Rv5, Rv4, Rv3, Rv2, Rv1, Rv0, StableHlo.launchContents, headOps, prodOps1, midOps1]
  after_results_simp

set_option maxHeartbeats 4000000 in
theorem keep4_v33 (c : Dev nD) :
    (Rv4 m' c (Proc.devRef .tc Cert.ReferenceIdeal.main_v33) : (⟨⟨2, ![8192, 256]⟩, .f32⟩ : BufTy).Contents (Elt F)) = Rv3 m' c (Proc.devRef .tc Cert.ReferenceIdeal.main_v33) := by
  simp only [Rv7, Rv6, Rv5, Rv4, Rv3, Rv2, Rv1, Rv0, StableHlo.launchContents, prodOps2]
  after_results_simp

set_option maxHeartbeats 4000000 in
theorem keep4_arg4 (c : Dev nD) :
    (Rv4 m' c (Proc.devRef .tc Cert.ReferenceIdeal.main_arg4) : (⟨⟨3, ![3, 256, 256]⟩, .f32⟩ : BufTy).Contents (Elt F)) = Rv0 m' c (Proc.devRef .tc Cert.ReferenceIdeal.main_arg4) := by
  simp only [Rv7, Rv6, Rv5, Rv4, Rv3, Rv2, Rv1, Rv0, StableHlo.launchContents, headOps, prodOps1, midOps1, prodOps2]
  after_results_simp

set_option maxHeartbeats 4000000 in
theorem keep4_arg5 (c : Dev nD) :
    (Rv4 m' c (Proc.devRef .tc Cert.ReferenceIdeal.main_arg5) : (⟨⟨2, ![3, 256]⟩, .f32⟩ : BufTy).Contents (Elt F)) = Rv0 m' c (Proc.devRef .tc Cert.ReferenceIdeal.main_arg5) := by
  simp only [Rv7, Rv6, Rv5, Rv4, Rv3, Rv2, Rv1, Rv0, StableHlo.launchContents, headOps, prodOps1, midOps1, prodOps2]
  after_results_simp

set_option maxHeartbeats 4000000 in
theorem keep5_arg2 (c : Dev nD) :
    (Rv5 m' c (Proc.devRef .tc Cert.ReferenceIdeal.main_arg2) : (⟨⟨2, ![8192, 8192]⟩, .f32⟩ : BufTy).Contents (Elt F)) = Rv0 m' c (Proc.devRef .tc Cert.ReferenceIdeal.main_arg2) := by
  simp only [Rv7, Rv6, Rv5, Rv4, Rv3, Rv2, Rv1, Rv0, StableHlo.launchContents, headOps, prodOps1, midOps1, prodOps2, midOps2]
  after_results_simp

set_option maxHeartbeats 4000000 in
theorem keep6_v50 (c : Dev nD) :
    (Rv6 m' c (Proc.devRef .tc Cert.ReferenceIdeal.main_v50) : (⟨⟨2, ![8192, 256]⟩, .f32⟩ : BufTy).Contents (Elt F)) = Rv5 m' c (Proc.devRef .tc Cert.ReferenceIdeal.main_v50) := by
  simp only [Rv7, Rv6, Rv5, Rv4, Rv3, Rv2, Rv1, Rv0, StableHlo.launchContents, prodOps3]
  after_results_simp

set_option maxHeartbeats 4000000 in
theorem keep6_arg1 (c : Dev nD) :
    (Rv6 m' c (Proc.devRef .tc Cert.ReferenceIdeal.main_arg1) : (⟨⟨1, ![8192]⟩, .i32⟩ : BufTy).Contents (Elt F)) = Rv0 m' c (Proc.devRef .tc Cert.ReferenceIdeal.main_arg1) := by
  simp only [Rv7, Rv6, Rv5, Rv4, Rv3, Rv2, Rv1, Rv0, StableHlo.launchContents, headOps, prodOps1, midOps1, prodOps2, midOps2, prodOps3]
  after_results_simp

set_option maxHeartbeats 4000000 in
theorem keep6_arg6 (c : Dev nD) :
    (Rv6 m' c (Proc.devRef .tc Cert.ReferenceIdeal.main_arg6) : (⟨⟨3, ![2, 256, 256]⟩, .f32⟩ : BufTy).Contents (Elt F)) = Rv0 m' c (Proc.devRef .tc Cert.ReferenceIdeal.main_arg6) := by
  simp only [Rv7, Rv6, Rv5, Rv4, Rv3, Rv2, Rv1, Rv0, StableHlo.launchContents, headOps, prodOps1, midOps1, prodOps2, midOps2, prodOps3]
  after_results_simp

set_option maxHeartbeats 4000000 in
theorem keep6_arg7 (c : Dev nD) :
    (Rv6 m' c (Proc.devRef .tc Cert.ReferenceIdeal.main_arg7) : (⟨⟨2, ![2, 256]⟩, .f32⟩ : BufTy).Contents (Elt F)) = Rv0 m' c (Proc.devRef .tc Cert.ReferenceIdeal.main_arg7) := by
  simp only [Rv7, Rv6, Rv5, Rv4, Rv3, Rv2, Rv1, Rv0, StableHlo.launchContents, headOps, prodOps1, midOps1, prodOps2, midOps2, prodOps3]
  after_results_simp

set_option maxHeartbeats 4000000 in
theorem keep6_arg8 (c : Dev nD) :
    (Rv6 m' c (Proc.devRef .tc Cert.ReferenceIdeal.main_arg8) : (⟨⟨2, ![1, 256]⟩, .f32⟩ : BufTy).Contents (Elt F)) = Rv0 m' c (Proc.devRef .tc Cert.ReferenceIdeal.main_arg8) := by
  simp only [Rv7, Rv6, Rv5, Rv4, Rv3, Rv2, Rv1, Rv0, StableHlo.launchContents, headOps, prodOps1, midOps1, prodOps2, midOps2, prodOps3]
  after_results_simp

set_option maxHeartbeats 4000000 in
theorem keep6_arg9 (c : Dev nD) :
    (Rv6 m' c (Proc.devRef .tc Cert.ReferenceIdeal.main_arg9) : (⟨⟨1, ![1]⟩, .f32⟩ : BufTy).Contents (Elt F)) = Rv0 m' c (Proc.devRef .tc Cert.ReferenceIdeal.main_arg9) := by
  simp only [Rv7, Rv6, Rv5, Rv4, Rv3, Rv2, Rv1, Rv0, StableHlo.launchContents, headOps, prodOps1, midOps1, prodOps2, midOps2, prodOps3]
  after_results_simp

end Cert.ReferenceIdeal.Hand

end
-- ==== Proof.Ref.KeepArgs.lean ====
/-
  The reference writes none of its arguments: after all its operations each argument's buffer holds the launch
  contents.
-/
import proofs.«130713_j75840532512927_1_alg».proof.Proof.Ref.Keep

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]
variable (m' : (ℓ : Loc nD τ sig) → Buf (Elt F) ℓ)

set_option maxHeartbeats 8000000 in
theorem kept_arg0 (c : Dev nD) :
    (Rv7 m' c (Proc.devRef .tc main_arg0) : (⟨⟨1, ![8192]⟩, .i32⟩ : BufTy).Contents (Elt F)) = m' ((c.tc : Thread nD τ).loc main_arg0) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg1 (c : Dev nD) :
    (Rv7 m' c (Proc.devRef .tc main_arg1) : (⟨⟨1, ![8192]⟩, .i32⟩ : BufTy).Contents (Elt F)) = m' ((c.tc : Thread nD τ).loc main_arg1) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg2 (c : Dev nD) :
    (Rv7 m' c (Proc.devRef .tc main_arg2) : (⟨⟨2, ![8192, 8192]⟩, .f32⟩ : BufTy).Contents (Elt F)) = m' ((c.tc : Thread nD τ).loc main_arg2) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg3 (c : Dev nD) :
    (Rv7 m' c (Proc.devRef .tc main_arg3) : (⟨⟨2, ![10000, 256]⟩, .f32⟩ : BufTy).Contents (Elt F)) = m' ((c.tc : Thread nD τ).loc main_arg3) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg4 (c : Dev nD) :
    (Rv7 m' c (Proc.devRef .tc main_arg4) : (⟨⟨3, ![3, 256, 256]⟩, .f32⟩ : BufTy).Contents (Elt F)) = m' ((c.tc : Thread nD τ).loc main_arg4) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg5 (c : Dev nD) :
    (Rv7 m' c (Proc.devRef .tc main_arg5) : (⟨⟨2, ![3, 256]⟩, .f32⟩ : BufTy).Contents (Elt F)) = m' ((c.tc : Thread nD τ).loc main_arg5) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg6 (c : Dev nD) :
    (Rv7 m' c (Proc.devRef .tc main_arg6) : (⟨⟨3, ![2, 256, 256]⟩, .f32⟩ : BufTy).Contents (Elt F)) = m' ((c.tc : Thread nD τ).loc main_arg6) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg7 (c : Dev nD) :
    (Rv7 m' c (Proc.devRef .tc main_arg7) : (⟨⟨2, ![2, 256]⟩, .f32⟩ : BufTy).Contents (Elt F)) = m' ((c.tc : Thread nD τ).loc main_arg7) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg8 (c : Dev nD) :
    (Rv7 m' c (Proc.devRef .tc main_arg8) : (⟨⟨2, ![1, 256]⟩, .f32⟩ : BufTy).Contents (Elt F)) = m' ((c.tc : Thread nD τ).loc main_arg8) := by
  simp only [Rv7, Rv6, Rv5, Rv4, Rv3, Rv2, Rv1, Rv0, StableHlo.launchContents, headOps, prodOps1, midOps1, prodOps2, midOps2, prodOps3, tailOps]
  after_results_simp
  try rfl

set_option maxHeartbeats 8000000 in
theorem kept_arg9 (c : Dev nD) :
    (Rv7 m' c (Proc.devRef .tc main_arg9) : (⟨⟨1, ![1]⟩, .f32⟩ : BufTy).Contents (Elt F)) = m' ((c.tc : Thread nD τ).loc main_arg9) := by
  simp only [Rv7, Rv6, Rv5, Rv4, Rv3, Rv2, Rv1, Rv0, StableHlo.launchContents, headOps, prodOps1, midOps1, prodOps2, midOps2, prodOps3, tailOps]
  after_results_simp
  try rfl

end Cert.ReferenceIdeal.Hand

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KI.Value0Step.lean ====
/-
  One step of the blocked product of region 0, read at an entry over the extended reals. The step adds to the
  accumulator the product of the adjacency block with the feature rows: entry (p, q) grows by the sum over the 2048
  columns x of the block of adjacency (p, x) times features (x, q). The narrowing of the adjacency block to bf16 is the
  identity on extended reals, the casts between equal shapes change nothing, and the product into the zero block is the
  plain sum. The cleared accumulator is zero at every entry.
-/
import proofs.«130713_j75840532512927_1_alg».proof.Proof.Gen.KernelIdeal.Skeleton
import proofs.«130713_j75840532512927_1_alg».proof.Proof.KI.Step0
import proofs.«130713_j75840532512927_1_alg».proof.Proof.LibPlainProduct
import Idealize.ShloMosaic.Lib.ValueIdx
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-- The product's dimension numbers are those of a plain [2048, 2048] by [2048, 256] product: row by column, one
    contracted axis. -/
theorem dotR0_plain : dot_S2048x2048_S2048x256_S2048x256_1_0_0_1_n_n = DotDims.plain 2048 2048 256 := rfl

/-- A step at entry (p, q): what the accumulator held there plus the sum over the block's columns. -/
theorem step0_apply (a : Vec Ideal S2048x2048 .f32) (s : Vec Ideal S2048x256 .f32) (h : Vec Ideal S2048x256 .bf16)
    (p : Fin 2048) (q : Fin 256) :
    step0 (F := Ideal) a s h (ix2 p q) = s (ix2 p q) + ∑ x : Fin 2048, a (ix2 p x) * h (ix2 x q) := by
  unfold step0 k0_pay2
  simp only [shapeCast_self]
  rw [addf_apply, dotR0_plain, Cert.PlainProduct.matmul_zero_apply]
  rfl

/-- The cleared accumulator is zero at every entry. -/
theorem clear0_apply (p : Fin 2048) (q : Fin 256) : clear0 (F := Ideal) (ix2 p q) = 0 := by
  unfold clear0 k0_pay1
  simp only [shapeCast_self]
  show Ideal.ofBits .f32 0x00000000#32 = 0
  exact Ideal.ofBits_zero_f32

end Cert.KernelIdeal.Hand

end
-- ==== Proof.KI.Value0Blocks.lean ====
/-
  The blocks of region 0 as parts of their arrays. The grid point t = 4 i + k stands at row block i = t / 4 and column
  block k = t % 4. There the adjacency window shows rows 2048 i + p and columns 2048 k + x of the [8192, 8192] array, the
  feature window rows 2048 k + x of the [8192, 256] array (all 256 columns), and the output window rows 2048 i + p of
  the [8192, 256] result. A block's entry is the array's entry at: block index times block size, plus the coordinate
  inside the block, on each axis.
-/
import proofs.«130713_j75840532512927_1_alg».proof.Proof.Gen.KernelIdeal.Launch
import proofs.«130713_j75840532512927_1_alg».proof.Proof.Gen.KernelIdeal.Points
import proofs.«130713_j75840532512927_1_alg».proof.Proof.KI.Data0
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The block indices over the grid -/

/-- The adjacency window's block at point t is (t / 4, t % 4); -/
theorem idxR0_0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
/-- the feature window's is (t % 4, 0); -/
theorem idxR0_1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
/-- the output window's is (t / 4, 0). -/
theorem idxR0_2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-! ## The blocks read at an entry -/

section Blocks

variable (V : (c : Dev nD) → (b : Ref sig .tc) → Buf (Elt F) ((c : Thread nD τ).loc b))

/-- The adjacency block's entry (p, x) at point t is the array's entry (2048 (t / 4) + p, 2048 (t % 4) + x). -/
theorem adjR0_apply (c : Dev nD) (t : Fin cfg0.N) (p x : Fin 2048) (R C : Fin 8192)
    (hR : R.val = 2048 * (t.val / 4) + p.val) (hC : C.val = 2048 * (t.val % 4) + x.val) :
    adjR0 V c t (ix2 p x) = (V c (Pipeline.arrRef spec0 0) : Vec F S8192x8192 .f32) (ix2 R C) := by
  obtain ⟨e0, e1⟩ := idxR0_0 t
  unfold adjR0 blkR0
  rw [View.read_apply]
  show V c main_arg2 _ = V c main_arg2 _
  congr 1
  funext a
  apply Fin.ext
  match a with
  | ⟨0, _⟩ => show win0_0.index t (0 : Fin 2) * 2048 + 1 * p.val = R.val; rw [e0, hR]; omega
  | ⟨1, _⟩ => show win0_0.index t (1 : Fin 2) * 2048 + 1 * x.val = C.val; rw [e1, hC]; omega

/-- The feature block's entry (x, q) at point t is the array's entry (2048 (t % 4) + x, q). -/
theorem featR0_apply (c : Dev nD) (t : Fin cfg0.N) (x : Fin 2048) (q : Fin 256) (C : Fin 8192)
    (hC : C.val = 2048 * (t.val % 4) + x.val) :
    featR0 V c t (ix2 x q) = (V c (Pipeline.arrRef spec0 1) : Vec F S8192x256 .bf16) (ix2 C q) := by
  obtain ⟨e0, e1⟩ := idxR0_1 t
  unfold featR0 blkR0
  rw [View.read_apply]
  show V c main_v17 _ = V c main_v17 _
  congr 1
  funext a
  apply Fin.ext
  match a with
  | ⟨0, _⟩ => show win0_1.index t (0 : Fin 2) * 2048 + 1 * x.val = C.val; rw [e0, hC]; omega
  | ⟨1, _⟩ => show win0_1.index t (1 : Fin 2) * 256 + 1 * q.val = q.val; rw [e1]; omega

end Blocks

/-- Any contents of the result array read through the output window's block at point t: entry (p, q) of the block is
    the array's entry (2048 (t / 4) + p, q). -/
theorem outR0_apply (t : Fin cfg0.N) (G : Vec F S8192x256 .f32) (p : Fin 2048) (q : Fin 256) (R : Fin 8192)
    (hR : R.val = 2048 * (t.val / 4) + p.val) :
    (((cfg0.win 2).blk t).view.read (Elt F) G : Vec F S2048x256 .f32) (ix2 p q) = G (ix2 R q) := by
  obtain ⟨e0, e1⟩ := idxR0_2 t
  rw [View.read_apply]
  show G _ = G _
  congr 1
  funext a
  apply Fin.ext
  match a with
  | ⟨0, _⟩ => show win0_2.index t (0 : Fin 2) * 2048 + 1 * p.val = R.val; rw [e0, hR]; omega
  | ⟨1, _⟩ => show win0_2.index t (1 : Fin 2) * 256 + 1 * q.val = q.val; rw [e1]; omega

/-- An entry of the result array lies in the output window's block at point t exactly when its row lies in the 2048
    rows that start at row 2048 (t / 4). -/
theorem mem_outR0 (t : Fin cfg0.N) (i : S8192x256.Idx) (h : 2048 * (t.val / 4) ≤ (i 0).val ∧ (i 0).val < 2048 * (t.val / 4) + 2048) :
    i ∈ ((cfg0.win 2).blk t).view.set := by
  obtain ⟨e0, e1⟩ := idxR0_2 t
  show i ∈ ((View.whole main_v18).slice (win0_2.rect t)).set
  rw [View.set_slice_whole, Rect.mem_set_unit]
  intro a
  have h1 : (i 1).val < 256 := (i 1).isLt
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 256 ≤ (i 1).val ∧ (i 1).val < win0_2.index t (1 : Fin 2) * 256 + 256
    rw [e1]; omega

end Cert.KernelIdeal.Hand

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.KI.Value0Acc.lean ====
/-
  The accumulator of region 0 at an entry, over the extended reals. Along a row of blocks the accumulator starts from
  zero and gains one block product per step, so after the step at column block k its entry (p, q) is the sum over the
  first k + 1 column blocks, each over its 2048 columns, of adjacency times features; after the last of the four it is
  the sum over all 8192 columns: the entry of the whole product.
-/
import proofs.«130713_j75840532512927_1_alg».proof.Proof.KI.Data0
import proofs.«130713_j75840532512927_1_alg».proof.Proof.KI.Value0Step
import proofs.«130713_j75840532512927_1_alg».proof.Proof.KI.Value0Blocks
import proofs.«130713_j75840532512927_1_alg».proof.Proof.LibSums
import proofs.«130713_j75840532512927_1_alg».proof.Proof.LibPlainProduct
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- One term of the product's entry (R, q): adjacency (R, m) times features (m, q). -/
abbrev termOfR0 (A : FVec Ideal ⟨2, ![8192, 8192]⟩ .f32) (H : FVec Ideal ⟨2, ![8192, 256]⟩ .bf16) (R : Fin 8192) (q : Fin 256) :
    Fin 8192 → EReal := fun m => A (ix2 R m) * H (ix2 m q)

section Region0

variable (V : (c : Dev nD) → (b : Ref sig .tc) → Buf (Elt Ideal) ((c : Thread nD τ).loc b))

/-- The terms over the two arrays the region is entered with. -/
abbrev termR0 (c : Dev nD) (R : Fin 8192) (q : Fin 256) : Fin 8192 → EReal :=
  termOfR0 (V c (Pipeline.arrRef spec0 0)) (V c (Pipeline.arrRef spec0 1)) R q

/-- The block product of the step at point t, at entry (p, q): the terms of column block t % 4. -/
theorem blocksumR0 (c : Dev nD) (t : Fin cfg0.N) (p : Fin 2048) (q : Fin 256) (R : Fin 8192) (j : ℕ) (hj : j < 4)
    (hR : R.val = 2048 * (t.val / 4) + p.val) (hjt : t.val % 4 = j) :
    ∑ x : Fin 2048, adjR0 V c t (ix2 p x) * featR0 V c t (ix2 x q)
      = ∑ r : Fin 2048, termR0 V c R q ⟨2048 * j + r.val, Cert.Sums.block_index_lt hj r.isLt⟩ := by
  refine Finset.sum_congr rfl fun x _ => ?_
  rw [adjR0_apply V c t p x R ⟨2048 * j + x.val, Cert.Sums.block_index_lt hj x.isLt⟩ hR (by rw [hjt]),
    featR0_apply V c t x q ⟨2048 * j + x.val, Cert.Sums.block_index_lt hj x.isLt⟩ (by rw [hjt])]

/-- After the step at point n, in column block j = n % 4, the accumulator's entry (p, q) is the sum of the terms of the
    column blocks 0 … j of row R = 2048 (n / 4) + p: by induction on the point, the head of a row of blocks starting
    again from zero. -/
theorem accR0_apply (c : Dev nD) (p : Fin 2048) (q : Fin 256) (R : Fin 8192) :
    ∀ (n : ℕ) (hn : n < cfg0.N) (j : ℕ) (hj : j < 4), n % 4 = j → R.val = 2048 * (n / 4) + p.val →
      accR0 V c n hn (ix2 p q) = Cert.Sums.prefixBlocks 4 2048 (termR0 V c R q) (j + 1) hj := by
  intro n
  induction n with
  | zero =>
    intro hn j hj hjn hR
    obtain rfl : j = 0 := by omega
    rw [show accR0 V c 0 hn = step0 (adjR0 V c ⟨0, hn⟩) clear0 (featR0 V c ⟨0, hn⟩) from rfl]
    rw [step0_apply, clear0_apply, Cert.Sums.prefixBlocks_succ 4 2048 _ 0 hj, Cert.Sums.prefixBlocks_zero,
      blocksumR0 V c ⟨0, hn⟩ p q R 0 hj hR rfl]
  | succ m ih =>
    intro hn j hj hjn hR
    by_cases h0 : (m + 1) % 4 = 0
    · obtain rfl : j = 0 := by omega
      rw [show accR0 V c (m + 1) hn = step0 (adjR0 V c ⟨m + 1, hn⟩) clear0 (featR0 V c ⟨m + 1, hn⟩) from if_pos h0]
      rw [step0_apply, clear0_apply, Cert.Sums.prefixBlocks_succ 4 2048 _ 0 hj, Cert.Sums.prefixBlocks_zero,
        blocksumR0 V c ⟨m + 1, hn⟩ p q R 0 hj hR h0]
    · obtain ⟨j', rfl⟩ : ∃ j', j = j' + 1 := ⟨j - 1, by omega⟩
      rw [show accR0 V c (m + 1) hn
          = step0 (adjR0 V c ⟨m + 1, hn⟩) (accR0 V c m (Nat.lt_of_succ_lt hn)) (featR0 V c ⟨m + 1, hn⟩) from if_neg h0]
      rw [step0_apply, ih (Nat.lt_of_succ_lt hn) j' (by omega) (by omega) (by omega),
        Cert.Sums.prefixBlocks_succ 4 2048 _ (j' + 1) hj,
        blocksumR0 V c ⟨m + 1, hn⟩ p q R (j' + 1) hj hR hjn]

/-- At the last step of a row of blocks the accumulator's entry (p, q) is the product's entry (R, q), R = 2048 (t / 4) + p:
    the four column blocks' terms are all 8192 terms. -/
theorem accR0_last (c : Dev nD) (t : Fin cfg0.N) (h3 : t.val % 4 = 3) (p : Fin 2048) (q : Fin 256) (R : Fin 8192)
    (hR : R.val = 2048 * (t.val / 4) + p.val) :
    accR0 V c t.val t.isLt (ix2 p q)
      = Cert.PlainProduct.prod (M := 8192) (K := 8192) (N := 256) (φ₁ := .f32) (φ₂ := .bf16)
          (V c (Pipeline.arrRef spec0 0)) (V c (Pipeline.arrRef spec0 1)) (ix2 R q) := by
  rw [accR0_apply V c p q R t.val t.isLt 3 (by omega) h3 hR, Cert.PlainProduct.prod_apply]
  exact Cert.Sums.prefixBlocks_all 4 2048 (termR0 V c R q)

end Region0

end Cert.KernelIdeal.Hand

end
-- ==== Proof.KI.Value0.lean ====
/-
  What region 0 leaves in its output array, over the extended reals: the product of the adjacency matrix with the
  feature rows, entry by entry. The accumulator at the end of a row of blocks is the cleared block plus four block
  products, which regroup into the one sum over all 8192 columns; the four row blocks' write-backs cover the array.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Data0
import proofs.«130713_j75840532512927_1_alg».proof.Proof.KI.Value0Acc
import proofs.«130713_j75840532512927_1_alg».proof.Proof.LibSums
import proofs.«130713_j75840532512927_1_alg».proof.Proof.LibPlainProduct
import Idealize.ShloMosaic.Lib.ValueIdx
import Idealize.ShloMosaic.PureOps.Ideal.Laws
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region0

variable (V : (c : Dev nD) → (b : Ref sig .tc) → Buf (Elt Ideal) ((c : Thread nD τ).loc b))

/-- What a point that writes its output block back writes: its 2048 rows of the product. Such a point is the last of
    its row of blocks, where the accumulator holds the product's entries; the window moves the whole block. -/
theorem flushedR0 (c : Dev nD) (t : Fin cfg0.N) (hf : (cfg0.win 2).flush t = true) :
    (datR0 (F := Ideal) V c).flushed 2 t
      = ((cfg0.win 2).blk t).view.read (Elt Ideal)
          (Cert.PlainProduct.prod (M := 8192) (K := 8192) (N := 256) (φ₁ := .f32) (φ₂ := .bf16)
            (V c (Pipeline.arrRef spec0 0)) (V c (Pipeline.arrRef spec0 1))) := by
  have h3 : t.val % 4 = 3 := (flush0_2 t).mp hf
  have hN : t.val < 16 := lt_of_lt_of_eq t.isLt (show cfg0.N = 16 from N_0)
  have key : (accR0 V c t.val t.isLt : Vec Ideal S2048x256 .f32)
      = (((cfg0.win 2).blk t).view.read (Elt Ideal)
          (Cert.PlainProduct.prod (M := 8192) (K := 8192) (N := 256) (φ₁ := .f32) (φ₂ := .bf16)
            (V c (Pipeline.arrRef spec0 0)) (V c (Pipeline.arrRef spec0 1))) : Vec Ideal S2048x256 .f32) := by
    funext j
    obtain ⟨p, q, rfl⟩ : ∃ (p : Fin 2048) (q : Fin 256), j = ix2 p q := ⟨j 0, j 1, eq_ix2 j⟩
    have hp : p.val < 2048 := p.isLt
    rw [outR0_apply t _ p q ⟨2048 * (t.val / 4) + p.val, by omega⟩ rfl]
    exact accR0_last V c t h3 p q ⟨2048 * (t.val / 4) + p.val, by omega⟩ rfl
  show (cfg0.win 2).cut (grid0.coords t) ((datR0 (F := Ideal) V c).after 2 t) = _
  rw [afterR0_2]
  exact key

/-- Every entry of the result array is written back: row r lies in the block of the point 4 (r / 2048) + 3, the last of
    the row of blocks r / 2048. -/
theorem coverR0 (i : S8192x256.Idx) :
    ∃ t : Fin cfg0.N, (cfg0.win 2).flush t = true ∧ i ∈ ((cfg0.win 2).blk t).view.set := by
  have hi : (i 0).val < 8192 := (i 0).isLt
  have hN : cfg0.N = 16 := N_0
  refine ⟨⟨4 * ((i 0).val / 2048) + 3, by rw [hN]; omega⟩, (flush0_2 _).mpr ?_, mem_outR0 _ i ?_⟩
  · show (4 * ((i 0).val / 2048) + 3) % 4 = 3
    omega
  · show 2048 * ((4 * ((i 0).val / 2048) + 3) / 4) ≤ (i 0).val
      ∧ (i 0).val < 2048 * ((4 * ((i 0).val / 2048) + 3) / 4) + 2048
    omega

/-- After the region its output array holds the product of the two arrays it was entered with. -/
theorem finalR0 (c : Dev nD) :
    (datR0 (F := Ideal) V c).arrAt 2 cfg0.N
      = Cert.PlainProduct.prod (M := 8192) (K := 8192) (N := 256) (φ₁ := .f32) (φ₂ := .bf16)
          (V c (Pipeline.arrRef spec0 0)) (V c (Pipeline.arrRef spec0 1)) :=
  (datR0 (F := Ideal) V c).arrAt_eq_of_cover 2 _ (flushedR0 V c) coverR0

end Region0

end Cert.KernelIdeal.Hand

end
-- ==== Proof.KI.Value1Step.lean ====
/-
  One step of the blocked product of region 1, read at an entry over the extended reals. The step adds to the
  accumulator the product of the adjacency block with the feature rows: entry (p, q) grows by the sum over the 2048
  columns x of the block of adjacency (p, x) times features (x, q). The narrowing of the adjacency block to bf16 is the
  identity on extended reals, the casts between equal shapes change nothing, and the product into the zero block is the
  plain sum. The cleared accumulator is zero at every entry.
-/
import proofs.«130713_j75840532512927_1_alg».proof.Proof.Gen.KernelIdeal.Skeleton
import proofs.«130713_j75840532512927_1_alg».proof.Proof.KI.Step1
import proofs.«130713_j75840532512927_1_alg».proof.Proof.LibPlainProduct
import Idealize.ShloMosaic.Lib.ValueIdx
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-- The product's dimension numbers are those of a plain [2048, 2048] by [2048, 256] product: row by column, one
    contracted axis. -/
theorem dotR1_plain : dot_S2048x2048_S2048x256_S2048x256_1_0_0_1_n_n = DotDims.plain 2048 2048 256 := rfl

/-- A step at entry (p, q): what the accumulator held there plus the sum over the block's columns. -/
theorem step1_apply (a : Vec Ideal S2048x2048 .f32) (s : Vec Ideal S2048x256 .f32) (h : Vec Ideal S2048x256 .bf16)
    (p : Fin 2048) (q : Fin 256) :
    step1 (F := Ideal) a s h (ix2 p q) = s (ix2 p q) + ∑ x : Fin 2048, a (ix2 p x) * h (ix2 x q) := by
  unfold step1 k1_pay2
  simp only [shapeCast_self]
  rw [addf_apply, dotR1_plain, Cert.PlainProduct.matmul_zero_apply]
  rfl

/-- The cleared accumulator is zero at every entry. -/
theorem clear1_apply (p : Fin 2048) (q : Fin 256) : clear1 (F := Ideal) (ix2 p q) = 0 := by
  unfold clear1 k1_pay1
  simp only [shapeCast_self]
  show Ideal.ofBits .f32 0x00000000#32 = 0
  exact Ideal.ofBits_zero_f32

end Cert.KernelIdeal.Hand

end
-- ==== Proof.KI.Value1Blocks.lean ====
/-
  The blocks of region 1 as parts of their arrays. The grid point t = 4 i + k stands at row block i = t / 4 and column
  block k = t % 4. There the adjacency window shows rows 2048 i + p and columns 2048 k + x of the [8192, 8192] array, the
  feature window rows 2048 k + x of the [8192, 256] array (all 256 columns), and the output window rows 2048 i + p of
  the [8192, 256] result. A block's entry is the array's entry at: block index times block size, plus the coordinate
  inside the block, on each axis.
-/
import proofs.«130713_j75840532512927_1_alg».proof.Proof.Gen.KernelIdeal.Launch
import proofs.«130713_j75840532512927_1_alg».proof.Proof.Gen.KernelIdeal.Points
import proofs.«130713_j75840532512927_1_alg».proof.Proof.KI.Data1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The block indices over the grid -/

/-- The adjacency window's block at point t is (t / 4, t % 4); -/
theorem idxR1_0 : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
/-- the feature window's is (t % 4, 0); -/
theorem idxR1_1 : ∀ t : Fin cfg1.N, win1_1.index t (0 : Fin 2) = t.val % 4 ∧ win1_1.index t (1 : Fin 2) = 0 :=
  (by decide +kernel : ∀ t : Fin grid1.N, win1_1.index t (0 : Fin 2) = t.val % 4 ∧ win1_1.index t (1 : Fin 2) = 0)
/-- the output window's is (t / 4, 0). -/
theorem idxR1_2 : ∀ t : Fin cfg1.N, win1_2.index t (0 : Fin 2) = t.val / 4 ∧ win1_2.index t (1 : Fin 2) = 0 :=
  (by decide +kernel : ∀ t : Fin grid1.N, win1_2.index t (0 : Fin 2) = t.val / 4 ∧ win1_2.index t (1 : Fin 2) = 0)

/-! ## The blocks read at an entry -/

section Blocks

variable (V : (c : Dev nD) → (b : Ref sig .tc) → Buf (Elt F) ((c : Thread nD τ).loc b))

/-- The adjacency block's entry (p, x) at point t is the array's entry (2048 (t / 4) + p, 2048 (t % 4) + x). -/
theorem adjR1_apply (c : Dev nD) (t : Fin cfg1.N) (p x : Fin 2048) (R C : Fin 8192)
    (hR : R.val = 2048 * (t.val / 4) + p.val) (hC : C.val = 2048 * (t.val % 4) + x.val) :
    adjR1 V c t (ix2 p x) = (V c (Pipeline.arrRef spec1 0) : Vec F S8192x8192 .f32) (ix2 R C) := by
  obtain ⟨e0, e1⟩ := idxR1_0 t
  unfold adjR1 blkR1
  rw [View.read_apply]
  show V c main_arg2 _ = V c main_arg2 _
  congr 1
  funext a
  apply Fin.ext
  match a with
  | ⟨0, _⟩ => show win1_0.index t (0 : Fin 2) * 2048 + 1 * p.val = R.val; rw [e0, hR]; omega
  | ⟨1, _⟩ => show win1_0.index t (1 : Fin 2) * 2048 + 1 * x.val = C.val; rw [e1, hC]; omega

/-- The feature block's entry (x, q) at point t is the array's entry (2048 (t % 4) + x, q). -/
theorem featR1_apply (c : Dev nD) (t : Fin cfg1.N) (x : Fin 2048) (q : Fin 256) (C : Fin 8192)
    (hC : C.val = 2048 * (t.val % 4) + x.val) :
    featR1 V c t (ix2 x q) = (V c (Pipeline.arrRef spec1 1) : Vec F S8192x256 .bf16) (ix2 C q) := by
  obtain ⟨e0, e1⟩ := idxR1_1 t
  unfold featR1 blkR1
  rw [View.read_apply]
  show V c main_v35 _ = V c main_v35 _
  congr 1
  funext a
  apply Fin.ext
  match a with
  | ⟨0, _⟩ => show win1_1.index t (0 : Fin 2) * 2048 + 1 * x.val = C.val; rw [e0, hC]; omega
  | ⟨1, _⟩ => show win1_1.index t (1 : Fin 2) * 256 + 1 * q.val = q.val; rw [e1]; omega

end Blocks

/-- Any contents of the result array read through the output window's block at point t: entry (p, q) of the block is
    the array's entry (2048 (t / 4) + p, q). -/
theorem outR1_apply (t : Fin cfg1.N) (G : Vec F S8192x256 .f32) (p : Fin 2048) (q : Fin 256) (R : Fin 8192)
    (hR : R.val = 2048 * (t.val / 4) + p.val) :
    (((cfg1.win 2).blk t).view.read (Elt F) G : Vec F S2048x256 .f32) (ix2 p q) = G (ix2 R q) := by
  obtain ⟨e0, e1⟩ := idxR1_2 t
  rw [View.read_apply]
  show G _ = G _
  congr 1
  funext a
  apply Fin.ext
  match a with
  | ⟨0, _⟩ => show win1_2.index t (0 : Fin 2) * 2048 + 1 * p.val = R.val; rw [e0, hR]; omega
  | ⟨1, _⟩ => show win1_2.index t (1 : Fin 2) * 256 + 1 * q.val = q.val; rw [e1]; omega

/-- An entry of the result array lies in the output window's block at point t exactly when its row lies in the 2048
    rows that start at row 2048 (t / 4). -/
theorem mem_outR1 (t : Fin cfg1.N) (i : S8192x256.Idx) (h : 2048 * (t.val / 4) ≤ (i 0).val ∧ (i 0).val < 2048 * (t.val / 4) + 2048) :
    i ∈ ((cfg1.win 2).blk t).view.set := by
  obtain ⟨e0, e1⟩ := idxR1_2 t
  show i ∈ ((View.whole main_v36).slice (win1_2.rect t)).set
  rw [View.set_slice_whole, Rect.mem_set_unit]
  intro a
  have h1 : (i 1).val < 256 := (i 1).isLt
  match a with
  | ⟨0, _⟩ =>
    show win1_2.index t (0 : Fin 2) * 2048 ≤ (i 0).val ∧ (i 0).val < win1_2.index t (0 : Fin 2) * 2048 + 2048
    rw [e0]; omega
  | ⟨1, _⟩ =>
    show win1_2.index t (1 : Fin 2) * 256 ≤ (i 1).val ∧ (i 1).val < win1_2.index t (1 : Fin 2) * 256 + 256
    rw [e1]; omega

end Cert.KernelIdeal.Hand

end
-- ==== Proof.KI.Value1Acc.lean ====
/-
  The accumulator of region 1 at an entry, over the extended reals. Along a row of blocks the accumulator starts from
  zero and gains one block product per step, so after the step at column block k its entry (p, q) is the sum over the
  first k + 1 column blocks, each over its 2048 columns, of adjacency times features; after the last of the four it is
  the sum over all 8192 columns: the entry of the whole product.
-/
import proofs.«130713_j75840532512927_1_alg».proof.Proof.KI.Data1
import proofs.«130713_j75840532512927_1_alg».proof.Proof.KI.Value1Step
import proofs.«130713_j75840532512927_1_alg».proof.Proof.KI.Value1Blocks
import proofs.«130713_j75840532512927_1_alg».proof.Proof.LibSums
import proofs.«130713_j75840532512927_1_alg».proof.Proof.LibPlainProduct
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- One term of the product's entry (R, q): adjacency (R, m) times features (m, q). -/
abbrev termOfR1 (A : FVec Ideal ⟨2, ![8192, 8192]⟩ .f32) (H : FVec Ideal ⟨2, ![8192, 256]⟩ .bf16) (R : Fin 8192) (q : Fin 256) :
    Fin 8192 → EReal := fun m => A (ix2 R m) * H (ix2 m q)

section Region1

variable (V : (c : Dev nD) → (b : Ref sig .tc) → Buf (Elt Ideal) ((c : Thread nD τ).loc b))

/-- The terms over the two arrays the region is entered with. -/
abbrev termR1 (c : Dev nD) (R : Fin 8192) (q : Fin 256) : Fin 8192 → EReal :=
  termOfR1 (V c (Pipeline.arrRef spec1 0)) (V c (Pipeline.arrRef spec1 1)) R q

/-- The block product of the step at point t, at entry (p, q): the terms of column block t % 4. -/
theorem blocksumR1 (c : Dev nD) (t : Fin cfg1.N) (p : Fin 2048) (q : Fin 256) (R : Fin 8192) (j : ℕ) (hj : j < 4)
    (hR : R.val = 2048 * (t.val / 4) + p.val) (hjt : t.val % 4 = j) :
    ∑ x : Fin 2048, adjR1 V c t (ix2 p x) * featR1 V c t (ix2 x q)
      = ∑ r : Fin 2048, termR1 V c R q ⟨2048 * j + r.val, Cert.Sums.block_index_lt hj r.isLt⟩ := by
  refine Finset.sum_congr rfl fun x _ => ?_
  rw [adjR1_apply V c t p x R ⟨2048 * j + x.val, Cert.Sums.block_index_lt hj x.isLt⟩ hR (by rw [hjt]),
    featR1_apply V c t x q ⟨2048 * j + x.val, Cert.Sums.block_index_lt hj x.isLt⟩ (by rw [hjt])]

/-- After the step at point n, in column block j = n % 4, the accumulator's entry (p, q) is the sum of the terms of the
    column blocks 0 … j of row R = 2048 (n / 4) + p: by induction on the point, the head of a row of blocks starting
    again from zero. -/
theorem accR1_apply (c : Dev nD) (p : Fin 2048) (q : Fin 256) (R : Fin 8192) :
    ∀ (n : ℕ) (hn : n < cfg1.N) (j : ℕ) (hj : j < 4), n % 4 = j → R.val = 2048 * (n / 4) + p.val →
      accR1 V c n hn (ix2 p q) = Cert.Sums.prefixBlocks 4 2048 (termR1 V c R q) (j + 1) hj := by
  intro n
  induction n with
  | zero =>
    intro hn j hj hjn hR
    obtain rfl : j = 0 := by omega
    rw [show accR1 V c 0 hn = step1 (adjR1 V c ⟨0, hn⟩) clear1 (featR1 V c ⟨0, hn⟩) from rfl]
    rw [step1_apply, clear1_apply, Cert.Sums.prefixBlocks_succ 4 2048 _ 0 hj, Cert.Sums.prefixBlocks_zero,
      blocksumR1 V c ⟨0, hn⟩ p q R 0 hj hR rfl]
  | succ m ih =>
    intro hn j hj hjn hR
    by_cases h0 : (m + 1) % 4 = 0
    · obtain rfl : j = 0 := by omega
      rw [show accR1 V c (m + 1) hn = step1 (adjR1 V c ⟨m + 1, hn⟩) clear1 (featR1 V c ⟨m + 1, hn⟩) from if_pos h0]
      rw [step1_apply, clear1_apply, Cert.Sums.prefixBlocks_succ 4 2048 _ 0 hj, Cert.Sums.prefixBlocks_zero,
        blocksumR1 V c ⟨m + 1, hn⟩ p q R 0 hj hR h0]
    · obtain ⟨j', rfl⟩ : ∃ j', j = j' + 1 := ⟨j - 1, by omega⟩
      rw [show accR1 V c (m + 1) hn
          = step1 (adjR1 V c ⟨m + 1, hn⟩) (accR1 V c m (Nat.lt_of_succ_lt hn)) (featR1 V c ⟨m + 1, hn⟩) from if_neg h0]
      rw [step1_apply, ih (Nat.lt_of_succ_lt hn) j' (by omega) (by omega) (by omega),
        Cert.Sums.prefixBlocks_succ 4 2048 _ (j' + 1) hj,
        blocksumR1 V c ⟨m + 1, hn⟩ p q R (j' + 1) hj hR hjn]

/-- At the last step of a row of blocks the accumulator's entry (p, q) is the product's entry (R, q), R = 2048 (t / 4) + p:
    the four column blocks' terms are all 8192 terms. -/
theorem accR1_last (c : Dev nD) (t : Fin cfg1.N) (h3 : t.val % 4 = 3) (p : Fin 2048) (q : Fin 256) (R : Fin 8192)
    (hR : R.val = 2048 * (t.val / 4) + p.val) :
    accR1 V c t.val t.isLt (ix2 p q)
      = Cert.PlainProduct.prod (M := 8192) (K := 8192) (N := 256) (φ₁ := .f32) (φ₂ := .bf16)
          (V c (Pipeline.arrRef spec1 0)) (V c (Pipeline.arrRef spec1 1)) (ix2 R q) := by
  rw [accR1_apply V c p q R t.val t.isLt 3 (by omega) h3 hR, Cert.PlainProduct.prod_apply]
  exact Cert.Sums.prefixBlocks_all 4 2048 (termR1 V c R q)

end Region1

end Cert.KernelIdeal.Hand

end
-- ==== Proof.KI.Value1.lean ====
/-
  What region 1 leaves in its output array, over the extended reals: the product of the adjacency matrix with the
  feature rows, entry by entry. The accumulator at the end of a row of blocks is the cleared block plus four block
  products, which regroup into the one sum over all 8192 columns; the four row blocks' write-backs cover the array.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Data1
import proofs.«130713_j75840532512927_1_alg».proof.Proof.KI.Value1Acc
import proofs.«130713_j75840532512927_1_alg».proof.Proof.LibSums
import proofs.«130713_j75840532512927_1_alg».proof.Proof.LibPlainProduct
import Idealize.ShloMosaic.Lib.ValueIdx
import Idealize.ShloMosaic.PureOps.Ideal.Laws
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region1

variable (V : (c : Dev nD) → (b : Ref sig .tc) → Buf (Elt Ideal) ((c : Thread nD τ).loc b))

/-- What a point that writes its output block back writes: its 2048 rows of the product. Such a point is the last of
    its row of blocks, where the accumulator holds the product's entries; the window moves the whole block. -/
theorem flushedR1 (c : Dev nD) (t : Fin cfg1.N) (hf : (cfg1.win 2).flush t = true) :
    (datR1 (F := Ideal) V c).flushed 2 t
      = ((cfg1.win 2).blk t).view.read (Elt Ideal)
          (Cert.PlainProduct.prod (M := 8192) (K := 8192) (N := 256) (φ₁ := .f32) (φ₂ := .bf16)
            (V c (Pipeline.arrRef spec1 0)) (V c (Pipeline.arrRef spec1 1))) := by
  have h3 : t.val % 4 = 3 := (flush1_2 t).mp hf
  have hN : t.val < 16 := lt_of_lt_of_eq t.isLt (show cfg1.N = 16 from N_1)
  have key : (accR1 V c t.val t.isLt : Vec Ideal S2048x256 .f32)
      = (((cfg1.win 2).blk t).view.read (Elt Ideal)
          (Cert.PlainProduct.prod (M := 8192) (K := 8192) (N := 256) (φ₁ := .f32) (φ₂ := .bf16)
            (V c (Pipeline.arrRef spec1 0)) (V c (Pipeline.arrRef spec1 1))) : Vec Ideal S2048x256 .f32) := by
    funext j
    obtain ⟨p, q, rfl⟩ : ∃ (p : Fin 2048) (q : Fin 256), j = ix2 p q := ⟨j 0, j 1, eq_ix2 j⟩
    have hp : p.val < 2048 := p.isLt
    rw [outR1_apply t _ p q ⟨2048 * (t.val / 4) + p.val, by omega⟩ rfl]
    exact accR1_last V c t h3 p q ⟨2048 * (t.val / 4) + p.val, by omega⟩ rfl
  show (cfg1.win 2).cut (grid1.coords t) ((datR1 (F := Ideal) V c).after 2 t) = _
  rw [afterR1_2]
  exact key

/-- Every entry of the result array is written back: row r lies in the block of the point 4 (r / 2048) + 3, the last of
    the row of blocks r / 2048. -/
theorem coverR1 (i : S8192x256.Idx) :
    ∃ t : Fin cfg1.N, (cfg1.win 2).flush t = true ∧ i ∈ ((cfg1.win 2).blk t).view.set := by
  have hi : (i 0).val < 8192 := (i 0).isLt
  have hN : cfg1.N = 16 := N_1
  refine ⟨⟨4 * ((i 0).val / 2048) + 3, by rw [hN]; omega⟩, (flush1_2 _).mpr ?_, mem_outR1 _ i ?_⟩
  · show (4 * ((i 0).val / 2048) + 3) % 4 = 3
    omega
  · show 2048 * ((4 * ((i 0).val / 2048) + 3) / 4) ≤ (i 0).val
      ∧ (i 0).val < 2048 * ((4 * ((i 0).val / 2048) + 3) / 4) + 2048
    omega

/-- After the region its output array holds the product of the two arrays it was entered with. -/
theorem finalR1 (c : Dev nD) :
    (datR1 (F := Ideal) V c).arrAt 2 cfg1.N
      = Cert.PlainProduct.prod (M := 8192) (K := 8192) (N := 256) (φ₁ := .f32) (φ₂ := .bf16)
          (V c (Pipeline.arrRef spec1 0)) (V c (Pipeline.arrRef spec1 1)) :=
  (datR1 (F := Ideal) V c).arrAt_eq_of_cover 2 _ (flushedR1 V c) coverR1

end Region1

end Cert.KernelIdeal.Hand

end
-- ==== Proof.KI.Value2Step.lean ====
/-
  One step of the blocked product of region 2, read at an entry over the extended reals. The step adds to the
  accumulator the product of the adjacency block with the feature rows: entry (p, q) grows by the sum over the 2048
  columns x of the block of adjacency (p, x) times features (x, q). The narrowing of the adjacency block to bf16 is the
  identity on extended reals, the casts between equal shapes change nothing, and the product into the zero block is the
  plain sum. The cleared accumulator is zero at every entry.
-/
import proofs.«130713_j75840532512927_1_alg».proof.Proof.Gen.KernelIdeal.Skeleton
import proofs.«130713_j75840532512927_1_alg».proof.Proof.KI.Step2
import proofs.«130713_j75840532512927_1_alg».proof.Proof.LibPlainProduct
import Idealize.ShloMosaic.Lib.ValueIdx
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-- The product's dimension numbers are those of a plain [2048, 2048] by [2048, 256] product: row by column, one
    contracted axis. -/
theorem dotR2_plain : dot_S2048x2048_S2048x256_S2048x256_1_0_0_1_n_n = DotDims.plain 2048 2048 256 := rfl

/-- A step at entry (p, q): what the accumulator held there plus the sum over the block's columns. -/
theorem step2_apply (a : Vec Ideal S2048x2048 .f32) (s : Vec Ideal S2048x256 .f32) (h : Vec Ideal S2048x256 .bf16)
    (p : Fin 2048) (q : Fin 256) :
    step2 (F := Ideal) a s h (ix2 p q) = s (ix2 p q) + ∑ x : Fin 2048, a (ix2 p x) * h (ix2 x q) := by
  unfold step2 k2_pay2
  simp only [shapeCast_self]
  rw [addf_apply, dotR2_plain, Cert.PlainProduct.matmul_zero_apply]
  rfl

/-- The cleared accumulator is zero at every entry. -/
theorem clear2_apply (p : Fin 2048) (q : Fin 256) : clear2 (F := Ideal) (ix2 p q) = 0 := by
  unfold clear2 k2_pay1
  simp only [shapeCast_self]
  show Ideal.ofBits .f32 0x00000000#32 = 0
  exact Ideal.ofBits_zero_f32

end Cert.KernelIdeal.Hand

end
-- ==== Proof.KI.Value2Blocks.lean ====
/-
  The blocks of region 2 as parts of their arrays. The grid point t = 4 i + k stands at row block i = t / 4 and column
  block k = t % 4. There the adjacency window shows rows 2048 i + p and columns 2048 k + x of the [8192, 8192] array, the
  feature window rows 2048 k + x of the [8192, 256] array (all 256 columns), and the output window rows 2048 i + p of
  the [8192, 256] result. A block's entry is the array's entry at: block index times block size, plus the coordinate
  inside the block, on each axis.
-/
import proofs.«130713_j75840532512927_1_alg».proof.Proof.Gen.KernelIdeal.Launch
import proofs.«130713_j75840532512927_1_alg».proof.Proof.Gen.KernelIdeal.Points
import proofs.«130713_j75840532512927_1_alg».proof.Proof.KI.Data2
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The block indices over the grid -/

/-- The adjacency window's block at point t is (t / 4, t % 4); -/
theorem idxR2_0 : ∀ t : Fin cfg2.N, win2_0.index t (0 : Fin 2) = t.val / 4 ∧ win2_0.index t (1 : Fin 2) = t.val % 4 :=
  (by decide +kernel : ∀ t : Fin grid2.N, win2_0.index t (0 : Fin 2) = t.val / 4 ∧ win2_0.index t (1 : Fin 2) = t.val % 4)
/-- the feature window's is (t % 4, 0); -/
theorem idxR2_1 : ∀ t : Fin cfg2.N, win2_1.index t (0 : Fin 2) = t.val % 4 ∧ win2_1.index t (1 : Fin 2) = 0 :=
  (by decide +kernel : ∀ t : Fin grid2.N, win2_1.index t (0 : Fin 2) = t.val % 4 ∧ win2_1.index t (1 : Fin 2) = 0)
/-- the output window's is (t / 4, 0). -/
theorem idxR2_2 : ∀ t : Fin cfg2.N, win2_2.index t (0 : Fin 2) = t.val / 4 ∧ win2_2.index t (1 : Fin 2) = 0 :=
  (by decide +kernel : ∀ t : Fin grid2.N, win2_2.index t (0 : Fin 2) = t.val / 4 ∧ win2_2.index t (1 : Fin 2) = 0)

/-! ## The blocks read at an entry -/

section Blocks

variable (V : (c : Dev nD) → (b : Ref sig .tc) → Buf (Elt F) ((c : Thread nD τ).loc b))

/-- The adjacency block's entry (p, x) at point t is the array's entry (2048 (t / 4) + p, 2048 (t % 4) + x). -/
theorem adjR2_apply (c : Dev nD) (t : Fin cfg2.N) (p x : Fin 2048) (R C : Fin 8192)
    (hR : R.val = 2048 * (t.val / 4) + p.val) (hC : C.val = 2048 * (t.val % 4) + x.val) :
    adjR2 V c t (ix2 p x) = (V c (Pipeline.arrRef spec2 0) : Vec F S8192x8192 .f32) (ix2 R C) := by
  obtain ⟨e0, e1⟩ := idxR2_0 t
  unfold adjR2 blkR2
  rw [View.read_apply]
  show V c main_arg2 _ = V c main_arg2 _
  congr 1
  funext a
  apply Fin.ext
  match a with
  | ⟨0, _⟩ => show win2_0.index t (0 : Fin 2) * 2048 + 1 * p.val = R.val; rw [e0, hR]; omega
  | ⟨1, _⟩ => show win2_0.index t (1 : Fin 2) * 2048 + 1 * x.val = C.val; rw [e1, hC]; omega

/-- The feature block's entry (x, q) at point t is the array's entry (2048 (t % 4) + x, q). -/
theorem featR2_apply (c : Dev nD) (t : Fin cfg2.N) (x : Fin 2048) (q : Fin 256) (C : Fin 8192)
    (hC : C.val = 2048 * (t.val % 4) + x.val) :
    featR2 V c t (ix2 x q) = (V c (Pipeline.arrRef spec2 1) : Vec F S8192x256 .bf16) (ix2 C q) := by
  obtain ⟨e0, e1⟩ := idxR2_1 t
  unfold featR2 blkR2
  rw [View.read_apply]
  show V c main_v53 _ = V c main_v53 _
  congr 1
  funext a
  apply Fin.ext
  match a with
  | ⟨0, _⟩ => show win2_1.index t (0 : Fin 2) * 2048 + 1 * x.val = C.val; rw [e0, hC]; omega
  | ⟨1, _⟩ => show win2_1.index t (1 : Fin 2) * 256 + 1 * q.val = q.val; rw [e1]; omega

end Blocks

/-- Any contents of the result array read through the output window's block at point t: entry (p, q) of the block is
    the array's entry (2048 (t / 4) + p, q). -/
theorem outR2_apply (t : Fin cfg2.N) (G : Vec F S8192x256 .f32) (p : Fin 2048) (q : Fin 256) (R : Fin 8192)
    (hR : R.val = 2048 * (t.val / 4) + p.val) :
    (((cfg2.win 2).blk t).view.read (Elt F) G : Vec F S2048x256 .f32) (ix2 p q) = G (ix2 R q) := by
  obtain ⟨e0, e1⟩ := idxR2_2 t
  rw [View.read_apply]
  show G _ = G _
  congr 1
  funext a
  apply Fin.ext
  match a with
  | ⟨0, _⟩ => show win2_2.index t (0 : Fin 2) * 2048 + 1 * p.val = R.val; rw [e0, hR]; omega
  | ⟨1, _⟩ => show win2_2.index t (1 : Fin 2) * 256 + 1 * q.val = q.val; rw [e1]; omega

/-- An entry of the result array lies in the output window's block at point t exactly when its row lies in the 2048
    rows that start at row 2048 (t / 4). -/
theorem mem_outR2 (t : Fin cfg2.N) (i : S8192x256.Idx) (h : 2048 * (t.val / 4) ≤ (i 0).val ∧ (i 0).val < 2048 * (t.val / 4) + 2048) :
    i ∈ ((cfg2.win 2).blk t).view.set := by
  obtain ⟨e0, e1⟩ := idxR2_2 t
  show i ∈ ((View.whole main_v54).slice (win2_2.rect t)).set
  rw [View.set_slice_whole, Rect.mem_set_unit]
  intro a
  have h1 : (i 1).val < 256 := (i 1).isLt
  match a with
  | ⟨0, _⟩ =>
    show win2_2.index t (0 : Fin 2) * 2048 ≤ (i 0).val ∧ (i 0).val < win2_2.index t (0 : Fin 2) * 2048 + 2048
    rw [e0]; omega
  | ⟨1, _⟩ =>
    show win2_2.index t (1 : Fin 2) * 256 ≤ (i 1).val ∧ (i 1).val < win2_2.index t (1 : Fin 2) * 256 + 256
    rw [e1]; omega

end Cert.KernelIdeal.Hand

end
-- ==== Proof.KI.Value2Acc.lean ====
/-
  The accumulator of region 2 at an entry, over the extended reals. Along a row of blocks the accumulator starts from
  zero and gains one block product per step, so after the step at column block k its entry (p, q) is the sum over the
  first k + 1 column blocks, each over its 2048 columns, of adjacency times features; after the last of the four it is
  the sum over all 8192 columns: the entry of the whole product.
-/
import proofs.«130713_j75840532512927_1_alg».proof.Proof.KI.Data2
import proofs.«130713_j75840532512927_1_alg».proof.Proof.KI.Value2Step
import proofs.«130713_j75840532512927_1_alg».proof.Proof.KI.Value2Blocks
import proofs.«130713_j75840532512927_1_alg».proof.Proof.LibSums
import proofs.«130713_j75840532512927_1_alg».proof.Proof.LibPlainProduct
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- One term of the product's entry (R, q): adjacency (R, m) times features (m, q). -/
abbrev termOfR2 (A : FVec Ideal ⟨2, ![8192, 8192]⟩ .f32) (H : FVec Ideal ⟨2, ![8192, 256]⟩ .bf16) (R : Fin 8192) (q : Fin 256) :
    Fin 8192 → EReal := fun m => A (ix2 R m) * H (ix2 m q)

section Region2

variable (V : (c : Dev nD) → (b : Ref sig .tc) → Buf (Elt Ideal) ((c : Thread nD τ).loc b))

/-- The terms over the two arrays the region is entered with. -/
abbrev termR2 (c : Dev nD) (R : Fin 8192) (q : Fin 256) : Fin 8192 → EReal :=
  termOfR2 (V c (Pipeline.arrRef spec2 0)) (V c (Pipeline.arrRef spec2 1)) R q

/-- The block product of the step at point t, at entry (p, q): the terms of column block t % 4. -/
theorem blocksumR2 (c : Dev nD) (t : Fin cfg2.N) (p : Fin 2048) (q : Fin 256) (R : Fin 8192) (j : ℕ) (hj : j < 4)
    (hR : R.val = 2048 * (t.val / 4) + p.val) (hjt : t.val % 4 = j) :
    ∑ x : Fin 2048, adjR2 V c t (ix2 p x) * featR2 V c t (ix2 x q)
      = ∑ r : Fin 2048, termR2 V c R q ⟨2048 * j + r.val, Cert.Sums.block_index_lt hj r.isLt⟩ := by
  refine Finset.sum_congr rfl fun x _ => ?_
  rw [adjR2_apply V c t p x R ⟨2048 * j + x.val, Cert.Sums.block_index_lt hj x.isLt⟩ hR (by rw [hjt]),
    featR2_apply V c t x q ⟨2048 * j + x.val, Cert.Sums.block_index_lt hj x.isLt⟩ (by rw [hjt])]

/-- After the step at point n, in column block j = n % 4, the accumulator's entry (p, q) is the sum of the terms of the
    column blocks 0 … j of row R = 2048 (n / 4) + p: by induction on the point, the head of a row of blocks starting
    again from zero. -/
theorem accR2_apply (c : Dev nD) (p : Fin 2048) (q : Fin 256) (R : Fin 8192) :
    ∀ (n : ℕ) (hn : n < cfg2.N) (j : ℕ) (hj : j < 4), n % 4 = j → R.val = 2048 * (n / 4) + p.val →
      accR2 V c n hn (ix2 p q) = Cert.Sums.prefixBlocks 4 2048 (termR2 V c R q) (j + 1) hj := by
  intro n
  induction n with
  | zero =>
    intro hn j hj hjn hR
    obtain rfl : j = 0 := by omega
    rw [show accR2 V c 0 hn = step2 (adjR2 V c ⟨0, hn⟩) clear2 (featR2 V c ⟨0, hn⟩) from rfl]
    rw [step2_apply, clear2_apply, Cert.Sums.prefixBlocks_succ 4 2048 _ 0 hj, Cert.Sums.prefixBlocks_zero,
      blocksumR2 V c ⟨0, hn⟩ p q R 0 hj hR rfl]
  | succ m ih =>
    intro hn j hj hjn hR
    by_cases h0 : (m + 1) % 4 = 0
    · obtain rfl : j = 0 := by omega
      rw [show accR2 V c (m + 1) hn = step2 (adjR2 V c ⟨m + 1, hn⟩) clear2 (featR2 V c ⟨m + 1, hn⟩) from if_pos h0]
      rw [step2_apply, clear2_apply, Cert.Sums.prefixBlocks_succ 4 2048 _ 0 hj, Cert.Sums.prefixBlocks_zero,
        blocksumR2 V c ⟨m + 1, hn⟩ p q R 0 hj hR h0]
    · obtain ⟨j', rfl⟩ : ∃ j', j = j' + 1 := ⟨j - 1, by omega⟩
      rw [show accR2 V c (m + 1) hn
          = step2 (adjR2 V c ⟨m + 1, hn⟩) (accR2 V c m (Nat.lt_of_succ_lt hn)) (featR2 V c ⟨m + 1, hn⟩) from if_neg h0]
      rw [step2_apply, ih (Nat.lt_of_succ_lt hn) j' (by omega) (by omega) (by omega),
        Cert.Sums.prefixBlocks_succ 4 2048 _ (j' + 1) hj,
        blocksumR2 V c ⟨m + 1, hn⟩ p q R (j' + 1) hj hR hjn]

/-- At the last step of a row of blocks the accumulator's entry (p, q) is the product's entry (R, q), R = 2048 (t / 4) + p:
    the four column blocks' terms are all 8192 terms. -/
theorem accR2_last (c : Dev nD) (t : Fin cfg2.N) (h3 : t.val % 4 = 3) (p : Fin 2048) (q : Fin 256) (R : Fin 8192)
    (hR : R.val = 2048 * (t.val / 4) + p.val) :
    accR2 V c t.val t.isLt (ix2 p q)
      = Cert.PlainProduct.prod (M := 8192) (K := 8192) (N := 256) (φ₁ := .f32) (φ₂ := .bf16)
          (V c (Pipeline.arrRef spec2 0)) (V c (Pipeline.arrRef spec2 1)) (ix2 R q) := by
  rw [accR2_apply V c p q R t.val t.isLt 3 (by omega) h3 hR, Cert.PlainProduct.prod_apply]
  exact Cert.Sums.prefixBlocks_all 4 2048 (termR2 V c R q)

end Region2

end Cert.KernelIdeal.Hand

end
-- ==== Proof.KI.Value2.lean ====
/-
  What region 2 leaves in its output array, over the extended reals: the product of the adjacency matrix with the
  feature rows, entry by entry. The accumulator at the end of a row of blocks is the cleared block plus four block
  products, which regroup into the one sum over all 8192 columns; the four row blocks' write-backs cover the array.
-/
import proofs.«130713_j75840532512927_1_alg».proof.Proof.Gen.KernelIdeal.Launch
import proofs.«130713_j75840532512927_1_alg».proof.Proof.Gen.KernelIdeal.Skeleton
import proofs.«130713_j75840532512927_1_alg».proof.Proof.Gen.KernelIdeal.Points
import proofs.«130713_j75840532512927_1_alg».proof.Proof.KI.Data2
import proofs.«130713_j75840532512927_1_alg».proof.Proof.KI.Value2Acc
import proofs.«130713_j75840532512927_1_alg».proof.Proof.LibSums
import proofs.«130713_j75840532512927_1_alg».proof.Proof.LibPlainProduct
import Idealize.ShloMosaic.Lib.ValueIdx
import Idealize.ShloMosaic.PureOps.Ideal.Laws
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region2

variable (V : (c : Dev nD) → (b : Ref sig .tc) → Buf (Elt Ideal) ((c : Thread nD τ).loc b))

/-- What a point that writes its output block back writes: its 2048 rows of the product. Such a point is the last of
    its row of blocks, where the accumulator holds the product's entries; the window moves the whole block. -/
theorem flushedR2 (c : Dev nD) (t : Fin cfg2.N) (hf : (cfg2.win 2).flush t = true) :
    (datR2 (F := Ideal) V c).flushed 2 t
      = ((cfg2.win 2).blk t).view.read (Elt Ideal)
          (Cert.PlainProduct.prod (M := 8192) (K := 8192) (N := 256) (φ₁ := .f32) (φ₂ := .bf16)
            (V c (Pipeline.arrRef spec2 0)) (V c (Pipeline.arrRef spec2 1))) := by
  have h3 : t.val % 4 = 3 := (flush2_2 t).mp hf
  have hN : t.val < 16 := lt_of_lt_of_eq t.isLt (show cfg2.N = 16 from N_2)
  have key : (accR2 V c t.val t.isLt : Vec Ideal S2048x256 .f32)
      = (((cfg2.win 2).blk t).view.read (Elt Ideal)
          (Cert.PlainProduct.prod (M := 8192) (K := 8192) (N := 256) (φ₁ := .f32) (φ₂ := .bf16)
            (V c (Pipeline.arrRef spec2 0)) (V c (Pipeline.arrRef spec2 1))) : Vec Ideal S2048x256 .f32) := by
    funext j
    obtain ⟨p, q, rfl⟩ : ∃ (p : Fin 2048) (q : Fin 256), j = ix2 p q := ⟨j 0, j 1, eq_ix2 j⟩
    have hp : p.val < 2048 := p.isLt
    rw [outR2_apply t _ p q ⟨2048 * (t.val / 4) + p.val, by omega⟩ rfl]
    exact accR2_last V c t h3 p q ⟨2048 * (t.val / 4) + p.val, by omega⟩ rfl
  show (cfg2.win 2).cut (grid2.coords t) ((datR2 (F := Ideal) V c).after 2 t) = _
  rw [afterR2_2]
  exact key

/-- Every entry of the result array is written back: row r lies in the block of the point 4 (r / 2048) + 3, the last of
    the row of blocks r / 2048. -/
theorem coverR2 (i : S8192x256.Idx) :
    ∃ t : Fin cfg2.N, (cfg2.win 2).flush t = true ∧ i ∈ ((cfg2.win 2).blk t).view.set := by
  have hi : (i 0).val < 8192 := (i 0).isLt
  have hN : cfg2.N = 16 := N_2
  refine ⟨⟨4 * ((i 0).val / 2048) + 3, by rw [hN]; omega⟩, (flush2_2 _).mpr ?_, mem_outR2 _ i ?_⟩
  · show (4 * ((i 0).val / 2048) + 3) % 4 = 3
    omega
  · show 2048 * ((4 * ((i 0).val / 2048) + 3) / 4) ≤ (i 0).val
      ∧ (i 0).val < 2048 * ((4 * ((i 0).val / 2048) + 3) / 4) + 2048
    omega

/-- After the region its output array holds the product of the two arrays it was entered with. -/
theorem finalR2 (c : Dev nD) :
    (datR2 (F := Ideal) V c).arrAt 2 cfg2.N
      = Cert.PlainProduct.prod (M := 8192) (K := 8192) (N := 256) (φ₁ := .f32) (φ₂ := .bf16)
          (V c (Pipeline.arrRef spec2 0)) (V c (Pipeline.arrRef spec2 1)) :=
  (datR2 (F := Ideal) V c).arrAt_eq_of_cover 2 _ (flushedR2 V c) coverR2

end Region2

end Cert.KernelIdeal.Hand

end
-- ==== Proof.Bridge.Head.lean ====
/-
  The first layer's activations. The kernel's program and the reference apply the same operations to the arguments: the embedding rows gathered at the (wrapped) indices, the dense layer, the rectifier. From equal arguments they reach equal activations.
-/
import proofs.«130713_j75840532512927_1_alg».proof.Proof.Gen.KernelIdeal.Launch
import proofs.«130713_j75840532512927_1_alg».proof.Proof.Ref.Cut
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 8000000 in
theorem head_eq (W : Valuation Cert.KernelIdeal.τ Cert.KernelIdeal.sig (Elt F)) (W' : Valuation Cert.ReferenceIdeal.τ Cert.ReferenceIdeal.sig (Elt F))
    (h0 : (W (Proc.devRef .tc Cert.KernelIdeal.main_arg0) : (⟨⟨1, ![8192]⟩, .i32⟩ : BufTy).Contents (Elt F)) = W' (Proc.devRef .tc Cert.ReferenceIdeal.main_arg0))
    (h1 : (W (Proc.devRef .tc Cert.KernelIdeal.main_arg3) : (⟨⟨2, ![10000, 256]⟩, .f32⟩ : BufTy).Contents (Elt F)) = W' (Proc.devRef .tc Cert.ReferenceIdeal.main_arg3))
    (h2 : (W (Proc.devRef .tc Cert.KernelIdeal.main_arg4) : (⟨⟨3, ![3, 256, 256]⟩, .f32⟩ : BufTy).Contents (Elt F)) = W' (Proc.devRef .tc Cert.ReferenceIdeal.main_arg4))
    (h3 : (W (Proc.devRef .tc Cert.KernelIdeal.main_arg5) : (⟨⟨2, ![3, 256]⟩, .f32⟩ : BufTy).Contents (Elt F)) = W' (Proc.devRef .tc Cert.ReferenceIdeal.main_arg5)) :
    (StableHlo.after Cert.KernelIdeal.Gen.hostOps0_1 (StableHlo.after Cert.KernelIdeal.Gen.hostOps0 (W)) (Proc.devRef .tc Cert.KernelIdeal.main_v16) : (⟨⟨2, ![8192, 256]⟩, .f32⟩ : BufTy).Contents (Elt F))
      = StableHlo.after Cert.ReferenceIdeal.Hand.headOps W' (Proc.devRef .tc Cert.ReferenceIdeal.main_v16) := by
  simp only [Cert.KernelIdeal.Gen.hostOps0, Cert.KernelIdeal.Gen.hostOps0_1, Cert.ReferenceIdeal.Hand.headOps]
  after_results_simp
  try simp only [TRef.ofBuf, TRef.toBuf, cast_eq]
  simp only [h0, h1, h2, h3]
  rfl

end Cert.Bridge

end
-- ==== Proof.Bridge.Mid1.lean ====
/-
  From the first layer to the second. Both programs add the product to the activations, divide each row by its norm (bounded below), and apply the second dense layer and rectifier: from equal activations, equal products and equal weights they reach equal activations.
-/
import proofs.«130713_j75840532512927_1_alg».proof.Proof.Gen.KernelIdeal.Launch
import proofs.«130713_j75840532512927_1_alg».proof.Proof.Ref.Cut
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 8000000 in
theorem mid1_eq (W : Valuation Cert.KernelIdeal.τ Cert.KernelIdeal.sig (Elt F)) (W' : Valuation Cert.ReferenceIdeal.τ Cert.ReferenceIdeal.sig (Elt F))
    (h0 : (W (Proc.devRef .tc Cert.KernelIdeal.main_v16) : (⟨⟨2, ![8192, 256]⟩, .f32⟩ : BufTy).Contents (Elt F)) = W' (Proc.devRef .tc Cert.ReferenceIdeal.main_v16))
    (h1 : (W (Proc.devRef .tc Cert.KernelIdeal.main_v18) : (⟨⟨2, ![8192, 256]⟩, .f32⟩ : BufTy).Contents (Elt F)) = W' (Proc.devRef .tc Cert.ReferenceIdeal.main_v17))
    (h2 : (W (Proc.devRef .tc Cert.KernelIdeal.main_arg4) : (⟨⟨3, ![3, 256, 256]⟩, .f32⟩ : BufTy).Contents (Elt F)) = W' (Proc.devRef .tc Cert.ReferenceIdeal.main_arg4))
    (h3 : (W (Proc.devRef .tc Cert.KernelIdeal.main_arg5) : (⟨⟨2, ![3, 256]⟩, .f32⟩ : BufTy).Contents (Elt F)) = W' (Proc.devRef .tc Cert.ReferenceIdeal.main_arg5)) :
    (StableHlo.after Cert.KernelIdeal.Gen.hostOps1_3 (StableHlo.after Cert.KernelIdeal.Gen.hostOps1_2 (StableHlo.after Cert.KernelIdeal.Gen.hostOps1_1 (StableHlo.after Cert.KernelIdeal.Gen.hostOps1 (W)))) (Proc.devRef .tc Cert.KernelIdeal.main_v34) : (⟨⟨2, ![8192, 256]⟩, .f32⟩ : BufTy).Contents (Elt F))
      = StableHlo.after Cert.ReferenceIdeal.Hand.midOps1 W' (Proc.devRef .tc Cert.ReferenceIdeal.main_v33) := by
  simp only [Cert.KernelIdeal.Gen.hostOps1, Cert.KernelIdeal.Gen.hostOps1_1, Cert.KernelIdeal.Gen.hostOps1_2, Cert.KernelIdeal.Gen.hostOps1_3, Cert.ReferenceIdeal.Hand.midOps1]
  after_results_simp
  try simp only [TRef.ofBuf, TRef.toBuf, cast_eq]
  simp only [h0, h1, h2, h3]
  rfl

end Cert.Bridge

end
-- ==== Proof.Bridge.Mid2.lean ====
/-
  From the second layer to the third: the same residual, normalisation, dense layer and rectifier, on the next slices of the weights.
-/
import proofs.«130713_j75840532512927_1_alg».proof.Proof.Gen.KernelIdeal.Launch
import proofs.«130713_j75840532512927_1_alg».proof.Proof.Ref.Cut
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 8000000 in
theorem mid2_eq (W : Valuation Cert.KernelIdeal.τ Cert.KernelIdeal.sig (Elt F)) (W' : Valuation Cert.ReferenceIdeal.τ Cert.ReferenceIdeal.sig (Elt F))
    (h0 : (W (Proc.devRef .tc Cert.KernelIdeal.main_v34) : (⟨⟨2, ![8192, 256]⟩, .f32⟩ : BufTy).Contents (Elt F)) = W' (Proc.devRef .tc Cert.ReferenceIdeal.main_v33))
    (h1 : (W (Proc.devRef .tc Cert.KernelIdeal.main_v36) : (⟨⟨2, ![8192, 256]⟩, .f32⟩ : BufTy).Contents (Elt F)) = W' (Proc.devRef .tc Cert.ReferenceIdeal.main_v34))
    (h2 : (W (Proc.devRef .tc Cert.KernelIdeal.main_arg4) : (⟨⟨3, ![3, 256, 256]⟩, .f32⟩ : BufTy).Contents (Elt F)) = W' (Proc.devRef .tc Cert.ReferenceIdeal.main_arg4))
    (h3 : (W (Proc.devRef .tc Cert.KernelIdeal.main_arg5) : (⟨⟨2, ![3, 256]⟩, .f32⟩ : BufTy).Contents (Elt F)) = W' (Proc.devRef .tc Cert.ReferenceIdeal.main_arg5)) :
    (StableHlo.after Cert.KernelIdeal.Gen.hostOps2_3 (StableHlo.after Cert.KernelIdeal.Gen.hostOps2_2 (StableHlo.after Cert.KernelIdeal.Gen.hostOps2_1 (StableHlo.after Cert.KernelIdeal.Gen.hostOps2 (W)))) (Proc.devRef .tc Cert.KernelIdeal.main_v52) : (⟨⟨2, ![8192, 256]⟩, .f32⟩ : BufTy).Contents (Elt F))
      = StableHlo.after Cert.ReferenceIdeal.Hand.midOps2 W' (Proc.devRef .tc Cert.ReferenceIdeal.main_v50) := by
  simp only [Cert.KernelIdeal.Gen.hostOps2, Cert.KernelIdeal.Gen.hostOps2_1, Cert.KernelIdeal.Gen.hostOps2_2, Cert.KernelIdeal.Gen.hostOps2_3, Cert.ReferenceIdeal.Hand.midOps2]
  after_results_simp
  try simp only [TRef.ofBuf, TRef.toBuf, cast_eq]
  simp only [h0, h1, h2, h3]
  rfl

end Cert.Bridge

end
-- ==== Proof.Bridge.Tail.lean ====
/-
  From the third layer to the result: the last residual and normalisation, the rows summed per molecule, the two output layers and the property read out. From equal activations, equal products and equal arguments both programs reach the same result.
-/
import proofs.«130713_j75840532512927_1_alg».proof.Proof.Gen.KernelIdeal.Launch
import proofs.«130713_j75840532512927_1_alg».proof.Proof.Ref.Cut
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 8000000 in
theorem tail_eq (W : Valuation Cert.KernelIdeal.τ Cert.KernelIdeal.sig (Elt F)) (W' : Valuation Cert.ReferenceIdeal.τ Cert.ReferenceIdeal.sig (Elt F))
    (h0 : (W (Proc.devRef .tc Cert.KernelIdeal.main_v52) : (⟨⟨2, ![8192, 256]⟩, .f32⟩ : BufTy).Contents (Elt F)) = W' (Proc.devRef .tc Cert.ReferenceIdeal.main_v50))
    (h1 : (W (Proc.devRef .tc Cert.KernelIdeal.main_v54) : (⟨⟨2, ![8192, 256]⟩, .f32⟩ : BufTy).Contents (Elt F)) = W' (Proc.devRef .tc Cert.ReferenceIdeal.main_v51))
    (h2 : (W (Proc.devRef .tc Cert.KernelIdeal.main_arg1) : (⟨⟨1, ![8192]⟩, .i32⟩ : BufTy).Contents (Elt F)) = W' (Proc.devRef .tc Cert.ReferenceIdeal.main_arg1))
    (h3 : (W (Proc.devRef .tc Cert.KernelIdeal.main_arg6) : (⟨⟨3, ![2, 256, 256]⟩, .f32⟩ : BufTy).Contents (Elt F)) = W' (Proc.devRef .tc Cert.ReferenceIdeal.main_arg6))
    (h4 : (W (Proc.devRef .tc Cert.KernelIdeal.main_arg7) : (⟨⟨2, ![2, 256]⟩, .f32⟩ : BufTy).Contents (Elt F)) = W' (Proc.devRef .tc Cert.ReferenceIdeal.main_arg7))
    (h5 : (W (Proc.devRef .tc Cert.KernelIdeal.main_arg8) : (⟨⟨2, ![1, 256]⟩, .f32⟩ : BufTy).Contents (Elt F)) = W' (Proc.devRef .tc Cert.ReferenceIdeal.main_arg8))
    (h6 : (W (Proc.devRef .tc Cert.KernelIdeal.main_arg9) : (⟨⟨1, ![1]⟩, .f32⟩ : BufTy).Contents (Elt F)) = W' (Proc.devRef .tc Cert.ReferenceIdeal.main_arg9)) :
    (StableHlo.after Cert.KernelIdeal.Gen.hostOps3_6 (StableHlo.after Cert.KernelIdeal.Gen.hostOps3_5 (StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 (W))))))) (Proc.devRef .tc Cert.KernelIdeal.main_v88) : (⟨⟨2, ![256, 1]⟩, .f32⟩ : BufTy).Contents (Elt F))
      = StableHlo.after Cert.ReferenceIdeal.Hand.tailOps W' (Proc.devRef .tc Cert.ReferenceIdeal.main_v85) := by
  simp only [Cert.KernelIdeal.Gen.hostOps3, Cert.KernelIdeal.Gen.hostOps3_1, Cert.KernelIdeal.Gen.hostOps3_2, Cert.KernelIdeal.Gen.hostOps3_3, Cert.KernelIdeal.Gen.hostOps3_4, Cert.KernelIdeal.Gen.hostOps3_5, Cert.KernelIdeal.Gen.hostOps3_6, Cert.ReferenceIdeal.Hand.tailOps]
  after_results_simp
  try simp only [TRef.ofBuf, TRef.toBuf, cast_eq]
  simp only [h0, h1, h2, h3, h4, h5, h6]
  rfl

end Cert.Bridge

end
-- ==== Proof.Bridge.Final.lean ====
/-
  The two programs reach the same result. Link by link: the first layer's activations agree (same operations on
  equal arguments); each kernel region leaves the product of the adjacency matrix with the activations, which is
  what the reference's product operation computes, the copy of the activations to the narrower format being the
  identity over the extended reals; between the products both programs apply the same operations; and so to the
  result.
-/
import proofs.«130713_j75840532512927_1_alg».proof.Proof.KI.Glue
import proofs.«130713_j75840532512927_1_alg».proof.Proof.KI.Value0
import proofs.«130713_j75840532512927_1_alg».proof.Proof.KI.Value1
import proofs.«130713_j75840532512927_1_alg».proof.Proof.KI.Value2
import proofs.«130713_j75840532512927_1_alg».proof.Proof.Bridge.Head
import proofs.«130713_j75840532512927_1_alg».proof.Proof.Bridge.Mid1
import proofs.«130713_j75840532512927_1_alg».proof.Proof.Bridge.Mid2
import proofs.«130713_j75840532512927_1_alg».proof.Proof.Bridge.Tail
import proofs.«130713_j75840532512927_1_alg».proof.Proof.Ref.Cut
import proofs.«130713_j75840532512927_1_alg».proof.Proof.Ref.Keep
import proofs.«130713_j75840532512927_1_alg».proof.Proof.LibPlainProduct
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal.Gen Cert.KernelIdeal.Hand Cert.ReferenceIdeal.Hand

variable (m : (ℓ : Loc Cert.KernelIdeal.nD Cert.KernelIdeal.τ Cert.KernelIdeal.sig) → Buf (Elt Ideal) ℓ)
variable (c : Dev Cert.KernelIdeal.nD)

/-- Copying an array to the narrower format changes nothing over the extended reals, so the product with the copy is
    the product with the array. -/
theorem prod_narrow (A : FVec Ideal ⟨2, ![8192, 8192]⟩ .f32) (X : FVec Ideal ⟨2, ![8192, 256]⟩ .f32) :
    Cert.PlainProduct.prod (M := 8192) (K := 8192) (N := 256) (φ₁ := .f32) (φ₂ := .bf16) A (truncf .bf16 X Cert.KernelIdeal.Facts₀.bitsLt_bf16_f32)
      = Cert.PlainProduct.prod (M := 8192) (K := 8192) (N := 256) (φ₁ := .f32) (φ₂ := .f32) A X := rfl

/-- The reference's product operation computes the product. -/
theorem ref_prod (A : FVec Ideal ⟨2, ![8192, 8192]⟩ .f32) (X : FVec Ideal ⟨2, ![8192, 256]⟩ .f32) :
    Host.dotGeneral (F := Ideal) Cert.ReferenceIdeal.dot_S8192x8192_S8192x256_S8192x256_1_0_0_1_n_n none A X
      = Cert.PlainProduct.prod (M := 8192) (K := 8192) (N := 256) (φ₁ := .f32) (φ₂ := .f32) A X :=
  Cert.PlainProduct.dotGeneral_eq_prod none A X

/-- Product 1: region 0 leaves in its output array what the reference's product operation 1 computes, when the activations
    and the adjacency matrix agree. -/
theorem prod_link1 (Rp : Valuation Cert.ReferenceIdeal.τ Cert.ReferenceIdeal.sig (Elt Ideal))
    (hh : (V2 m c Cert.KernelIdeal.main_v16 : FVec Ideal ⟨2, ![8192, 256]⟩ .f32) = Rp (Proc.devRef .tc Cert.ReferenceIdeal.main_v16))
    (hA : (Rp (Proc.devRef .tc Cert.ReferenceIdeal.main_arg2) : FVec Ideal ⟨2, ![8192, 8192]⟩ .f32) = m ((c : Thread Cert.KernelIdeal.nD Cert.KernelIdeal.τ).loc Cert.KernelIdeal.main_arg2)) :
    (V4 m (outsC m) c Cert.KernelIdeal.main_v18 : FVec Ideal ⟨2, ![8192, 256]⟩ .f32)
      = StableHlo.after prodOps1 Rp (Proc.devRef .tc Cert.ReferenceIdeal.main_v17) := by
  have hl : (V4 m (outsC m) c Cert.KernelIdeal.main_v18 : FVec Ideal ⟨2, ![8192, 256]⟩ .f32)
      = Cert.PlainProduct.prod (M := 8192) (K := 8192) (N := 256) (φ₁ := .f32) (φ₂ := .bf16)
          (V3 m c Cert.KernelIdeal.main_arg2) (V3 m c Cert.KernelIdeal.main_v17) :=
    (outR0 m c).trans (finalR0 (entR0 m) c)
  have hr : (StableHlo.after prodOps1 Rp (Proc.devRef .tc Cert.ReferenceIdeal.main_v17) : FVec Ideal ⟨2, ![8192, 256]⟩ .f32)
      = Cert.PlainProduct.prod (M := 8192) (K := 8192) (N := 256) (φ₁ := .f32) (φ₂ := .f32)
          (Rp (Proc.devRef .tc Cert.ReferenceIdeal.main_arg2)) (Rp (Proc.devRef .tc Cert.ReferenceIdeal.main_v16)) := by
    simp only [prodOps1]
    after_results_simp
    exact ref_prod _ _
  have hc : (truncf (F := Ideal) (s := ⟨2, ![8192, 256]⟩) (φ := .f32) .bf16 (V2 m c Cert.KernelIdeal.main_v16) Cert.KernelIdeal.Facts₀.bitsLt_bf16_f32 : FVec Ideal ⟨2, ![8192, 256]⟩ .bf16)
      = V3 m c Cert.KernelIdeal.main_v17 := by
    show _ = StableHlo.after hostOps0_2 (V2 m c) (Proc.devRef .tc Cert.KernelIdeal.main_v17)
    simp only [hostOps0_2]
    after_results_simp
  have ha : (V3 m c Cert.KernelIdeal.main_arg2 : FVec Ideal ⟨2, ![8192, 8192]⟩ .f32) = m ((c : Thread Cert.KernelIdeal.nD Cert.KernelIdeal.τ).loc Cert.KernelIdeal.main_arg2) :=
    (V3_of m c Cert.KernelIdeal.main_arg2 (by decide)).trans <| (V2_of m c Cert.KernelIdeal.main_arg2 (by decide)).trans <| (V1_of m c Cert.KernelIdeal.main_arg2 (by decide)).trans <| rfl
  rw [hl, hr, ← hc, ha, hA, prod_narrow]
  exact congrArg _ hh

/-- Product 2: region 1 leaves in its output array what the reference's product operation 2 computes, when the activations
    and the adjacency matrix agree. -/
theorem prod_link2 (Rp : Valuation Cert.ReferenceIdeal.τ Cert.ReferenceIdeal.sig (Elt Ideal))
    (hh : (V8 m (outsA m) c Cert.KernelIdeal.main_v34 : FVec Ideal ⟨2, ![8192, 256]⟩ .f32) = Rp (Proc.devRef .tc Cert.ReferenceIdeal.main_v33))
    (hA : (Rp (Proc.devRef .tc Cert.ReferenceIdeal.main_arg2) : FVec Ideal ⟨2, ![8192, 8192]⟩ .f32) = m ((c : Thread Cert.KernelIdeal.nD Cert.KernelIdeal.τ).loc Cert.KernelIdeal.main_arg2)) :
    (V10 m (outsC m) c Cert.KernelIdeal.main_v36 : FVec Ideal ⟨2, ![8192, 256]⟩ .f32)
      = StableHlo.after prodOps2 Rp (Proc.devRef .tc Cert.ReferenceIdeal.main_v34) := by
  have hl : (V10 m (outsC m) c Cert.KernelIdeal.main_v36 : FVec Ideal ⟨2, ![8192, 256]⟩ .f32)
      = Cert.PlainProduct.prod (M := 8192) (K := 8192) (N := 256) (φ₁ := .f32) (φ₂ := .bf16)
          (V9 m (outsA m) c Cert.KernelIdeal.main_arg2) (V9 m (outsA m) c Cert.KernelIdeal.main_v35) :=
    (outR1 m c).trans (finalR1 (entR1 m) c)
  have hr : (StableHlo.after prodOps2 Rp (Proc.devRef .tc Cert.ReferenceIdeal.main_v34) : FVec Ideal ⟨2, ![8192, 256]⟩ .f32)
      = Cert.PlainProduct.prod (M := 8192) (K := 8192) (N := 256) (φ₁ := .f32) (φ₂ := .f32)
          (Rp (Proc.devRef .tc Cert.ReferenceIdeal.main_arg2)) (Rp (Proc.devRef .tc Cert.ReferenceIdeal.main_v33)) := by
    simp only [prodOps2]
    after_results_simp
    exact ref_prod _ _
  have hc : (truncf (F := Ideal) (s := ⟨2, ![8192, 256]⟩) (φ := .f32) .bf16 (V8 m (outsA m) c Cert.KernelIdeal.main_v34) Cert.KernelIdeal.Facts₀.bitsLt_bf16_f32 : FVec Ideal ⟨2, ![8192, 256]⟩ .bf16)
      = V9 m (outsA m) c Cert.KernelIdeal.main_v35 := by
    show _ = StableHlo.after hostOps1_4 (V8 m (outsA m) c) (Proc.devRef .tc Cert.KernelIdeal.main_v35)
    simp only [hostOps1_4]
    after_results_simp
  have ha : (V9 m (outsA m) c Cert.KernelIdeal.main_arg2 : FVec Ideal ⟨2, ![8192, 8192]⟩ .f32) = m ((c : Thread Cert.KernelIdeal.nD Cert.KernelIdeal.τ).loc Cert.KernelIdeal.main_arg2) :=
    (V9_of m (outsA m) c Cert.KernelIdeal.main_arg2 (by decide)).trans <| (V8_of m (outsA m) c Cert.KernelIdeal.main_arg2 (by decide)).trans <| (V7_of m (outsA m) c Cert.KernelIdeal.main_arg2 (by decide)).trans <| (V6_of m (outsA m) c Cert.KernelIdeal.main_arg2 (by decide)).trans <| (V5_of m (outsA m) c Cert.KernelIdeal.main_arg2 (by decide)).trans <| (V4_of m (outsA m) c Cert.KernelIdeal.main_arg2 (by decide)).trans <| (V3_of m c Cert.KernelIdeal.main_arg2 (by decide)).trans <| (V2_of m c Cert.KernelIdeal.main_arg2 (by decide)).trans <| (V1_of m c Cert.KernelIdeal.main_arg2 (by decide)).trans <| rfl
  rw [hl, hr, ← hc, ha, hA, prod_narrow]
  exact congrArg _ hh

/-- Product 3: region 2 leaves in its output array what the reference's product operation 3 computes, when the activations
    and the adjacency matrix agree. -/
theorem prod_link3 (Rp : Valuation Cert.ReferenceIdeal.τ Cert.ReferenceIdeal.sig (Elt Ideal))
    (hh : (V14 m (outsB m) c Cert.KernelIdeal.main_v52 : FVec Ideal ⟨2, ![8192, 256]⟩ .f32) = Rp (Proc.devRef .tc Cert.ReferenceIdeal.main_v50))
    (hA : (Rp (Proc.devRef .tc Cert.ReferenceIdeal.main_arg2) : FVec Ideal ⟨2, ![8192, 8192]⟩ .f32) = m ((c : Thread Cert.KernelIdeal.nD Cert.KernelIdeal.τ).loc Cert.KernelIdeal.main_arg2)) :
    (V16 m (outsC m) c Cert.KernelIdeal.main_v54 : FVec Ideal ⟨2, ![8192, 256]⟩ .f32)
      = StableHlo.after prodOps3 Rp (Proc.devRef .tc Cert.ReferenceIdeal.main_v51) := by
  have hl : (V16 m (outsC m) c Cert.KernelIdeal.main_v54 : FVec Ideal ⟨2, ![8192, 256]⟩ .f32)
      = Cert.PlainProduct.prod (M := 8192) (K := 8192) (N := 256) (φ₁ := .f32) (φ₂ := .bf16)
          (V15 m (outsB m) c Cert.KernelIdeal.main_arg2) (V15 m (outsB m) c Cert.KernelIdeal.main_v53) :=
    (outR2 m c).trans (finalR2 (entR2 m) c)
  have hr : (StableHlo.after prodOps3 Rp (Proc.devRef .tc Cert.ReferenceIdeal.main_v51) : FVec Ideal ⟨2, ![8192, 256]⟩ .f32)
      = Cert.PlainProduct.prod (M := 8192) (K := 8192) (N := 256) (φ₁ := .f32) (φ₂ := .f32)
          (Rp (Proc.devRef .tc Cert.ReferenceIdeal.main_arg2)) (Rp (Proc.devRef .tc Cert.ReferenceIdeal.main_v50)) := by
    simp only [prodOps3]
    after_results_simp
    exact ref_prod _ _
  have hc : (truncf (F := Ideal) (s := ⟨2, ![8192, 256]⟩) (φ := .f32) .bf16 (V14 m (outsB m) c Cert.KernelIdeal.main_v52) Cert.KernelIdeal.Facts₀.bitsLt_bf16_f32 : FVec Ideal ⟨2, ![8192, 256]⟩ .bf16)
      = V15 m (outsB m) c Cert.KernelIdeal.main_v53 := by
    show _ = StableHlo.after hostOps2_4 (V14 m (outsB m) c) (Proc.devRef .tc Cert.KernelIdeal.main_v53)
    simp only [hostOps2_4]
    after_results_simp
  have ha : (V15 m (outsB m) c Cert.KernelIdeal.main_arg2 : FVec Ideal ⟨2, ![8192, 8192]⟩ .f32) = m ((c : Thread Cert.KernelIdeal.nD Cert.KernelIdeal.τ).loc Cert.KernelIdeal.main_arg2) :=
    (V15_of m (outsB m) c Cert.KernelIdeal.main_arg2 (by decide)).trans <| (V14_of m (outsB m) c Cert.KernelIdeal.main_arg2 (by decide)).trans <| (V13_of m (outsB m) c Cert.KernelIdeal.main_arg2 (by decide)).trans <| (V12_of m (outsB m) c Cert.KernelIdeal.main_arg2 (by decide)).trans <| (V11_of m (outsB m) c Cert.KernelIdeal.main_arg2 (by decide)).trans <| (V10_of m (outsB m) c Cert.KernelIdeal.main_arg2 (by decide)).trans <| (V9_of m (outsB m) c Cert.KernelIdeal.main_arg2 (by decide)).trans <| (V8_of m (outsB m) c Cert.KernelIdeal.main_arg2 (by decide)).trans <| (V7_of m (outsB m) c Cert.KernelIdeal.main_arg2 (by decide)).trans <| (V6_of m (outsB m) c Cert.KernelIdeal.main_arg2 (by decide)).trans <| (V5_of m (outsB m) c Cert.KernelIdeal.main_arg2 (by decide)).trans <| (V4_of m (outsB m) c Cert.KernelIdeal.main_arg2 (by decide)).trans <| (V3_of m c Cert.KernelIdeal.main_arg2 (by decide)).trans <| (V2_of m c Cert.KernelIdeal.main_arg2 (by decide)).trans <| (V1_of m c Cert.KernelIdeal.main_arg2 (by decide)).trans <| rfl
  rw [hl, hr, ← hc, ha, hA, prod_narrow]
  exact congrArg _ hh

/-- A later stage of the regions' outputs does not change what an earlier stretch of the program computes. -/
theorem V8_stage : V8 m (outsC m) c = V8 m (outsA m) c := rfl
theorem V14_stage : V14 m (outsC m) c = V14 m (outsB m) c := rfl

variable (m' : (ℓ : Loc Cert.ReferenceIdeal.nD Cert.ReferenceIdeal.τ Cert.ReferenceIdeal.sig) → Buf (Elt Ideal) ℓ)

set_option maxHeartbeats 4000000 in
/-- From memories that agree on the arguments, the reference's result buffer after all its operations holds what
    the kernel's program leaves in its own. -/
theorem result_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Rv7 m' c (Proc.devRef .tc Cert.ReferenceIdeal.main_v85) : (⟨⟨2, ![256, 1]⟩, .f32⟩ : BufTy).Contents (Elt Ideal)) = V23 m (outsC m) c Cert.KernelIdeal.main_v88 := by
  -- the first layer's activations
  have e1 : (V2 m c Cert.KernelIdeal.main_v16 : (⟨⟨2, ![8192, 256]⟩, .f32⟩ : BufTy).Contents (Elt Ideal)) = Rv1 m' c (Proc.devRef .tc Cert.ReferenceIdeal.main_v16) :=
    head_eq (V0 m c) (Rv0 m' c) a0.symm a3.symm a4.symm a5.symm
  -- the first product
  have p1 : (V4 m (outsC m) c Cert.KernelIdeal.main_v18 : (⟨⟨2, ![8192, 256]⟩, .f32⟩ : BufTy).Contents (Elt Ideal)) = Rv2 m' c (Proc.devRef .tc Cert.ReferenceIdeal.main_v17) :=
    prod_link1 m c (Rv1 m' c) e1 ((keep1_arg2 m' c).trans a2)
  -- to the second layer
  have e2 : (V8 m (outsC m) c Cert.KernelIdeal.main_v34 : (⟨⟨2, ![8192, 256]⟩, .f32⟩ : BufTy).Contents (Elt Ideal)) = Rv3 m' c (Proc.devRef .tc Cert.ReferenceIdeal.main_v33) :=
    mid1_eq (V4 m (outsC m) c) (Rv2 m' c)
      (((V4_of m (outsC m) c Cert.KernelIdeal.main_v16 (by decide)).trans (V3_of m c Cert.KernelIdeal.main_v16 (by decide))).trans (e1.trans (keep2_v16 m' c).symm))
      p1
      (((V4_of m (outsC m) c Cert.KernelIdeal.main_arg4 (by decide)).trans <| (V3_of m c Cert.KernelIdeal.main_arg4 (by decide)).trans <| (V2_of m c Cert.KernelIdeal.main_arg4 (by decide)).trans <| (V1_of m c Cert.KernelIdeal.main_arg4 (by decide)).trans <| rfl).trans (a4.symm.trans (keep2_arg4 m' c).symm))
      (((V4_of m (outsC m) c Cert.KernelIdeal.main_arg5 (by decide)).trans <| (V3_of m c Cert.KernelIdeal.main_arg5 (by decide)).trans <| (V2_of m c Cert.KernelIdeal.main_arg5 (by decide)).trans <| (V1_of m c Cert.KernelIdeal.main_arg5 (by decide)).trans <| rfl).trans (a5.symm.trans (keep2_arg5 m' c).symm))
  -- the second product
  have p2 : (V10 m (outsC m) c Cert.KernelIdeal.main_v36 : (⟨⟨2, ![8192, 256]⟩, .f32⟩ : BufTy).Contents (Elt Ideal)) = Rv4 m' c (Proc.devRef .tc Cert.ReferenceIdeal.main_v34) :=
    prod_link2 m c (Rv3 m' c) e2 ((keep3_arg2 m' c).trans a2)
  -- to the third layer
  have e3 : (V14 m (outsC m) c Cert.KernelIdeal.main_v52 : (⟨⟨2, ![8192, 256]⟩, .f32⟩ : BufTy).Contents (Elt Ideal)) = Rv5 m' c (Proc.devRef .tc Cert.ReferenceIdeal.main_v50) :=
    mid2_eq (V10 m (outsC m) c) (Rv4 m' c)
      (((V10_of m (outsC m) c Cert.KernelIdeal.main_v34 (by decide)).trans (V9_of m (outsC m) c Cert.KernelIdeal.main_v34 (by decide))).trans (e2.trans (keep4_v33 m' c).symm))
      p2
      (((V10_of m (outsC m) c Cert.KernelIdeal.main_arg4 (by decide)).trans <| (V9_of m (outsC m) c Cert.KernelIdeal.main_arg4 (by decide)).trans <| (V8_of m (outsC m) c Cert.KernelIdeal.main_arg4 (by decide)).trans <| (V7_of m (outsC m) c Cert.KernelIdeal.main_arg4 (by decide)).trans <| (V6_of m (outsC m) c Cert.KernelIdeal.main_arg4 (by decide)).trans <| (V5_of m (outsC m) c Cert.KernelIdeal.main_arg4 (by decide)).trans <| (V4_of m (outsC m) c Cert.KernelIdeal.main_arg4 (by decide)).trans <| (V3_of m c Cert.KernelIdeal.main_arg4 (by decide)).trans <| (V2_of m c Cert.KernelIdeal.main_arg4 (by decide)).trans <| (V1_of m c Cert.KernelIdeal.main_arg4 (by decide)).trans <| rfl).trans (a4.symm.trans (keep4_arg4 m' c).symm))
      (((V10_of m (outsC m) c Cert.KernelIdeal.main_arg5 (by decide)).trans <| (V9_of m (outsC m) c Cert.KernelIdeal.main_arg5 (by decide)).trans <| (V8_of m (outsC m) c Cert.KernelIdeal.main_arg5 (by decide)).trans <| (V7_of m (outsC m) c Cert.KernelIdeal.main_arg5 (by decide)).trans <| (V6_of m (outsC m) c Cert.KernelIdeal.main_arg5 (by decide)).trans <| (V5_of m (outsC m) c Cert.KernelIdeal.main_arg5 (by decide)).trans <| (V4_of m (outsC m) c Cert.KernelIdeal.main_arg5 (by decide)).trans <| (V3_of m c Cert.KernelIdeal.main_arg5 (by decide)).trans <| (V2_of m c Cert.KernelIdeal.main_arg5 (by decide)).trans <| (V1_of m c Cert.KernelIdeal.main_arg5 (by decide)).trans <| rfl).trans (a5.symm.trans (keep4_arg5 m' c).symm))
  -- the third product
  have p3 : (V16 m (outsC m) c Cert.KernelIdeal.main_v54 : (⟨⟨2, ![8192, 256]⟩, .f32⟩ : BufTy).Contents (Elt Ideal)) = Rv6 m' c (Proc.devRef .tc Cert.ReferenceIdeal.main_v51) :=
    prod_link3 m c (Rv5 m' c) e3 ((keep5_arg2 m' c).trans a2)
  -- to the result
  have e4 : (V23 m (outsC m) c Cert.KernelIdeal.main_v88 : (⟨⟨2, ![256, 1]⟩, .f32⟩ : BufTy).Contents (Elt Ideal)) = Rv7 m' c (Proc.devRef .tc Cert.ReferenceIdeal.main_v85) :=
    tail_eq (V16 m (outsC m) c) (Rv6 m' c)
      (((V16_of m (outsC m) c Cert.KernelIdeal.main_v52 (by decide)).trans (V15_of m (outsC m) c Cert.KernelIdeal.main_v52 (by decide))).trans (e3.trans (keep6_v50 m' c).symm))
      p3
      (((V16_of m (outsC m) c Cert.KernelIdeal.main_arg1 (by decide)).trans <| (V15_of m (outsC m) c Cert.KernelIdeal.main_arg1 (by decide)).trans <| (V14_of m (outsC m) c Cert.KernelIdeal.main_arg1 (by decide)).trans <| (V13_of m (outsC m) c Cert.KernelIdeal.main_arg1 (by decide)).trans <| (V12_of m (outsC m) c Cert.KernelIdeal.main_arg1 (by decide)).trans <| (V11_of m (outsC m) c Cert.KernelIdeal.main_arg1 (by decide)).trans <| (V10_of m (outsC m) c Cert.KernelIdeal.main_arg1 (by decide)).trans <| (V9_of m (outsC m) c Cert.KernelIdeal.main_arg1 (by decide)).trans <| (V8_of m (outsC m) c Cert.KernelIdeal.main_arg1 (by decide)).trans <| (V7_of m (outsC m) c Cert.KernelIdeal.main_arg1 (by decide)).trans <| (V6_of m (outsC m) c Cert.KernelIdeal.main_arg1 (by decide)).trans <| (V5_of m (outsC m) c Cert.KernelIdeal.main_arg1 (by decide)).trans <| (V4_of m (outsC m) c Cert.KernelIdeal.main_arg1 (by decide)).trans <| (V3_of m c Cert.KernelIdeal.main_arg1 (by decide)).trans <| (V2_of m c Cert.KernelIdeal.main_arg1 (by decide)).trans <| (V1_of m c Cert.KernelIdeal.main_arg1 (by decide)).trans <| rfl).trans (a1.symm.trans (keep6_arg1 m' c).symm))
      (((V16_of m (outsC m) c Cert.KernelIdeal.main_arg6 (by decide)).trans <| (V15_of m (outsC m) c Cert.KernelIdeal.main_arg6 (by decide)).trans <| (V14_of m (outsC m) c Cert.KernelIdeal.main_arg6 (by decide)).trans <| (V13_of m (outsC m) c Cert.KernelIdeal.main_arg6 (by decide)).trans <| (V12_of m (outsC m) c Cert.KernelIdeal.main_arg6 (by decide)).trans <| (V11_of m (outsC m) c Cert.KernelIdeal.main_arg6 (by decide)).trans <| (V10_of m (outsC m) c Cert.KernelIdeal.main_arg6 (by decide)).trans <| (V9_of m (outsC m) c Cert.KernelIdeal.main_arg6 (by decide)).trans <| (V8_of m (outsC m) c Cert.KernelIdeal.main_arg6 (by decide)).trans <| (V7_of m (outsC m) c Cert.KernelIdeal.main_arg6 (by decide)).trans <| (V6_of m (outsC m) c Cert.KernelIdeal.main_arg6 (by decide)).trans <| (V5_of m (outsC m) c Cert.KernelIdeal.main_arg6 (by decide)).trans <| (V4_of m (outsC m) c Cert.KernelIdeal.main_arg6 (by decide)).trans <| (V3_of m c Cert.KernelIdeal.main_arg6 (by decide)).trans <| (V2_of m c Cert.KernelIdeal.main_arg6 (by decide)).trans <| (V1_of m c Cert.KernelIdeal.main_arg6 (by decide)).trans <| rfl).trans (a6.symm.trans (keep6_arg6 m' c).symm))
      (((V16_of m (outsC m) c Cert.KernelIdeal.main_arg7 (by decide)).trans <| (V15_of m (outsC m) c Cert.KernelIdeal.main_arg7 (by decide)).trans <| (V14_of m (outsC m) c Cert.KernelIdeal.main_arg7 (by decide)).trans <| (V13_of m (outsC m) c Cert.KernelIdeal.main_arg7 (by decide)).trans <| (V12_of m (outsC m) c Cert.KernelIdeal.main_arg7 (by decide)).trans <| (V11_of m (outsC m) c Cert.KernelIdeal.main_arg7 (by decide)).trans <| (V10_of m (outsC m) c Cert.KernelIdeal.main_arg7 (by decide)).trans <| (V9_of m (outsC m) c Cert.KernelIdeal.main_arg7 (by decide)).trans <| (V8_of m (outsC m) c Cert.KernelIdeal.main_arg7 (by decide)).trans <| (V7_of m (outsC m) c Cert.KernelIdeal.main_arg7 (by decide)).trans <| (V6_of m (outsC m) c Cert.KernelIdeal.main_arg7 (by decide)).trans <| (V5_of m (outsC m) c Cert.KernelIdeal.main_arg7 (by decide)).trans <| (V4_of m (outsC m) c Cert.KernelIdeal.main_arg7 (by decide)).trans <| (V3_of m c Cert.KernelIdeal.main_arg7 (by decide)).trans <| (V2_of m c Cert.KernelIdeal.main_arg7 (by decide)).trans <| (V1_of m c Cert.KernelIdeal.main_arg7 (by decide)).trans <| rfl).trans (a7.symm.trans (keep6_arg7 m' c).symm))
      (((V16_of m (outsC m) c Cert.KernelIdeal.main_arg8 (by decide)).trans <| (V15_of m (outsC m) c Cert.KernelIdeal.main_arg8 (by decide)).trans <| (V14_of m (outsC m) c Cert.KernelIdeal.main_arg8 (by decide)).trans <| (V13_of m (outsC m) c Cert.KernelIdeal.main_arg8 (by decide)).trans <| (V12_of m (outsC m) c Cert.KernelIdeal.main_arg8 (by decide)).trans <| (V11_of m (outsC m) c Cert.KernelIdeal.main_arg8 (by decide)).trans <| (V10_of m (outsC m) c Cert.KernelIdeal.main_arg8 (by decide)).trans <| (V9_of m (outsC m) c Cert.KernelIdeal.main_arg8 (by decide)).trans <| (V8_of m (outsC m) c Cert.KernelIdeal.main_arg8 (by decide)).trans <| (V7_of m (outsC m) c Cert.KernelIdeal.main_arg8 (by decide)).trans <| (V6_of m (outsC m) c Cert.KernelIdeal.main_arg8 (by decide)).trans <| (V5_of m (outsC m) c Cert.KernelIdeal.main_arg8 (by decide)).trans <| (V4_of m (outsC m) c Cert.KernelIdeal.main_arg8 (by decide)).trans <| (V3_of m c Cert.KernelIdeal.main_arg8 (by decide)).trans <| (V2_of m c Cert.KernelIdeal.main_arg8 (by decide)).trans <| (V1_of m c Cert.KernelIdeal.main_arg8 (by decide)).trans <| rfl).trans (a8.symm.trans (keep6_arg8 m' c).symm))
      (((V16_of m (outsC m) c Cert.KernelIdeal.main_arg9 (by decide)).trans <| (V15_of m (outsC m) c Cert.KernelIdeal.main_arg9 (by decide)).trans <| (V14_of m (outsC m) c Cert.KernelIdeal.main_arg9 (by decide)).trans <| (V13_of m (outsC m) c Cert.KernelIdeal.main_arg9 (by decide)).trans <| (V12_of m (outsC m) c Cert.KernelIdeal.main_arg9 (by decide)).trans <| (V11_of m (outsC m) c Cert.KernelIdeal.main_arg9 (by decide)).trans <| (V10_of m (outsC m) c Cert.KernelIdeal.main_arg9 (by decide)).trans <| (V9_of m (outsC m) c Cert.KernelIdeal.main_arg9 (by decide)).trans <| (V8_of m (outsC m) c Cert.KernelIdeal.main_arg9 (by decide)).trans <| (V7_of m (outsC m) c Cert.KernelIdeal.main_arg9 (by decide)).trans <| (V6_of m (outsC m) c Cert.KernelIdeal.main_arg9 (by decide)).trans <| (V5_of m (outsC m) c Cert.KernelIdeal.main_arg9 (by decide)).trans <| (V4_of m (outsC m) c Cert.KernelIdeal.main_arg9 (by decide)).trans <| (V3_of m c Cert.KernelIdeal.main_arg9 (by decide)).trans <| (V2_of m c Cert.KernelIdeal.main_arg9 (by decide)).trans <| (V1_of m c Cert.KernelIdeal.main_arg9 (by decide)).trans <| rfl).trans (a9.symm.trans (keep6_arg9 m' c).symm))
  exact e4.symm

end Cert.Bridge

end
-- ==== Proof.lean ====
/-
  The certificate of a graph network's forward pass whose three message-passing products run as blocked kernels.
  The kernel's program and the reference differ only there: where the reference multiplies the adjacency matrix by
  the layer's activations in one operation, the kernel walks a 4 x 4 grid of 2048-wide blocks, clearing an
  accumulator at the head of each row of blocks, adding one block product per step and copying the accumulator out
  at the end of the row. Over the extended reals the four block products of a row regroup into the one sum over
  all 8192 columns (addition there is commutative and associative, and zero is neutral: no finiteness is needed),
  and the copy of the activations to the narrower format is the identity. Everything else — the embedding rows
  gathered, the dense layers, the rows normalised, the sum per molecule, the output layers — is the same
  operations on both sides.
  The frames: each kernel region runs its sixteen steps under an invariant that carries the accumulator from step
  to step; the regions are put into the program's run between the host stretches. The reference's frame is its
  run over the fold of its operations, none of which writes an argument.
-/
import proofs.«130713_j75840532512927_1_alg».proof.Defs
import proofs.«130713_j75840532512927_1_alg».proof.Proof.Gen.Kernel
import proofs.«130713_j75840532512927_1_alg».proof.Proof.Gen.KernelIdeal
import proofs.«130713_j75840532512927_1_alg».proof.Proof.Gen.ReferenceIdeal
import proofs.«130713_j75840532512927_1_alg».proof.Proof.Gen.Pre_finite_inputs
import proofs.«130713_j75840532512927_1_alg».proof.Proof.K.Glue
import proofs.«130713_j75840532512927_1_alg».proof.Proof.KI.Glue
import proofs.«130713_j75840532512927_1_alg».proof.Proof.Ref.KeepArgs
import proofs.«130713_j75840532512927_1_alg».proof.Proof.Bridge.Final
import Idealize.ShloMosaic.Adequacy
import Idealize.ShloMosaic.Init

noncomputable section

namespace Cert.Proof

open Idealize.ShloMosaic Idealize.ShloMosaic.TcCoe Idealize.SL.Sem

/-- The kernel's program, word for word: every execution ends with the arguments as launched. -/
theorem frame_k : Cert.frame_Kernel (hKernel := Cert.Kernel.Gen.facts) (hPre_finite_inputs := Cert.Pre_finite_inputs.Gen.facts) :=
  fun m ρ _ => Cert.Kernel.Hand.frameH m ρ

/-- The same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frameH m ρ

/-- The reference: its run over the fold of its operations, which write no argument. -/
theorem frame_ri : Cert.frame_ReferenceIdeal (hReferenceIdeal := Cert.ReferenceIdeal.Gen.facts) (hPre_finite_inputs := Cert.Pre_finite_inputs.Gen.facts) :=
  fun m' ρ _ => (θ_run Cert.ReferenceIdeal.defs _ _).mono
    (fun _ h c => by
      simp only [Cert.ReferenceIdeal.Hand.after_ops_eq] at h
      exact ⟨(h c Cert.ReferenceIdeal.main_arg0).trans (Cert.ReferenceIdeal.Hand.kept_arg0 m' c),
        (h c Cert.ReferenceIdeal.main_arg1).trans (Cert.ReferenceIdeal.Hand.kept_arg1 m' c),
        (h c Cert.ReferenceIdeal.main_arg2).trans (Cert.ReferenceIdeal.Hand.kept_arg2 m' c),
        (h c Cert.ReferenceIdeal.main_arg3).trans (Cert.ReferenceIdeal.Hand.kept_arg3 m' c),
        (h c Cert.ReferenceIdeal.main_arg4).trans (Cert.ReferenceIdeal.Hand.kept_arg4 m' c),
        (h c Cert.ReferenceIdeal.main_arg5).trans (Cert.ReferenceIdeal.Hand.kept_arg5 m' c),
        (h c Cert.ReferenceIdeal.main_arg6).trans (Cert.ReferenceIdeal.Hand.kept_arg6 m' c),
        (h c Cert.ReferenceIdeal.main_arg7).trans (Cert.ReferenceIdeal.Hand.kept_arg7 m' c),
        (h c Cert.ReferenceIdeal.main_arg8).trans (Cert.ReferenceIdeal.Hand.kept_arg8 m' c),
        (h c Cert.ReferenceIdeal.main_arg9).trans (Cert.ReferenceIdeal.Hand.kept_arg9 m' c)⟩)
    (Cert.ReferenceIdeal.Value.run_fold (F := Ideal) m' ρ)

/-- From memories agreeing on the arguments both programs end, with the same result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.V23 m (Cert.KernelIdeal.Hand.outsC m) c Cert.KernelIdeal.main_v88, Cert.KernelIdeal.Hand.runH m ρ, ?_⟩
  refine (θ_run Cert.ReferenceIdeal.defs _ _).mono (fun _ h c => ?_) (Cert.ReferenceIdeal.Value.run_fold (F := Ideal) m' ρ')
  simp only [Cert.ReferenceIdeal.Hand.after_ops_eq] at h
  obtain ⟨a0, a1, a2, a3, a4, a5, a6, a7, a8, a9⟩ := hagree c
  exact ⟨(h c Cert.ReferenceIdeal.main_v85).trans (Cert.Bridge.result_eq m c m' a0 a1 a2 a3 a4 a5 a6 a7 a8 a9),
        (h c Cert.ReferenceIdeal.main_arg0).trans (Cert.ReferenceIdeal.Hand.kept_arg0 m' c),
        (h c Cert.ReferenceIdeal.main_arg1).trans (Cert.ReferenceIdeal.Hand.kept_arg1 m' c),
        (h c Cert.ReferenceIdeal.main_arg2).trans (Cert.ReferenceIdeal.Hand.kept_arg2 m' c),
        (h c Cert.ReferenceIdeal.main_arg3).trans (Cert.ReferenceIdeal.Hand.kept_arg3 m' c),
        (h c Cert.ReferenceIdeal.main_arg4).trans (Cert.ReferenceIdeal.Hand.kept_arg4 m' c),
        (h c Cert.ReferenceIdeal.main_arg5).trans (Cert.ReferenceIdeal.Hand.kept_arg5 m' c),
        (h c Cert.ReferenceIdeal.main_arg6).trans (Cert.ReferenceIdeal.Hand.kept_arg6 m' c),
        (h c Cert.ReferenceIdeal.main_arg7).trans (Cert.ReferenceIdeal.Hand.kept_arg7 m' c),
        (h c Cert.ReferenceIdeal.main_arg8).trans (Cert.ReferenceIdeal.Hand.kept_arg8 m' c),
        (h c Cert.ReferenceIdeal.main_arg9).trans (Cert.ReferenceIdeal.Hand.kept_arg9 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
